-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S16x2 .f32) (main_arg8 : FVec F S2 .f32) (main_v33 : IVec S_ 1) : IVec S_ 1 :=
  let main_v34 : FVec F S16x2 .f32 := Host.absf main_arg7
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x2 .f32) (main_arg8 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x16 .f32) (main_arg2 : FVec F S16 .f32) (main_arg3 : FVec F S16x16 .f32) (main_arg4 : FVec F S16 .f32) (main_arg5 : FVec F S16x16 .f32) (main_arg6 : FVec F S16 .f32) (main_arg7 : FVec F S16x2 .f32) (main_arg8 : FVec F S2 .f32) (main_arg9 : IVec S1600000 32) (main_arg10 : IVec S1600000 32) (main_arg11 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S100000x1 : Shape := ⟨2, ![100000, 1]⟩
abbrev S1x16 : Shape := ⟨2, ![1, 16]⟩
abbrev S5000x1 : Shape := ⟨2, ![5000, 1]⟩
abbrev S256x16 : Shape := ⟨2, ![256, 16]⟩
abbrev S2000x16 : Shape := ⟨2, ![2000, 16]⟩
abbrev S2000x1 : Shape := ⟨2, ![2000, 1]⟩
abbrev S1x256 : Shape := ⟨2, ![1, 256]⟩
abbrev S2000x256 : Shape := ⟨2, ![2000, 256]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 99
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x2, .f32⟩
  | .hbm, ⟨8, _⟩ => ⟨S2, .f32⟩
  | .hbm, ⟨9, _⟩ => ⟨S1600000, .i32⟩
  | .hbm, ⟨10, _⟩ => ⟨S1600000, .i32⟩
  | .hbm, ⟨11, _⟩ => ⟨S100000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S100000x16, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x16, .f32⟩
  | .hbm, ⟨52, _⟩ => ⟨S1600000x1, .f32⟩
  | .hbm, ⟨53, _⟩ => ⟨S1600000x16, .f32⟩
  | .hbm, ⟨54, _⟩ => ⟨S1600000x16, .f32⟩
  | .hbm, ⟨55, _⟩ => ⟨S_, .f32⟩
  | .hbm, ⟨56, _⟩ => ⟨S100000x16, .f32⟩
  | .hbm, ⟨57, _⟩ => ⟨S1600000x1, .i32⟩
  | .hbm, ⟨58, _⟩ => ⟨S100000x16, .f32⟩
  | .hbm, ⟨59, _⟩ => ⟨S100000x1, .f32⟩
  | .hbm, ⟨60, _⟩ => ⟨S1x16, .f32⟩
  | .hbm, ⟨61, _⟩ => ⟨S100000x16, .f32⟩
  | .hbm, ⟨62, _⟩ => ⟨S100000x16, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x16, .f32⟩
  | .hbm, ⟨72, _⟩ => ⟨S1600000x1, .f32⟩
  | .hbm, ⟨73, _⟩ => ⟨S1600000x16, .f32⟩
  | .hbm, ⟨74, _⟩ => ⟨S1600000x16, .f32⟩
  | .hbm, ⟨75, _⟩ => ⟨S_, .f32⟩
  | .hbm, ⟨76, _⟩ => ⟨S100000x16, .f32⟩
  | .hbm, ⟨77, _⟩ => ⟨S1600000x1, .i32⟩
  | .hbm, ⟨78, _⟩ => ⟨S100000x16, .f32⟩
  | .hbm, ⟨79, _⟩ => ⟨S100000x1, .f32⟩
  | .hbm, ⟨80, _⟩ => ⟨S1x16, .f32⟩
  | .hbm, ⟨81, _⟩ => ⟨S100000x16, .f32⟩
  | .hbm, ⟨82, _⟩ => ⟨S100000x1, .i32⟩
  | .hbm, ⟨83, _⟩ => ⟨S256x16, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S256, .f32⟩
  | .hbm, ⟨88, _⟩ => ⟨S100000x1, .i32⟩
  | .hbm, ⟨89, _⟩ => ⟨S256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S256x1, .f32⟩
  | .hbm, ⟨94, _⟩ => ⟨S256x16, .f32⟩
  | .hbm, ⟨95, _⟩ => ⟨S256x16, .f32⟩
  | .hbm, ⟨96, _⟩ => ⟨S1x16, .f32⟩
  | .hbm, ⟨97, _⟩ => ⟨S1x2, .f32⟩
  | .hbm, ⟨98, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S2000x16, .f32⟩
  | .local _ .vmem, ⟨29, _⟩ => ⟨S2000x16, .f32⟩
  | .local _ .vmem, ⟨30, _⟩ => ⟨S2000x1, .i32⟩
  | .local _ .vmem, ⟨31, _⟩ => ⟨S2000x1, .i32⟩
  | .local _ .vmem, ⟨32, _⟩ => ⟨S256x16, .f32⟩
  | .local _ .vmem, ⟨33, _⟩ => ⟨S256x16, .f32⟩
  | .local _ .vmem, ⟨34, _⟩ => ⟨S256x16, .f32⟩
  | .local _ .vmem, ⟨35, _⟩ => ⟨S16x16, .f32⟩
  | .local _ .vmem, ⟨36, _⟩ => ⟨S1x16, .f32⟩
  | .local _ .vmem, ⟨37, _⟩ => ⟨S16x2, .f32⟩
  | .local _ .vmem, ⟨38, _⟩ => ⟨S1x2, .f32⟩
  | .local _ .vmem, ⟨39, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_8 : BitVec 32 := 0#32
  let v23 : BitVec 1 := Scalar.cmpi .ne v22 c0_i32_8
  v23

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S16x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S100000_S100000x1 : S100000.ShapeCasts S100000x1
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  iota_S1x256_d1_w32 : S1x256.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  broadcasts_S1x256_S2000x256 : S1x256.Broadcasts S2000x256
  natLt_1_32 : 1 < 32
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  shapeCasts_S2_S1x2 : S2.ShapeCasts S1x2
  broadcasts_S1x16_S256x16 : S1x16.Broadcasts S256x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x16_S5000x16_1_0_0_1_n_n_wf : DotDims.WF S5000x16 S16x16 S5000x16 [1] [0] [0] [1] [] []
  dot_S2000x256_S2000x16_S256x16_0_0_1_1_n_n_wf : DotDims.WF S2000x256 S2000x16 S256x16 [0] [0] [1] [1] [] []
  scatter_S256_S100000x1_S100000_n_0_0_1_wf : ScatterDims.WF S256 S100000x1 S100000 [] [0] [0] 1
  dot_S256x16_S16x16_S256x16_1_0_0_1_n_n_wf : DotDims.WF S256x16 S16x16 S256x16 [1] [0] [0] [1] [] []
  dot_S256x16_S16x2_S256x2_1_0_0_1_n_n_wf : DotDims.WF S256x16 S16x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S100000x16.size a
  hwx4_0 : ∀ i : grid4.Coords, EltTy.bits .f32 = 32 ∨ (Rect.block (s := S100000x16) S2000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x16.size a ≤ S256x16.size a
  hwx4_2 : ∀ i : grid4.Coords, EltTy.bits .f32 = 32 ∨ (Rect.block (s := S256x16) S256x16.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x16.size a ≤ S256x16.size a
  hwx5_0 : ∀ i : grid5.Coords, EltTy.bits .f32 = 32 ∨ (Rect.block (s := S256x16) S256x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x16.size a ≤ S16x16.size a
  hwx5_1 : ∀ i : grid5.Coords, EltTy.bits .f32 = 32 ∨ (Rect.block (s := S16x16) S16x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x2.size a ≤ S16x2.size a
  hwx5_3 : ∀ i : grid5.Coords, EltTy.bits .f32 = 32 ∨ (Rect.block (s := S16x2) S16x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x2.size a ≤ S256x2.size a
  hwx5_5 : ∀ i : grid5.Coords, EltTy.bits .f32 = 32 ∨ (Rect.block (s := S256x2) S256x2.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S2000x256_S2000x16_S256x16_0_0_1_1_n_n : DotDims S2000x256 S2000x16 S256x16 where
  lhsContracting := [0]
  rhsContracting := [0]
  lhsNonContracting := [1]
  rhsNonContracting := [1]
  lhsBatch := []
  rhsBatch := []
  wf := dot_S2000x256_S2000x16_S256x16_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S256x16.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v67) S256x16.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S16x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S16x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S256x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x16 : Shape := ⟨2, ![100000, 16]⟩
abbrev S1600000x16 : Shape := ⟨2, ![1600000, 16]⟩
abbrev S100000x1 : Shape := ⟨2, ![100000, 1]⟩
abbrev S1x16 : Shape := ⟨2, ![1, 16]⟩
abbrev S256x16 : Shape := ⟨2, ![256, 16]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S128x16, .f32⟩
  | 2 => ⟨S16, .f32⟩
  | 3 => ⟨S16x16, .f32⟩
  | 4 => ⟨S16, .f32⟩
  | 5 => ⟨S16x16, .f32⟩
  | 6 => ⟨S16, .f32⟩
  | 7 => ⟨S16x2, .f32⟩
  | 8 => ⟨S2, .f32⟩
  | 9 => ⟨S1600000, .i32⟩
  | 10 => ⟨S1600000, .i32⟩
  | 11 => ⟨S100000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x16, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x16, .f32⟩
  | 51 => ⟨S1600000x1, .f32⟩
  | 52 => ⟨S1600000x16, .f32⟩
  | 53 => ⟨S1600000x16, .f32⟩
  | 54 => ⟨S_, .f32⟩
  | 55 => ⟨S100000x16, .f32⟩
  | 56 => ⟨S1600000x1, .i32⟩
  | 57 => ⟨S100000x16, .f32⟩
  | 58 => ⟨S100000, .f32⟩
  | 59 => ⟨S100000x1, .f32⟩
  | 60 => ⟨S100000x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x16, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x16, .f32⟩
  | 98 => ⟨S1600000x1, .f32⟩
  | 99 => ⟨S1600000x16, .f32⟩
  | 100 => ⟨S1600000x16, .f32⟩
  | 101 => ⟨S_, .f32⟩
  | 102 => ⟨S100000x16, .f32⟩
  | 103 => ⟨S1600000x1, .i32⟩
  | 104 => ⟨S100000x16, .f32⟩
  | 105 => ⟨S100000, .f32⟩
  | 106 => ⟨S100000x1, .f32⟩
  | 107 => ⟨S100000x16, .f32⟩
  | 108 => ⟨S100000x16, .f32⟩
  | 109 => ⟨S100000x16, .f32⟩
  | 110 => ⟨S1x16, .f32⟩
  | 111 => ⟨S100000x16, .f32⟩
  | 112 => ⟨S100000x16, .f32⟩
  | 113 => ⟨S_, .f32⟩
  | 114 => ⟨S100000x16, .f32⟩
  | 115 => ⟨S100000x16, .f32⟩
  | 116 => ⟨S_, .f32⟩
  | 117 => ⟨S256x16, .f32⟩
  | 118 => ⟨S100000x1, .i32⟩
  | 119 => ⟨S256x16, .f32⟩
  | 120 => ⟨S_, .f32⟩
  | 121 => ⟨S100000, .f32⟩
  | 122 => ⟨S_, .f32⟩
  | 123 => ⟨S256, .f32⟩
  | 124 => ⟨S100000x1, .i32⟩
  | 125 => ⟨S256, .f32⟩
  | 126 => ⟨S_, .f32⟩
  | 127 => ⟨S256, .f32⟩
  | _ => ⟨S100000x128, .f32⟩

abbrev hbmTy0_1 (i : Nat) : BufTy := match i % 128 with
  | 0 => ⟨S256, .f32⟩
  | 1 => ⟨S256x1, .f32⟩
  | 2 => ⟨S256x16, .f32⟩
  | 3 => ⟨S256x16, .f32⟩
  | 4 => ⟨S256x16, .f32⟩
  | 5 => ⟨S1x16, .f32⟩
  | 6 => ⟨S256x16, .f32⟩
  | 7 => ⟨S256x16, .f32⟩
  | 8 => ⟨S_, .f32⟩
  | 9 => ⟨S256x16, .f32⟩
  | 10 => ⟨S256x16, .f32⟩
  | 11 => ⟨S256x2, .f32⟩
  | 12 => ⟨S1x2, .f32⟩
  | 13 => ⟨S256x2, .f32⟩
  | 14 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call1_cst : Ref sig .tc := ⟨.hbm, 113, rfl⟩
abbrev main_call1_v0 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_cst_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call2_cst : Ref sig .tc := ⟨.hbm, 136, rfl⟩
abbrev main_call2_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S256x16 : S_.BroadcastsInDim S256x16 (![] : Fin 0 → Fin S256x16.rank)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  bcast_S1x16_S256x16_0_1 : S1x16.BroadcastsInDim S256x16 (![0, 1] : Fin 2 → Fin S256x16.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1600000x1_S1600000_n_0_0_1_wf : ScatterDims.WF S100000 S1600000x1 S1600000 [] [0] [0] 1
  dot_S100000x128_S128x16_S100000x16_1_0_0_1_n_n_wf : DotDims.WF S100000x128 S128x16 S100000x16 [1] [0] [0] [1] [] []
  gather_S100000_S1600000x1_S1600000_n_0_n_n_0_1_1_wf : GatherDims.WF S100000 S1600000x1 S1600000 [] [0] [] [0] [] 1 ![1]
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x16_S100000x16_1_0_0_1_n_n_wf : DotDims.WF S100000x16 S16x16 S100000x16 [1] [0] [0] [1] [] []
  scatter_S256x16_S100000x1_S100000x16_1_0_0_1_wf : ScatterDims.WF S256x16 S100000x1 S100000x16 [1] [0] [0] 1
  scatter_S256_S100000x1_S100000_n_0_0_1_wf : ScatterDims.WF S256 S100000x1 S100000 [] [0] [0] 1
  dot_S256x16_S16x16_S256x16_1_0_0_1_n_n_wf : DotDims.WF S256x16 S16x16 S256x16 [1] [0] [0] [1] [] []
  dot_S256x16_S16x2_S256x2_1_0_0_1_n_n_wf : DotDims.WF S256x16 S16x2 S256x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S256x16_S100000x1_S100000x16_1_0_0_1 : ScatterDims S256x16 S100000x1 S100000x16 where
  updateWindowDims := [1]
  insertedWindowDims := [0]
  scatterDimsToOperandDims := [0]
  indexVectorDim := 1
  wf := scatter_S256x16_S100000x1_S100000x16_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x16_S16x16_S256x16_1_0_0_1_n_n : DotDims S256x16 S16x16 S256x16 where
  lhsContracting := [1]
  rhsContracting := [0]
  lhsNonContracting := [0]
  rhsNonContracting := [1]
  lhsBatch := []
  rhsBatch := []
  wf := dot_S256x16_S16x16_S256x16_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

class Facts : Prop extends Facts₀ where

variable [Facts]
-- ==== Proof.Bridge.Spec.lean ====
/-
  The reference's computation in stages, as whole-array functions of the twelve argument arrays: the degree
  normalisation `dinv = (deg + 1)^(-1/2)` (deg the number of edges ending at a node), the edge weight
  `norm e = dinv (src e) · dinv (dst e)`, one graph-convolution layer
  `max (Σ_{e : dst e = r} xw (src e) · norm e + xw r · dinv r² + b, 0)`, the mean pooling over the graphs of a batch
  and the two-layer head. `ref_whole`: the reference run's result term IS the composition of these stages.
-/
import proofs.«405230_j19808389169217_2_alg».proof.Proof.Gen.ReferenceIdeal.Run

set_option maxRecDepth 16384

noncomputable section

namespace Cert.Bridge

open Cert.ReferenceIdeal Cert.ReferenceIdeal.Gen Idealize.ShloMosaic Idealize.ShloMosaic.TcCoe Idealize.SL.Sem

variable {F : FTy → Type} [FloatOps F]

/-- An edge-endpoint array as gather indices: a negative word wrapped by the node count, as a column. -/
def idxOf (a : IVec S1600000 32) : IVec S1600000x1 32 :=
  broadcastInDim S1600000x1 ![0] bcast_S1600000_S1600000x1_0 (select (cmpi .slt a (broadcastInDim S1600000 ![] bcast_S_S1600000 (constantI S_ 32 0#32))) (addi a (broadcastInDim S1600000 ![] bcast_S_S1600000 (constantI S_ 32 100000#32))) a)

/-- `(deg + 1)^(-1/2)`, deg counting the edges that end at each node. -/
def dinv (a10 : IVec S1600000 32) : FVec F S100000 .f32 :=
  Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 a10) (broadcastInDim S1600000 ![] bcast_S_S1600000 (constant S_ .f32 0x3F800000#32))) (broadcastInDim S100000 ![] bcast_S_S100000 (constant S_ .f32 0x3F800000#32)))

/-- The weight of each edge: `dinv` at its source times `dinv` at its target. -/
def norm (a9 a10 : IVec S1600000 32) : FVec F S1600000 .f32 :=
  mulf (Host.gather gather_S100000_S1600000x1_S1600000_n_0_n_n_0_1_1 (dinv a10) (idxOf a9)) (Host.gather gather_S100000_S1600000x1_S1600000_n_0_n_n_0_1_1 (dinv a10) (idxOf a10))

/-- The all-zero [100000, 16] table. -/
def zerosN : FVec F S100000x16 .f32 := broadcastInDim S100000x16 ![] bcast_S_S100000x16 (constant S_ .f32 0x00000000#32)

/-- The neighbour sum of a layer: each edge's source row of `xw`, weighted, added into its target's row. -/
def agg (xw : FVec F S100000x16 .f32) (nrm : FVec F S1600000 .f32) (a9 a10 : IVec S1600000 32) : FVec F S100000x16 .f32 :=
  Host.scatterAdd scatter_S100000x16_S1600000x1_S1600000x16_1_0_0_1 zerosN (broadcastInDim S1600000x1 ![0] bcast_S1600000_S1600000x1_0 a10) (mulf (Host.gather gather_S100000x16_S1600000x1_S1600000x16_1_0_n_n_0_1_116 xw (idxOf a9)) (broadcastInDim S1600000x16 ![0, 1] bcast_S1600000x1_S1600000x16_0_1 (broadcastInDim S1600000x1 ![0] bcast_S1600000_S1600000x1_0 nrm)))

/-- One layer from the transformed features `xw`: neighbour sum, self term, bias, rectifier. -/
def layer (xw : FVec F S100000x16 .f32) (b : FVec F S16 .f32) (a9 a10 : IVec S1600000 32) : FVec F S100000x16 .f32 :=
  maximumf (addf (addf (agg xw (norm a9 a10) a9 a10) (mulf xw (broadcastInDim S100000x16 ![0, 1] bcast_S100000x1_S100000x16_0_1 (broadcastInDim S100000x1 ![0] bcast_S100000_S100000x1_0 (mulf (dinv a10) (dinv a10)))))) (broadcastInDim S100000x16 ![0, 1] bcast_S1x16_S100000x16_0_1 (broadcastInDim S1x16 ![1] bcast_S16_S1x16_1 b))) zerosN

/-- The per-graph row sums of `x`. -/
def sums (x : FVec F S100000x16 .f32) (a11 : IVec S100000 32) : FVec F S256x16 .f32 :=
  Host.scatterAdd scatter_S256x16_S100000x1_S100000x16_1_0_0_1 (broadcastInDim S256x16 ![] bcast_S_S256x16 (constant S_ .f32 0x00000000#32)) (broadcastInDim S100000x1 ![0] bcast_S100000_S100000x1_0 a11) x

/-- The per-graph node counts, at least one, spread over the 16 columns. -/
def cnts (a11 : IVec S100000 32) : FVec F S256x16 .f32 :=
  broadcastInDim S256x16 ![0, 1] bcast_S256x1_S256x16_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 a11) (broadcastInDim S100000 ![] bcast_S_S100000 (constant S_ .f32 0x3F800000#32))) (broadcastInDim S256 ![] bcast_S_S256 (constant S_ .f32 0x3F800000#32))))

/-- The head: `max (p · Wf + bf, 0) · Wo + bo`. -/
def head (p : FVec F S256x16 .f32) (a5 : FVec F S16x16 .f32) (a6 : FVec F S16 .f32) (a7 : FVec F S16x2 .f32) (a8 : FVec F S2 .f32) : FVec F S256x2 .f32 :=
  addf (Host.dotGeneral dot_S256x16_S16x2_S256x2_1_0_0_1_n_n none (maximumf (addf (Host.dotGeneral dot_S256x16_S16x16_S256x16_1_0_0_1_n_n none p a5) (broadcastInDim S256x16 ![0, 1] bcast_S1x16_S256x16_0_1 (broadcastInDim S1x16 ![1] bcast_S16_S1x16_1 a6))) (broadcastInDim S256x16 ![] bcast_S_S256x16 (constant S_ .f32 0x00000000#32))) a7) (broadcastInDim S256x2 ![0, 1] bcast_S1x2_S256x2_0_1 (broadcastInDim S1x2 ![1] bcast_S2_S1x2_1 a8))

/-- The first layer's output. -/
def x1 (a0 : FVec F S100000x128 .f32) (a1 : FVec F S128x16 .f32) (a2 : FVec F S16 .f32) (a9 a10 : IVec S1600000 32) : FVec F S100000x16 .f32 :=
  layer (Host.dotGeneral dot_S100000x128_S128x16_S100000x16_1_0_0_1_n_n none a0 a1) a2 a9 a10

/-- The second layer's output. -/
def x2 (a0 : FVec F S100000x128 .f32) (a1 : FVec F S128x16 .f32) (a2 : FVec F S16 .f32) (a3 : FVec F S16x16 .f32) (a4 : FVec F S16 .f32) (a9 a10 : IVec S1600000 32) : FVec F S100000x16 .f32 :=
  layer (Host.dotGeneral dot_S100000x16_S16x16_S100000x16_1_0_0_1_n_n none (x1 a0 a1 a2 a9 a10) a3) a4 a9 a10

/-- The whole computation. -/
def whole (a0 : FVec F S100000x128 .f32) (a1 : FVec F S128x16 .f32) (a2 : FVec F S16 .f32) (a3 : FVec F S16x16 .f32) (a4 : FVec F S16 .f32)
    (a5 : FVec F S16x16 .f32) (a6 : FVec F S16 .f32) (a7 : FVec F S16x2 .f32) (a8 : FVec F S2 .f32) (a9 a10 : IVec S1600000 32) (a11 : IVec S100000 32) : FVec F S256x2 .f32 :=
  head (Host.divf (sums (x2 a0 a1 a2 a3 a4 a9 a10) a11) (cnts a11)) a5 a6 a7 a8

/-- The reference run's result term is the staged computation of the argument arrays. -/
theorem ref_whole (m : (ℓ : Loc nD τ sig) → Buf (Elt F) ℓ) (c : Dev nD) :
    Cert.ReferenceIdeal.Value.res_main_v103 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v103 whole head sums cnts x2 x1 layer agg norm dinv idxOf zerosN
  rfl

end Cert.Bridge

end
-- ==== Proof.K.Reg2.lean ====
import proofs.«405230_j19808389169217_2_alg».proof.Proof.Gen.Kernel.Launch
import proofs.«405230_j19808389169217_2_alg».proof.Proof.Gen.Kernel.Skeleton
import proofs.«405230_j19808389169217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

-- the TensorCore's buffer contents when the region is entered
variable (V : (c : Dev nD) → (b : Ref sig .tc) → Buf (Elt F) ((c : Thread nD τ).loc b))

/-! # Region 2: `cc2__matmul_kernel`, a row block of the input rows times the whole of the weight matrix -/

/-- The block of window `w` at grid point `t`, read from the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input: its staging buffer holds the point's block, for any proof data over `V`'s array
    whose body leaves that block where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-matrix input is fetched once, at the first point; its block index never moves, so at every later
    point the buffer still holds that same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each is the whole of its buffer -/

abbrev rx2 : Rect S5000x16 := Rect.unit (s := S5000x16) ![0, 0] S5000x16.size inb_S5000x16_S5000x16_0_0
abbrev rw2 : Rect S16x16 := Rect.unit (s := S16x16) ![0, 0] S16x16.size inb_S16x16_S16x16_0_0
abbrev ro2 : Rect S5000x16 := Rect.unit (s := S5000x16) ![0, 0] S5000x16.size inb_S5000x16_S5000x16_0_0

/-- What the body leaves in the output window's buffer: its single store, the product payload of the two blocks. -/
def out2_2 (x0 : Vec F S5000x16 .f32) (x1 : Vec F S16x16 .f32) : Vec F S5000x16 .f32 :=
  View.canon [⟨ro2, k2_pay1 (View.ld x0 rx2) (View.ld x1 rw2)⟩]

/-- One store over the whole rectangle covers the buffer. -/
theorem cover2_2 (p0 : Vec F S5000x16 .f32) (y : S5000x16.Idx) :
    ∃ pc ∈ ([⟨ro2, p0⟩] : List (View.Piece (Elt F) S5000x16 .f32)), y ∈ pc.1.set :=
  View.cover_of_tiled [⟨ro2, p0⟩] S5000x16.size (by rfl) y

/-! ## The body's triple -/

set_option maxHeartbeats 1000000 in
/-- The body on whole staging memrefs: the inputs at read contents `x0`, `x1` and the output at anything; it
    returns the inputs untouched and the output at `out2_2 x0 x1`. The output buffer is loaded once before the
    store; what that load reads is not used. -/
theorem sound_kernel2 (c : Dev nD) (E : Set ℕ) (i : grid2.Coords)
    (arg1 : Memref sig .tc .vmem S5000x16 .f32) (harg1 : arg1.IsWhole) (arg2 : Memref sig .tc .vmem S16x16 .f32) (harg2 : arg2.IsWhole)
    (arg3 : Memref sig .tc .vmem S5000x16 .f32) (harg3 : arg3.IsWhole)
    (x0 : Vec F S5000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The arrays as the region finds them; after the body each input buffer still at its block and the output buffer
    at the product of the two blocks; the untouched rest as invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point both input buffers hold their blocks, so the body's triple applies; the invariant and what the core
    owes go through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Frame

end Cert.Kernel.Hand

end
-- ==== Proof.K.Reg3.lean ====
import proofs.«405230_j19808389169217_2_alg».proof.Proof.Gen.Kernel.Launch
import proofs.«405230_j19808389169217_2_alg».proof.Proof.Gen.Kernel.Skeleton
import proofs.«405230_j19808389169217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Frame3
variable (V : (c : Dev nD) → (b : Ref sig .tc) → Buf (Elt F) ((c : Thread nD τ).loc b))

/-! # Region 3: the elementwise kernel `cc3__post_kernel`, one row block of 5000 per grid point

Windows 0 and 1 are two [100000,16] arrays cut in row blocks [5000,16]; window 2 is a [100000,1] column cut
in blocks [5000,1]; window 3 is a [1,16] row taken whole at every point; window 4 is the [100000,16] result,
written back block by block. Everything here is stated at the contents `V` the region finds on entry. -/

/-- The part of window `w`'s array that lies under grid point `t`, read from the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The inputs' staging buffers

An input window whose body leaves its buffer untouched holds, at every point, the block of its array under
that point: where the block was just fetched this is what the fetch delivers; where it was not, the block index
has not moved since the last fetch and the body did not disturb the buffer. No window here is cut by its
array's edge and none is ever idle, so the side conditions are immediate. This covers the row window 3, whose
single block is fetched once and then stays. -/

theorem in3_0 {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by unfold Dat.blockOf iblk3; rw [hA]
  refine (dat.before_in_eq_fetched 0 rfl (fun _ => rfl) (fun _ _ _ => rfl) (fun s => ?_) t d).trans ?_
  · rw [hafter, hblk]
  · unfold Dat.fetched; rw [hblk]; rfl

theorem in3_1 {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by unfold Dat.blockOf iblk3; rw [hA]
  refine (dat.before_in_eq_fetched 1 rfl (fun _ => rfl) (fun _ _ _ => rfl) (fun s => ?_) t d).trans ?_
  · rw [hafter, hblk]
  · unfold Dat.fetched; rw [hblk]; rfl

theorem in3_2 {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by unfold Dat.blockOf iblk3; rw [hA]
  refine (dat.before_in_eq_fetched 2 rfl (fun _ => rfl) (fun _ _ _ => rfl) (fun s => ?_) t d).trans ?_
  · rw [hafter, hblk]
  · unfold Dat.fetched; rw [hblk]; rfl

theorem in3_3 {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by unfold Dat.blockOf iblk3; rw [hA]
  refine (dat.before_in_eq_fetched 3 rfl (fun _ => rfl) (fun _ _ _ => rfl) (fun s => ?_) t d).trans ?_
  · rw [hafter, hblk]
  · unfold Dat.fetched; rw [hblk]; rfl

/-! ## The body: four whole-buffer loads, one whole-buffer store -/

abbrev full3_a : Rect S5000x16 := Rect.unit (s := S5000x16) ![0, 0] S5000x16.size inb_S5000x16_S5000x16_0_0
abbrev full3_c : Rect S5000x1 := Rect.unit (s := S5000x1) ![0, 0] S5000x1.size inb_S5000x1_S5000x1_0_0
abbrev full3_r : Rect S1x16 := Rect.unit (s := S1x16) ![0, 0] S1x16.size inb_S1x16_S1x16_0_0

/-- What the body leaves in the result window's buffer, as a function of the four input buffers: the single
    store, of the payload on what the four loads read, taken as the one piece that makes up the buffer. -/
def out3_4 (x0 x1 : Vec F S5000x16 .f32) (x2 : Vec F S5000x1 .f32) (x3 : Vec F S1x16 .f32) : Vec F S5000x16 .f32 :=
  View.canon [⟨full3_a, k3_pay1 (View.ld x0 full3_a) (View.ld x1 full3_a) (View.ld x2 full3_c) (View.ld x3 full3_r)⟩]

/-- The stored rectangle is the whole buffer, so every index lies in it. -/
theorem cover3_4 (p : Vec F S5000x16 .f32) (y : S5000x16.Idx) :
    ∃ pc ∈ ([⟨full3_a, p⟩] : List (View.Piece (Elt F) S5000x16 .f32)), y ∈ pc.1.set :=
  View.cover_of_tiled [⟨full3_a, p⟩] S5000x16.size (by rfl) y

set_option maxHeartbeats 1000000 in
/-- The body's triple. Given the four input buffers at read contents `x0 … x3` and the result buffer at any
    contents, the body runs to a continuation that receives the inputs unchanged and the result buffer at
    `out3_4 x0 x1 x2 x3`. The grid coordinate is not used by the body. -/
theorem sound_kernel3 (c : Dev nD) (E : Set ℕ) (i : grid3.Coords)
    (a0 : Memref sig .tc .vmem S5000x16 .f32) (h0 : a0.IsWhole) (a1 : Memref sig .tc .vmem S5000x16 .f32) (h1 : a1.IsWhole)
    (a2 : Memref sig .tc .vmem S5000x1 .f32) (h2 : a2.IsWhole) (a3 : Memref sig .tc .vmem S1x16 .f32) (h3 : a3.IsWhole)
    (a4 : Memref sig .tc .vmem S5000x16 .f32) (h4 : a4.IsWhole)
    (x0 x1 : Vec F S5000x16 .f32) (x2 : Vec F S5000x1 .f32) (x3 : Vec F S1x16 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out3_4 x0 x1 x2 x3)) -∗ K ⟨⟩))
      ⊢ wp frame (wpE (defs₀ (F := F)) Variants.none c none) E (cc3__post_kernel i a0 h0 a1 h1 a2 h2 a3 h3 a4 h4) K := by
  simp only [cc3__post_kernel_eq_skeleton]; unfold cc3__post_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  rotate_left
  · iexact H4
  · ipureintro
    exact View.read_writes_eq_canon _ _ _ (cover3_4 _)

/-! ## The proof data of the pipeline -/

/-- The region's proof data on core `c`. The arrays start at the entry contents. After the body at point `t`
    every input buffer still holds its block, and the result buffer holds `out3_4` of the four input blocks.
    The invariant is the part of the core's state the region never touches; nothing is owed; all shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-! The contents after the body, window by window (the case split of `dat3` read off at each literal window). -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! The contents the body finds in each input buffer: the block under the point. -/

theorem before3_0 (c : Dev nD) (t : Fin cfg3.N) (d) : (dat3 V c).before 0 t d = iblk3 V c 0 t :=
  in3_0 V (dat3 V c) (A_eq3 V c 0) (after3_0 V c) t d
theorem before3_1 (c : Dev nD) (t : Fin cfg3.N) (d) : (dat3 V c).before 1 t d = iblk3 V c 1 t :=
  in3_1 V (dat3 V c) (A_eq3 V c 1) (after3_1 V c) t d
theorem before3_2 (c : Dev nD) (t : Fin cfg3.N) (d) : (dat3 V c).before 2 t d = iblk3 V c 2 t :=
  in3_2 V (dat3 V c) (A_eq3 V c 2) (after3_2 V c) t d
theorem before3_3 (c : Dev nD) (t : Fin cfg3.N) (d) : (dat3 V c).before 3 t d = iblk3 V c 3 t :=
  in3_3 V (dat3 V c) (A_eq3 V c 3) (after3_3 V c) t d

/-! ## The body obligation -/

/-- What the pipeline hands the body at point `t`: the invariant, what the core owes, and each window's current
    staging buffer at what it then holds. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body hands back: the same invariant and debt, and each buffer at its contents after the body. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at an arbitrary point. The four input buffers hold their blocks, so the body's triple applies with
    those blocks as the read contents; the invariant and the debt do not depend on the point and pass through. -/
theorem sound_body3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3]
  rw [after3_0, after3_1, after3_2, after3_3, after3_4,
    show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline: the statement above at every point, the five windows written out. -/
theorem body_obligation3 (c : Dev nD) : BodyObligation (dat3 (F := F) V c) (defs₀ (F := F)) Variants.none () Set.univ := fun t => by
  rw [bigSep_W3, bigSep_W3]
  exact sound_body3 V c t

end Frame3

end Cert.Kernel.Hand
end
-- ==== Proof.KI.Reg0.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value -- value only
import Idealize.ShloMosaic.Lib.ValueIdx -- value only
import Idealize.ShloMosaic.PureOps.Ideal.Laws -- value only

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

-- the TensorCore's buffer contents when the region is entered
variable (V : (c : Dev nD) → (b : Ref sig .tc) → Buf (Elt F) ((c : Thread nD τ).loc b))

/-! # Region 0: `cc0__matmul_kernel`, a row block of the input rows times the whole of the weight matrix -/

/-- The block of window `w` at grid point `t`, read from the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input: its staging buffer holds the point's block, for any proof data over `V`'s array
    whose body leaves that block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-matrix input is fetched once, at the first point; its block index never moves, so at every later
    point the buffer still holds that same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each is the whole of its buffer -/

abbrev rx0 : Rect S5000x128 := Rect.unit (s := S5000x128) ![0, 0] S5000x128.size inb_S5000x128_S5000x128_0_0
abbrev rw0 : Rect S128x16 := Rect.unit (s := S128x16) ![0, 0] S128x16.size inb_S128x16_S128x16_0_0
abbrev ro0 : Rect S5000x16 := Rect.unit (s := S5000x16) ![0, 0] S5000x16.size inb_S5000x16_S5000x16_0_0

/-- What the body leaves in the output window's buffer: its single store, the product payload of the two blocks. -/
def out0_2 (x0 : Vec F S5000x128 .f32) (x1 : Vec F S128x16 .f32) : Vec F S5000x16 .f32 :=
  View.canon [⟨ro0, k0_pay1 (View.ld x0 rx0) (View.ld x1 rw0)⟩]

/-- One store over the whole rectangle covers the buffer. -/
theorem cover0_2 (p0 : Vec F S5000x16 .f32) (y : S5000x16.Idx) :
    ∃ pc ∈ ([⟨ro0, p0⟩] : List (View.Piece (Elt F) S5000x16 .f32)), y ∈ pc.1.set :=
  View.cover_of_tiled [⟨ro0, p0⟩] S5000x16.size (by rfl) y

/-! ## The body's triple -/

set_option maxHeartbeats 1000000 in
/-- The body on whole staging memrefs: the inputs at read contents `x0`, `x1` and the output at anything; it
    returns the inputs untouched and the output at `out0_2 x0 x1`. The output buffer is loaded once before the
    store; what that load reads is not used. -/
theorem sound_kernel0 (c : Dev nD) (E : Set ℕ) (i : grid0.Coords)
    (arg1 : Memref sig .tc .vmem S5000x128 .f32) (harg1 : arg1.IsWhole) (arg2 : Memref sig .tc .vmem S128x16 .f32) (harg2 : arg2.IsWhole)
    (arg3 : Memref sig .tc .vmem S5000x16 .f32) (harg3 : arg3.IsWhole)
    (x0 : Vec F S5000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body each input buffer still at its block and the output buffer
    at the product of the two blocks; the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point both input buffers hold their blocks, so the body's triple applies; the invariant and what the core
    owes go through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Frame

/-! # Value (Ideal only) -/

section Value

open scoped BigOperators

variable (V : (c : Dev nD) → (b : Ref sig .tc) → Buf (Elt Ideal) ((c : Thread nD τ).loc b))

/-! ## The product payload at an index

At the ideal values the two roundings to bf16 are the identity and the matrix product into a zero accumulator is the
plain sum over the contracted axis. The contraction has one axis, of extent 128: its index is that one coordinate. -/

theorem lhs_pay0_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_pay0_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_pay0_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_pay0_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry (p, q) of the payload is the sum over k of x0 (p, k) · x1 (k, q). -/
theorem pay0_apply (x0 : FVec Ideal S5000x128 .f32) (x1 : FVec Ideal S128x16 .f32) (p : Fin 5000) (q : Fin 16) :
    k0_pay1 (F := Ideal) x0 x1 (ValueIdx.ix2 p q) = ∑ k : Fin 128, x0 (ValueIdx.ix2 p k) * x1 (ValueIdx.ix2 k q) := by
  unfold k0_pay1
  refine (Ideal.matmul_constant_zero_apply dot_S5000x128_S128x16_S5000x16_1_0_0_1_n_n none _ _ (ValueIdx.ix2 p q)).trans ?_
  rw [← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ValueIdx.ix2 p q) ((ValueIdx.contrEquiv1 dot_S5000x128_S128x16_S5000x16_1_0_0_1_n_n 128 rfl rfl).symm k) = ValueIdx.ix2 p k := funext fun a => Fin.ext (by
    match a with
    | ⟨0, _⟩ => exact lhs_pay0_0 _ _
    | ⟨1, _⟩ => exact (lhs_pay0_1 _ _).trans hk)
  have er : dot_S5000x128_S128x16_S5000x16_1_0_0_1_n_n.rhsIdx (ValueIdx.ix2 p q) ((ValueIdx.contrEquiv1 dot_S5000x128_S128x16_S5000x16_1_0_0_1_n_n 128 rfl rfl).symm k) = ValueIdx.ix2 k q := funext fun a => Fin.ext (by
    match a with
    | ⟨0, _⟩ => exact (rhs_pay0_0 _ _).trans hk
    | ⟨1, _⟩ => exact rhs_pay0_1 _ _)
  rw [el, er]
  rfl

/-! ## From blocks to the array -/

/-- The whole output array as one function of the two input arrays: the matrix product, entry by entry. -/
def G0 (a0 : S100000x128.Idx → EReal) (a1 : S128x16.Idx → EReal) : S100000x16.Idx → EReal :=
  fun i => ∑ k : Fin 128, a0 (ValueIdx.ix2 ⟨(i 0).val, (i 0).isLt⟩ k) * a1 (ValueIdx.ix2 k ⟨(i 1).val, (i 1).isLt⟩)

theorem hz0 : (![0, 0] : Fin 2 → Nat) = fun _ => 0 := funext fun a => by fin_cases a <;> rfl

/-- One term of the product depends only on where the two matrices are read. -/
theorem term_congr0 (a0 : S100000x128.Idx → EReal) (a1 : S128x16.Idx → EReal) {u u' : S100000x128.Idx} {v v' : S128x16.Idx}
    (hu : u = u') (hv : v = v') : a0 u * a1 v = a0 u' * a1 v' := by
  subst hu; subst hv; rfl

/-- The index maps over the 20 grid points: the row blocks of the input and of the output move together, block t at
    point t; the column index is 0 throughout, and the weight matrix is always its one block. -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is block t of the product of the arrays as the region finds them. -/
theorem flushed0_eq (c : Dev nD) (t : Fin cfg0.N) :
    (dat0 V c).flushed 2 t = ((cfg0.win 2).blk t).view.read (Elt Ideal) (G0 (V c main_arg0) (V c main_arg1)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x16) hz0]
  obtain ⟨e20, e21, e00, e01, e10, e11⟩ := idx_facts0 t
  funext y
  obtain ⟨p, q, rfl⟩ : ∃ (p : Fin 5000) (q : Fin 16), y = ValueIdx.ix2 p q := ⟨y 0, y 1, ValueIdx.eq_ix2 y⟩
  show k0_pay1 (F := Ideal) (iblk0 V c 0 t) (iblk0 V c 1 t) (ValueIdx.ix2 p q)
    = G0 (V c main_arg0) (V c main_arg1) (((cfg0.win 2).blk t).view.emb (ValueIdx.ix2 p q))
  refine (pay0_apply _ _ p q).trans ?_
  unfold G0
  refine Finset.sum_congr rfl fun k _ => ?_
  have h0 : ((cfg0.win 0).blk t).view.emb (ValueIdx.ix2 p k)
      = ValueIdx.ix2 ⟨((((cfg0.win 2).blk t).view.emb (ValueIdx.ix2 p q)) 0).val, ((((cfg0.win 2).blk t).view.emb (ValueIdx.ix2 p q)) 0).isLt⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ValueIdx.ix2 k q)
      = ValueIdx.ix2 k ⟨((((cfg0.win 2).blk t).view.emb (ValueIdx.ix2 p q)) 1).val, ((((cfg0.win 2).blk t).view.emb (ValueIdx.ix2 p q)) 1).isLt⟩ := by
    funext a; apply Fin.ext
    match a with
    | ⟨0, _⟩ => show win0_1.index t (0 : Fin 2) * 128 + 1 * k.val = k.val; omega
    | ⟨1, _⟩ => show win0_1.index t (1 : Fin 2) * 16 + 1 * q.val = win0_2.index t (1 : Fin 2) * 16 + 1 * q.val; omega
  exact term_congr0 (V c main_arg0) (V c main_arg1) h0 h1

/-- An index of the output array lies in point t's block iff each coordinate lies in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v23).slice (win0_2.rect t)).set ↔ _
  rw [View.set_slice_whole, Rect.mem_set_unit]
  exact Iff.rfl

/-- The 20 row blocks of 5000 rows tile the 100000 rows: row r lies in the block of point r / 5000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨e20, e21, -⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e21]; omega

/-- The output array after the region is the product of the two arrays the region found. -/
theorem final0 (c : Dev nD) : (dat0 V c).arrAt 2 cfg0.N = G0 (V c main_arg0) (V c main_arg1) :=
  (dat0 V c).arrAt_eq_of_cover 2 (G0 (V c main_arg0) (V c main_arg1)) (fun t _ => flushed0_eq V c t) cover0

/-- Entry (r, j) of the output array after the region. -/
theorem value0 (c : Dev nD) (r : Fin 100000) (j : Fin 16) :
    (dat0 V c).arrAt 2 cfg0.N (ValueIdx.ix2 r j)
      = ∑ k : Fin 128, (show S100000x128.Idx → EReal from V c main_arg0) (ValueIdx.ix2 r k) * (show S128x16.Idx → EReal from V c main_arg1) (ValueIdx.ix2 k j) := by
  rw [final0]
  rfl

end Value

end Cert.KernelIdeal.Hand

end
-- ==== Proof.KI.Reg1.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx -- value only
import Idealize.ShloMosaic.Lib.ValueLayout -- value only
import Idealize.ShloMosaic.Lib.Pipeline.Value -- value only
import Idealize.ShloMosaic.PureOps.Ideal.Laws -- value only
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Frame1
variable (V : (c : Dev nD) → (b : Ref sig .tc) → Buf (Elt F) ((c : Thread nD τ).loc b))

/-! # Region 1: the elementwise kernel `cc1__post_kernel`, one row block of 5000 per grid point

Windows 0 and 1 are two [100000,16] arrays cut in row blocks [5000,16]; window 2 is a [100000,1] column cut
in blocks [5000,1]; window 3 is a [1,16] row taken whole at every point; window 4 is the [100000,16] result,
written back block by block. Everything here is stated at the contents `V` the region finds on entry. -/

/-- The part of window `w`'s array that lies under grid point `t`, read from the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers

An input window whose body leaves its buffer untouched holds, at every point, the block of its array under
that point: where the block was just fetched this is what the fetch delivers; where it was not, the block index
has not moved since the last fetch and the body did not disturb the buffer. No window here is cut by its
array's edge and none is ever idle, so the side conditions are immediate. This covers the row window 3, whose
single block is fetched once and then stays. -/

theorem in1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hblk : ∀ s, dat.blockOf 0 s = iblk1 V c 0 s := fun s => by unfold Dat.blockOf iblk1; rw [hA]
  refine (dat.before_in_eq_fetched 0 rfl (fun _ => rfl) (fun _ _ _ => rfl) (fun s => ?_) t d).trans ?_
  · rw [hafter, hblk]
  · unfold Dat.fetched; rw [hblk]; rfl

theorem in1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hblk : ∀ s, dat.blockOf 1 s = iblk1 V c 1 s := fun s => by unfold Dat.blockOf iblk1; rw [hA]
  refine (dat.before_in_eq_fetched 1 rfl (fun _ => rfl) (fun _ _ _ => rfl) (fun s => ?_) t d).trans ?_
  · rw [hafter, hblk]
  · unfold Dat.fetched; rw [hblk]; rfl

theorem in1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hblk : ∀ s, dat.blockOf 2 s = iblk1 V c 2 s := fun s => by unfold Dat.blockOf iblk1; rw [hA]
  refine (dat.before_in_eq_fetched 2 rfl (fun _ => rfl) (fun _ _ _ => rfl) (fun s => ?_) t d).trans ?_
  · rw [hafter, hblk]
  · unfold Dat.fetched; rw [hblk]; rfl

theorem in1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hblk : ∀ s, dat.blockOf 3 s = iblk1 V c 3 s := fun s => by unfold Dat.blockOf iblk1; rw [hA]
  refine (dat.before_in_eq_fetched 3 rfl (fun _ => rfl) (fun _ _ _ => rfl) (fun s => ?_) t d).trans ?_
  · rw [hafter, hblk]
  · unfold Dat.fetched; rw [hblk]; rfl

/-! ## The body: four whole-buffer loads, one whole-buffer store -/

abbrev full1_a : Rect S5000x16 := Rect.unit (s := S5000x16) ![0, 0] S5000x16.size inb_S5000x16_S5000x16_0_0
abbrev full1_c : Rect S5000x1 := Rect.unit (s := S5000x1) ![0, 0] S5000x1.size inb_S5000x1_S5000x1_0_0
abbrev full1_r : Rect S1x16 := Rect.unit (s := S1x16) ![0, 0] S1x16.size inb_S1x16_S1x16_0_0

/-- What the body leaves in the result window's buffer, as a function of the four input buffers: the single
    store, of the payload on what the four loads read, taken as the one piece that makes up the buffer. -/
def out1_4 (x0 x1 : Vec F S5000x16 .f32) (x2 : Vec F S5000x1 .f32) (x3 : Vec F S1x16 .f32) : Vec F S5000x16 .f32 :=
  View.canon [⟨full1_a, k1_pay1 (View.ld x0 full1_a) (View.ld x1 full1_a) (View.ld x2 full1_c) (View.ld x3 full1_r)⟩]

/-- The stored rectangle is the whole buffer, so every index lies in it. -/
theorem cover1_4 (p : Vec F S5000x16 .f32) (y : S5000x16.Idx) :
    ∃ pc ∈ ([⟨full1_a, p⟩] : List (View.Piece (Elt F) S5000x16 .f32)), y ∈ pc.1.set :=
  View.cover_of_tiled [⟨full1_a, p⟩] S5000x16.size (by rfl) y

set_option maxHeartbeats 1000000 in
/-- The body's triple. Given the four input buffers at read contents `x0 … x3` and the result buffer at any
    contents, the body runs to a continuation that receives the inputs unchanged and the result buffer at
    `out1_4 x0 x1 x2 x3`. The grid coordinate is not used by the body. -/
theorem sound_kernel1 (c : Dev nD) (E : Set ℕ) (i : grid1.Coords)
    (a0 : Memref sig .tc .vmem S5000x16 .f32) (h0 : a0.IsWhole) (a1 : Memref sig .tc .vmem S5000x16 .f32) (h1 : a1.IsWhole)
    (a2 : Memref sig .tc .vmem S5000x1 .f32) (h2 : a2.IsWhole) (a3 : Memref sig .tc .vmem S1x16 .f32) (h3 : a3.IsWhole)
    (a4 : Memref sig .tc .vmem S5000x16 .f32) (h4 : a4.IsWhole)
    (x0 x1 : Vec F S5000x16 .f32) (x2 : Vec F S5000x1 .f32) (x3 : Vec F S1x16 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out1_4 x0 x1 x2 x3)) -∗ K ⟨⟩))
      ⊢ wp frame (wpE (defs₀ (F := F)) Variants.none c none) E (cc1__post_kernel i a0 h0 a1 h1 a2 h2 a3 h3 a4 h4) K := by
  simp only [cc1__post_kernel_eq_skeleton]; unfold cc1__post_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  rotate_left
  · iexact H4
  · ipureintro
    exact View.read_writes_eq_canon _ _ _ (cover1_4 _)

/-! ## The proof data of the pipeline -/

/-- The region's proof data on core `c`. The arrays start at the entry contents. After the body at point `t`
    every input buffer still holds its block, and the result buffer holds `out1_4` of the four input blocks.
    The invariant is the part of the core's state the region never touches; nothing is owed; all shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! The contents after the body, window by window (the case split of `dat1` read off at each literal window). -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! The contents the body finds in each input buffer: the block under the point. -/

theorem before1_0 (c : Dev nD) (t : Fin cfg1.N) (d) : (dat1 V c).before 0 t d = iblk1 V c 0 t :=
  in1_0 V (dat1 V c) (A_eq1 V c 0) (after1_0 V c) t d
theorem before1_1 (c : Dev nD) (t : Fin cfg1.N) (d) : (dat1 V c).before 1 t d = iblk1 V c 1 t :=
  in1_1 V (dat1 V c) (A_eq1 V c 1) (after1_1 V c) t d
theorem before1_2 (c : Dev nD) (t : Fin cfg1.N) (d) : (dat1 V c).before 2 t d = iblk1 V c 2 t :=
  in1_2 V (dat1 V c) (A_eq1 V c 2) (after1_2 V c) t d
theorem before1_3 (c : Dev nD) (t : Fin cfg1.N) (d) : (dat1 V c).before 3 t d = iblk1 V c 3 t :=
  in1_3 V (dat1 V c) (A_eq1 V c 3) (after1_3 V c) t d

/-! ## The body obligation -/

/-- What the pipeline hands the body at point `t`: the invariant, what the core owes, and each window's current
    staging buffer at what it then holds. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the same invariant and debt, and each buffer at its contents after the body. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at an arbitrary point. The four input buffers hold their blocks, so the body's triple applies with
    those blocks as the read contents; the invariant and the debt do not depend on the point and pass through. -/
theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [after1_0, after1_1, after1_2, after1_3, after1_4,
    show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline: the statement above at every point, the five windows written out. -/
theorem body_obligation1 (c : Dev nD) : BodyObligation (dat1 (F := F) V c) (defs₀ (F := F)) Variants.none () Set.univ := fun t => by
  rw [bigSep_W1, bigSep_W1]
  exact sound_body1 V c t

end Frame1

/-! # Value (Ideal only) -/

section Value1
open Idealize.ShloMosaic.ValueIdx

/-! ## The payload at one element

Over the extended reals the payload is, element by element, `max (agg + xw * dcol + brow) 0`. The shape casts are
to the same shape and change nothing; the [5000,1] column is repeated along each row's 16 entries, so at `(p, q)`
it is read at `(p, 0)`; the [1,16] row is repeated down the 5000 rows, so it is read at `(0, q)`; the constant's
word is the number 0, and the maximum of two extended reals is their `max`. -/

theorem pay1_apply (x0 x1 : Vec Ideal S5000x16 .f32) (x2 : Vec Ideal S5000x1 .f32) (x3 : Vec Ideal S1x16 .f32)
    (p : Fin 5000) (q : Fin 16) :
    k1_pay1 x0 x1 x2 x3 (ix2 p q)
      = max (x0 (ix2 p q) + x1 (ix2 p q) * x2 (ix2 p (0 : Fin 1)) + x3 (ix2 (0 : Fin 1) q)) 0 := by
  have ecol : broadcastTo S5000x16 x2 broadcasts_S5000x1_S5000x16 (ix2 p q) = x2 (ix2 p (0 : Fin 1)) :=
    broadcastTo_apply x2 _ (ix2 p q) (ix2 p (0 : Fin 1)) fun a => by
      match a with
      | ⟨0, _⟩ => rfl
      | ⟨1, _⟩ => rfl
  have erow : broadcastTo S5000x16 x3 broadcasts_S1x16_S5000x16 (ix2 p q) = x3 (ix2 (0 : Fin 1) q) :=
    broadcastTo_1b_ab_apply x3 _ p q
  unfold k1_pay1
  simp only [shapeCast_self, maximumf_apply, addf_apply, mulf_apply, broadcast_apply, ecol, erow]
  rw [show Scalar.ofBits (F := Ideal) .f32 0x00000000#32 = Ideal.ofBits .f32 0x00000000#32 from rfl,
    Ideal.ofBits_zero_f32]

/-- The payload as a function of the block index, its two coordinates taken apart. -/
theorem pay1_fun (x0 x1 : Vec Ideal S5000x16 .f32) (x2 : Vec Ideal S5000x1 .f32) (x3 : Vec Ideal S1x16 .f32) :
    k1_pay1 x0 x1 x2 x3
      = fun y : S5000x16.Idx => max (x0 y + x1 y * x2 (ix2 (y 0) (0 : Fin 1)) + x3 (ix2 (0 : Fin 1) (y 1))) 0 := by
  funext y
  obtain ⟨p, q, rfl⟩ : ∃ (p : Fin 5000) (q : Fin 16), y = ix2 p q := ⟨y 0, y 1, eq_ix2 y⟩
  exact pay1_apply x0 x1 x2 x3 p q

/-! ## The result array as one function of the four input arrays -/

/-- Element `(r, j)` of the result: `max (agg (r, j) + xw (r, j) * dcol (r, 0) + brow (0, j)) 0`. -/
def G1 (a0 a1 : S100000x16.Idx → EReal) (a2 : S100000x1.Idx → EReal) (a3 : S1x16.Idx → EReal) : S100000x16.Idx → EReal :=
  fun i => max (a0 i + a1 i * a2 (ix2 (i 0) (0 : Fin 1)) + a3 (ix2 (0 : Fin 1) (i 1))) 0

/-- The same, read at an index given by its coordinates. -/
theorem G1_apply (a0 a1 : S100000x16.Idx → EReal) (a2 : S100000x1.Idx → EReal) (a3 : S1x16.Idx → EReal)
    (r : Fin 100000) (j : Fin 16) :
    G1 a0 a1 a2 a3 (ix2 r j) = max (a0 (ix2 r j) + a1 (ix2 r j) * a2 (ix2 r (0 : Fin 1)) + a3 (ix2 (0 : Fin 1) j)) 0 := rfl

/-- The elementwise expression on four reads is `G1` at `i` as soon as the two matrices are read at `i`, the
    column at row `i 0` and the row at column `i 1`. -/
theorem G1_of_reads (a0 a1 : S100000x16.Idx → EReal) (a2 : S100000x1.Idx → EReal) (a3 : S1x16.Idx → EReal)
    (i0 i1 i : S100000x16.Idx) (i2 : S100000x1.Idx) (i3 : S1x16.Idx)
    (h0 : i0 = i) (h1 : i1 = i) (h2 : i2 = ix2 (i 0) (0 : Fin 1)) (h3 : i3 = ix2 (0 : Fin 1) (i 1)) :
    max (a0 i0 + a1 i1 * a2 i2 + a3 i3) 0 = G1 a0 a1 a2 a3 i := by
  subst h0 h1 h2 h3; rfl

theorem zeros1 : (![0, 0] : Fin 2 → Nat) = fun _ => 0 := funext fun a => by fin_cases a <;> rfl

/-- The printed index maps over the 20 grid points: windows 0, 1, 2 and 4 take block row `t` and block column 0;
    the row window 3 is always its one block. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of `G1` of the four arrays as the region finds them: each input block
    is read at the rows `5000 t + p` the result block occupies (the column at column 0, the row at row 0). -/
theorem flushed1_eq (c : Dev nD) (t : Fin cfg1.N) :
    (dat1 V c).flushed 4 t
      = ((cfg1.win 4).blk t).view.read (Elt Ideal) (G1 (V c main_v36) (V c main_v23) (V c main_v37) (V c main_v38)) := by
  show (cfg1.win 4).cut (grid1.coords t) ((dat1 V c).after 4 t) = _
  rw [after1_4]
  unfold out1_4
  rw [View.canon_unit_zero zeros1]
  simp only [View.ld_unit_zero (S := S5000x16) zeros1, View.ld_unit_zero (S := S5000x1) zeros1,
    View.ld_unit_zero (S := S1x16) zeros1]
  rw [pay1_fun]
  obtain ⟨e00, e01, e10, e11, e20, e21, e30, e31, e40, e41⟩ := index1 t
  funext y
  have h0 : ((cfg1.win 0).blk t).view.emb y = ((cfg1.win 4).blk t).view.emb y := by
    funext a; apply Fin.ext
    match a with
    | ⟨0, _⟩ =>
      show win1_0.index t (0 : Fin 2) * 5000 + 1 * (y 0).val = win1_4.index t (0 : Fin 2) * 5000 + 1 * (y 0).val
      omega
    | ⟨1, _⟩ =>
      show win1_0.index t (1 : Fin 2) * 16 + 1 * (y 1).val = win1_4.index t (1 : Fin 2) * 16 + 1 * (y 1).val
      omega
  have h1 : ((cfg1.win 1).blk t).view.emb y = ((cfg1.win 4).blk t).view.emb y := by
    funext a; apply Fin.ext
    match a with
    | ⟨0, _⟩ =>
      show win1_1.index t (0 : Fin 2) * 5000 + 1 * (y 0).val = win1_4.index t (0 : Fin 2) * 5000 + 1 * (y 0).val
      omega
    | ⟨1, _⟩ =>
      show win1_1.index t (1 : Fin 2) * 16 + 1 * (y 1).val = win1_4.index t (1 : Fin 2) * 16 + 1 * (y 1).val
      omega
  have h2 : ((cfg1.win 2).blk t).view.emb (ix2 (y 0) (0 : Fin 1))
      = ix2 ((((cfg1.win 4).blk t).view.emb y) 0) (0 : Fin 1) := by
    funext a; apply Fin.ext
    match a with
    | ⟨0, _⟩ =>
      show win1_2.index t (0 : Fin 2) * 5000 + 1 * (y 0).val = win1_4.index t (0 : Fin 2) * 5000 + 1 * (y 0).val
      omega
    | ⟨1, _⟩ =>
      show win1_2.index t (1 : Fin 2) * 1 + 1 * 0 = 0
      omega
  have h3 : ((cfg1.win 3).blk t).view.emb (ix2 (0 : Fin 1) (y 1))
      = ix2 (0 : Fin 1) ((((cfg1.win 4).blk t).view.emb y) 1) := by
    funext a; apply Fin.ext
    match a with
    | ⟨0, _⟩ =>
      show win1_3.index t (0 : Fin 2) * 1 + 1 * 0 = 0
      omega
    | ⟨1, _⟩ =>
      show win1_3.index t (1 : Fin 2) * 16 + 1 * (y 1).val = win1_4.index t (1 : Fin 2) * 16 + 1 * (y 1).val
      omega
  exact G1_of_reads (V c main_v36) (V c main_v23) (V c main_v37) (V c main_v38) _ _ _ _ _ h0 h1 h2 h3

/-! ## The blocks cover the array -/

/-- An index lies in point `t`'s result block exactly when each coordinate lies in the block's range on its axis. -/
theorem mem_blk1 (t : Fin cfg1.N) (i : S100000x16.Idx) :
    i ∈ ((cfg1.win 4).blk t).view.set ↔ ∀ a : Fin 2, win1_4.index t a * S5000x16.size a ≤ (i a).val
      ∧ (i a).val < win1_4.index t a * S5000x16.size a + S5000x16.size a := by
  show i ∈ ((View.whole main_v39).slice (win1_4.rect t)).set ↔ _
  rw [View.set_slice_whole, Rect.mem_set_unit]
  exact Iff.rfl

/-- Row `r` of the result lies in the block of point `r / 5000`, and every point writes its block back. -/
theorem cover1 (i : S100000x16.Idx) :
    ∃ t : Fin cfg1.N, (cfg1.win 4).flush t = true ∧ i ∈ ((cfg1.win 4).blk t).view.set := by
  have hr : (i 0).val < 100000 := idx2_lt0 i
  have hc : (i 1).val < 16 := idx2_lt1 i
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, e40, e41⟩ := index1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 16 ≤ (i 1).val ∧ (i 1).val < win1_4.index t (1 : Fin 2) * 16 + 16
    omega

/-- After the region the result array is `G1` of the four input arrays as the region found them. -/
theorem final1 (c : Dev nD) :
    (dat1 V c).arrAt 4 cfg1.N = G1 (V c main_v36) (V c main_v23) (V c main_v37) (V c main_v38) :=
  (dat1 V c).arrAt_eq_of_cover 4 (G1 (V c main_v36) (V c main_v23) (V c main_v37) (V c main_v38))
    (fun t _ => flushed1_eq V c t) cover1

/-- Element `(r, j)` of the result array after the region, as `G1` of the entry arrays (`G1_apply` spells it out). -/
theorem value1 (V : (c : Dev nD) → (b : Ref sig .tc) → Buf (Elt Ideal) ((c : Thread nD τ).loc b)) (c : Dev nD)
    (r : Fin 100000) (j : Fin 16) :
    (dat1 V c).arrAt 4 cfg1.N (ValueIdx.ix2 r j)
      = G1 (V c main_v36) (V c main_v23) (V c main_v37) (V c main_v38) (ValueIdx.ix2 r j) :=
  congrFun (final1 V c) (ValueIdx.ix2 r j)

/-- The same with the four entry arrays named as functions to the extended reals: element `(r, j)` is
    `max (agg (r, j) + xw (r, j) * dcol (r, 0) + brow (0, j)) 0`. -/
theorem value1_at (V : (c : Dev nD) → (b : Ref sig .tc) → Buf (Elt Ideal) ((c : Thread nD τ).loc b)) (c : Dev nD)
    (a0 a1 : S100000x16.Idx → EReal) (a2 : S100000x1.Idx → EReal) (a3 : S1x16.Idx → EReal)
    (h0 : V c main_v36 = a0) (h1 : V c main_v23 = a1) (h2 : V c main_v37 = a2) (h3 : V c main_v38 = a3)
    (r : Fin 100000) (j : Fin 16) :
    (dat1 V c).arrAt 4 cfg1.N (ValueIdx.ix2 r j)
      = max (a0 (ValueIdx.ix2 r j) + a1 (ValueIdx.ix2 r j) * a2 (ValueIdx.ix2 r (0 : Fin 1))
          + a3 (ValueIdx.ix2 (0 : Fin 1) j)) 0 := by
  subst h0 h1 h2 h3
  exact (value1 V c r j).trans (G1_apply _ _ _ _ r j)

end Value1

end Cert.KernelIdeal.Hand
end
-- ==== Proof.KI.Reg2.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value -- value only
import Idealize.ShloMosaic.Lib.ValueIdx -- value only
import Idealize.ShloMosaic.PureOps.Ideal.Laws -- value only

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

-- the TensorCore's buffer contents when the region is entered
variable (V : (c : Dev nD) → (b : Ref sig .tc) → Buf (Elt F) ((c : Thread nD τ).loc b))

/-! # Region 2: `cc2__matmul_kernel`, a row block of the input rows times the whole of the weight matrix -/

/-- The block of window `w` at grid point `t`, read from the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input: its staging buffer holds the point's block, for any proof data over `V`'s array
    whose body leaves that block where it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-matrix input is fetched once, at the first point; its block index never moves, so at every later
    point the buffer still holds that same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each is the whole of its buffer -/

abbrev rx2 : Rect S5000x16 := Rect.unit (s := S5000x16) ![0, 0] S5000x16.size inb_S5000x16_S5000x16_0_0
abbrev rw2 : Rect S16x16 := Rect.unit (s := S16x16) ![0, 0] S16x16.size inb_S16x16_S16x16_0_0
abbrev ro2 : Rect S5000x16 := Rect.unit (s := S5000x16) ![0, 0] S5000x16.size inb_S5000x16_S5000x16_0_0

/-- What the body leaves in the output window's buffer: its single store, the product payload of the two blocks. -/
def out2_2 (x0 : Vec F S5000x16 .f32) (x1 : Vec F S16x16 .f32) : Vec F S5000x16 .f32 :=
  View.canon [⟨ro2, k2_pay1 (View.ld x0 rx2) (View.ld x1 rw2)⟩]

/-- One store over the whole rectangle covers the buffer. -/
theorem cover2_2 (p0 : Vec F S5000x16 .f32) (y : S5000x16.Idx) :
    ∃ pc ∈ ([⟨ro2, p0⟩] : List (View.Piece (Elt F) S5000x16 .f32)), y ∈ pc.1.set :=
  View.cover_of_tiled [⟨ro2, p0⟩] S5000x16.size (by rfl) y

/-! ## The body's triple -/

set_option maxHeartbeats 1000000 in
/-- The body on whole staging memrefs: the inputs at read contents `x0`, `x1` and the output at anything; it
    returns the inputs untouched and the output at `out2_2 x0 x1`. The output buffer is loaded once before the
    store; what that load reads is not used. -/
theorem sound_kernel2 (c : Dev nD) (E : Set ℕ) (i : grid2.Coords)
    (arg1 : Memref sig .tc .vmem S5000x16 .f32) (harg1 : arg1.IsWhole) (arg2 : Memref sig .tc .vmem S16x16 .f32) (harg2 : arg2.IsWhole)
    (arg3 : Memref sig .tc .vmem S5000x16 .f32) (harg3 : arg3.IsWhole)
    (x0 : Vec F S5000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- The arrays as the region finds them; after the body each input buffer still at its block and the output buffer
    at the product of the two blocks; the untouched rest as invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point both input buffers hold their blocks, so the body's triple applies; the invariant and what the core
    owes go through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Frame

/-! # Value (Ideal only) -/

section Value

open scoped BigOperators

variable (V : (c : Dev nD) → (b : Ref sig .tc) → Buf (Elt Ideal) ((c : Thread nD τ).loc b))

/-! ## The product payload at an index

At the ideal values the two roundings to bf16 are the identity and the matrix product into a zero accumulator is the
plain sum over the contracted axis. The contraction has one axis, of extent 16: its index is that one coordinate. -/

theorem lhs_pay2_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem lhs_pay2_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
theorem rhs_pay2_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
theorem rhs_pay2_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- Entry (p, q) of the payload is the sum over k of x0 (p, k) · x1 (k, q). -/
theorem pay2_apply (x0 : FVec Ideal S5000x16 .f32) (x1 : FVec Ideal S16x16 .f32) (p : Fin 5000) (q : Fin 16) :
    k2_pay1 (F := Ideal) x0 x1 (ValueIdx.ix2 p q) = ∑ k : Fin 16, x0 (ValueIdx.ix2 p k) * x1 (ValueIdx.ix2 k q) := by
  unfold k2_pay1
  rw [shapeCast_self]
  refine (Ideal.matmul_constant_zero_apply dot_S5000x16_S16x16_S5000x16_1_0_0_1_n_n none _ _ (ValueIdx.ix2 p q)).trans ?_
  rw [← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ValueIdx.ix2 p q) ((ValueIdx.contrEquiv1 dot_S5000x16_S16x16_S5000x16_1_0_0_1_n_n 16 rfl rfl).symm k) = ValueIdx.ix2 p k := funext fun a => Fin.ext (by
    match a with
    | ⟨0, _⟩ => exact lhs_pay2_0 _ _
    | ⟨1, _⟩ => exact (lhs_pay2_1 _ _).trans hk)
  have er : dot_S5000x16_S16x16_S5000x16_1_0_0_1_n_n.rhsIdx (ValueIdx.ix2 p q) ((ValueIdx.contrEquiv1 dot_S5000x16_S16x16_S5000x16_1_0_0_1_n_n 16 rfl rfl).symm k) = ValueIdx.ix2 k q := funext fun a => Fin.ext (by
    match a with
    | ⟨0, _⟩ => exact (rhs_pay2_0 _ _).trans hk
    | ⟨1, _⟩ => exact rhs_pay2_1 _ _)
  rw [el, er]
  rfl

/-! ## From blocks to the array -/

/-- The whole output array as one function of the two input arrays: the matrix product, entry by entry. -/
def G2 (a0 : S100000x16.Idx → EReal) (a1 : S16x16.Idx → EReal) : S100000x16.Idx → EReal :=
  fun i => ∑ k : Fin 16, a0 (ValueIdx.ix2 ⟨(i 0).val, (i 0).isLt⟩ k) * a1 (ValueIdx.ix2 k ⟨(i 1).val, (i 1).isLt⟩)

theorem hz2 : (![0, 0] : Fin 2 → Nat) = fun _ => 0 := funext fun a => by fin_cases a <;> rfl

/-- One term of the product depends only on where the two matrices are read. -/
theorem term_congr2 (a0 : S100000x16.Idx → EReal) (a1 : S16x16.Idx → EReal) {u u' : S100000x16.Idx} {v v' : S16x16.Idx}
    (hu : u = u') (hv : v = v') : a0 u * a1 v = a0 u' * a1 v' := by
  subst hu; subst hv; rfl

/-- The index maps over the 20 grid points: the row blocks of the input and of the output move together, block t at
    point t; the column index is 0 throughout, and the weight matrix is always its one block. -/
theorem idx_facts2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point t writes back is block t of the product of the arrays as the region finds them. -/
theorem flushed2_eq (c : Dev nD) (t : Fin cfg2.N) :
    (dat2 V c).flushed 2 t = ((cfg2.win 2).blk t).view.read (Elt Ideal) (G2 (V c main_v39) (V c main_arg3)) := by
  show (cfg2.win 2).cut (grid2.coords t) ((dat2 V c).after 2 t) = _
  rw [after2_2]
  unfold out2_2
  rw [View.canon_unit_zero hz2]
  simp only [View.ld_unit_zero (S := S5000x16) hz2, View.ld_unit_zero (S := S16x16) hz2]
  obtain ⟨e20, e21, e00, e01, e10, e11⟩ := idx_facts2 t
  funext y
  obtain ⟨p, q, rfl⟩ : ∃ (p : Fin 5000) (q : Fin 16), y = ValueIdx.ix2 p q := ⟨y 0, y 1, ValueIdx.eq_ix2 y⟩
  show k2_pay1 (F := Ideal) (iblk2 V c 0 t) (iblk2 V c 1 t) (ValueIdx.ix2 p q)
    = G2 (V c main_v39) (V c main_arg3) (((cfg2.win 2).blk t).view.emb (ValueIdx.ix2 p q))
  refine (pay2_apply _ _ p q).trans ?_
  unfold G2
  refine Finset.sum_congr rfl fun k _ => ?_
  have h0 : ((cfg2.win 0).blk t).view.emb (ValueIdx.ix2 p k)
      = ValueIdx.ix2 ⟨((((cfg2.win 2).blk t).view.emb (ValueIdx.ix2 p q)) 0).val, ((((cfg2.win 2).blk t).view.emb (ValueIdx.ix2 p q)) 0).isLt⟩ k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * k.val = k.val; omega
  have h1 : ((cfg2.win 1).blk t).view.emb (ValueIdx.ix2 k q)
      = ValueIdx.ix2 k ⟨((((cfg2.win 2).blk t).view.emb (ValueIdx.ix2 p q)) 1).val, ((((cfg2.win 2).blk t).view.emb (ValueIdx.ix2 p q)) 1).isLt⟩ := by
    funext a; apply Fin.ext
    match a with
    | ⟨0, _⟩ => show win2_1.index t (0 : Fin 2) * 16 + 1 * k.val = k.val; omega
    | ⟨1, _⟩ => show win2_1.index t (1 : Fin 2) * 16 + 1 * q.val = win2_2.index t (1 : Fin 2) * 16 + 1 * q.val; omega
  exact term_congr2 (V c main_v39) (V c main_arg3) h0 h1

/-- An index of the output array lies in point t's block iff each coordinate lies in the block's range on its axis. -/
theorem mem_blk2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v40).slice (win2_2.rect t)).set ↔ _
  rw [View.set_slice_whole, Rect.mem_set_unit]
  exact Iff.rfl

/-- The 20 row blocks of 5000 rows tile the 100000 rows: row r lies in the block of point r / 5000. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  have ht : (i 0).val / 5000 < cfg2.N := by rw [hN]; omega
  obtain ⟨e20, e21, -⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, ht⟩ (1 : Fin 2) * 16 ≤ (i 1).val ∧ (i 1).val < win2_2.index ⟨(i 0).val / 5000, ht⟩ (1 : Fin 2) * 16 + 16
    rw [e21]; omega

/-- The output array after the region is the product of the two arrays the region found. -/
theorem final2 (c : Dev nD) : (dat2 V c).arrAt 2 cfg2.N = G2 (V c main_v39) (V c main_arg3) :=
  (dat2 V c).arrAt_eq_of_cover 2 (G2 (V c main_v39) (V c main_arg3)) (fun t _ => flushed2_eq V c t) cover2

/-- Entry (r, j) of the output array after the region. -/
theorem value2 (c : Dev nD) (r : Fin 100000) (j : Fin 16) :
    (dat2 V c).arrAt 2 cfg2.N (ValueIdx.ix2 r j)
      = ∑ k : Fin 16, (show S100000x16.Idx → EReal from V c main_v39) (ValueIdx.ix2 r k) * (show S16x16.Idx → EReal from V c main_arg3) (ValueIdx.ix2 k j) := by
  rw [final2]
  rfl

end Value

end Cert.KernelIdeal.Hand

end
-- ==== Proof.KI.Reg3.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx -- value only
import Idealize.ShloMosaic.Lib.ValueLayout -- value only
import Idealize.ShloMosaic.Lib.Pipeline.Value -- value only
import Idealize.ShloMosaic.PureOps.Ideal.Laws -- value only
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Frame3
variable (V : (c : Dev nD) → (b : Ref sig .tc) → Buf (Elt F) ((c : Thread nD τ).loc b))

/-! # Region 3: the elementwise kernel `cc3__post_kernel`, one row block of 5000 per grid point

Windows 0 and 1 are two [100000,16] arrays cut in row blocks [5000,16]; window 2 is a [100000,1] column cut
in blocks [5000,1]; window 3 is a [1,16] row taken whole at every point; window 4 is the [100000,16] result,
written back block by block. Everything here is stated at the contents `V` the region finds on entry. -/

/-- The part of window `w`'s array that lies under grid point `t`, read from the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The inputs' staging buffers

An input window whose body leaves its buffer untouched holds, at every point, the block of its array under
that point: where the block was just fetched this is what the fetch delivers; where it was not, the block index
has not moved since the last fetch and the body did not disturb the buffer. No window here is cut by its
array's edge and none is ever idle, so the side conditions are immediate. This covers the row window 3, whose
single block is fetched once and then stays. -/

theorem in3_0 {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by unfold Dat.blockOf iblk3; rw [hA]
  refine (dat.before_in_eq_fetched 0 rfl (fun _ => rfl) (fun _ _ _ => rfl) (fun s => ?_) t d).trans ?_
  · rw [hafter, hblk]
  · unfold Dat.fetched; rw [hblk]; rfl

theorem in3_1 {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by unfold Dat.blockOf iblk3; rw [hA]
  refine (dat.before_in_eq_fetched 1 rfl (fun _ => rfl) (fun _ _ _ => rfl) (fun s => ?_) t d).trans ?_
  · rw [hafter, hblk]
  · unfold Dat.fetched; rw [hblk]; rfl

theorem in3_2 {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by unfold Dat.blockOf iblk3; rw [hA]
  refine (dat.before_in_eq_fetched 2 rfl (fun _ => rfl) (fun _ _ _ => rfl) (fun s => ?_) t d).trans ?_
  · rw [hafter, hblk]
  · unfold Dat.fetched; rw [hblk]; rfl

theorem in3_3 {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by unfold Dat.blockOf iblk3; rw [hA]
  refine (dat.before_in_eq_fetched 3 rfl (fun _ => rfl) (fun _ _ _ => rfl) (fun s => ?_) t d).trans ?_
  · rw [hafter, hblk]
  · unfold Dat.fetched; rw [hblk]; rfl

/-! ## The body: four whole-buffer loads, one whole-buffer store -/

abbrev full3_a : Rect S5000x16 := Rect.unit (s := S5000x16) ![0, 0] S5000x16.size inb_S5000x16_S5000x16_0_0
abbrev full3_c : Rect S5000x1 := Rect.unit (s := S5000x1) ![0, 0] S5000x1.size inb_S5000x1_S5000x1_0_0
abbrev full3_r : Rect S1x16 := Rect.unit (s := S1x16) ![0, 0] S1x16.size inb_S1x16_S1x16_0_0

/-- What the body leaves in the result window's buffer, as a function of the four input buffers: the single
    store, of the payload on what the four loads read, taken as the one piece that makes up the buffer. -/
def out3_4 (x0 x1 : Vec F S5000x16 .f32) (x2 : Vec F S5000x1 .f32) (x3 : Vec F S1x16 .f32) : Vec F S5000x16 .f32 :=
  View.canon [⟨full3_a, k3_pay1 (View.ld x0 full3_a) (View.ld x1 full3_a) (View.ld x2 full3_c) (View.ld x3 full3_r)⟩]

/-- The stored rectangle is the whole buffer, so every index lies in it. -/
theorem cover3_4 (p : Vec F S5000x16 .f32) (y : S5000x16.Idx) :
    ∃ pc ∈ ([⟨full3_a, p⟩] : List (View.Piece (Elt F) S5000x16 .f32)), y ∈ pc.1.set :=
  View.cover_of_tiled [⟨full3_a, p⟩] S5000x16.size (by rfl) y

set_option maxHeartbeats 1000000 in
/-- The body's triple. Given the four input buffers at read contents `x0 … x3` and the result buffer at any
    contents, the body runs to a continuation that receives the inputs unchanged and the result buffer at
    `out3_4 x0 x1 x2 x3`. The grid coordinate is not used by the body. -/
theorem sound_kernel3 (c : Dev nD) (E : Set ℕ) (i : grid3.Coords)
    (a0 : Memref sig .tc .vmem S5000x16 .f32) (h0 : a0.IsWhole) (a1 : Memref sig .tc .vmem S5000x16 .f32) (h1 : a1.IsWhole)
    (a2 : Memref sig .tc .vmem S5000x1 .f32) (h2 : a2.IsWhole) (a3 : Memref sig .tc .vmem S1x16 .f32) (h3 : a3.IsWhole)
    (a4 : Memref sig .tc .vmem S5000x16 .f32) (h4 : a4.IsWhole)
    (x0 x1 : Vec F S5000x16 .f32) (x2 : Vec F S5000x1 .f32) (x3 : Vec F S1x16 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out3_4 x0 x1 x2 x3)) -∗ K ⟨⟩))
      ⊢ wp frame (wpE (defs₀ (F := F)) Variants.none c none) E (cc3__post_kernel i a0 h0 a1 h1 a2 h2 a3 h3 a4 h4) K := by
  simp only [cc3__post_kernel_eq_skeleton]; unfold cc3__post_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  rotate_left
  · iexact H4
  · ipureintro
    exact View.read_writes_eq_canon _ _ _ (cover3_4 _)

/-! ## The proof data of the pipeline -/

/-- The region's proof data on core `c`. The arrays start at the entry contents. After the body at point `t`
    every input buffer still holds its block, and the result buffer holds `out3_4` of the four input blocks.
    The invariant is the part of the core's state the region never touches; nothing is owed; all shares are full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-! The contents after the body, window by window (the case split of `dat3` read off at each literal window). -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! The contents the body finds in each input buffer: the block under the point. -/

theorem before3_0 (c : Dev nD) (t : Fin cfg3.N) (d) : (dat3 V c).before 0 t d = iblk3 V c 0 t :=
  in3_0 V (dat3 V c) (A_eq3 V c 0) (after3_0 V c) t d
theorem before3_1 (c : Dev nD) (t : Fin cfg3.N) (d) : (dat3 V c).before 1 t d = iblk3 V c 1 t :=
  in3_1 V (dat3 V c) (A_eq3 V c 1) (after3_1 V c) t d
theorem before3_2 (c : Dev nD) (t : Fin cfg3.N) (d) : (dat3 V c).before 2 t d = iblk3 V c 2 t :=
  in3_2 V (dat3 V c) (A_eq3 V c 2) (after3_2 V c) t d
theorem before3_3 (c : Dev nD) (t : Fin cfg3.N) (d) : (dat3 V c).before 3 t d = iblk3 V c 3 t :=
  in3_3 V (dat3 V c) (A_eq3 V c 3) (after3_3 V c) t d

/-! ## The body obligation -/

/-- What the pipeline hands the body at point `t`: the invariant, what the core owes, and each window's current
    staging buffer at what it then holds. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body hands back: the same invariant and debt, and each buffer at its contents after the body. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at an arbitrary point. The four input buffers hold their blocks, so the body's triple applies with
    those blocks as the read contents; the invariant and the debt do not depend on the point and pass through. -/
theorem sound_body3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3]
  rw [after3_0, after3_1, after3_2, after3_3, after3_4,
    show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _
    (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline: the statement above at every point, the five windows written out. -/
theorem body_obligation3 (c : Dev nD) : BodyObligation (dat3 (F := F) V c) (defs₀ (F := F)) Variants.none () Set.univ := fun t => by
  rw [bigSep_W3, bigSep_W3]
  exact sound_body3 V c t

end Frame3

/-! # Value (Ideal only) -/

section Value3
open Idealize.ShloMosaic.ValueIdx

/-! ## The payload at one element

Over the extended reals the payload is, element by element, `max (agg + xw * dcol + brow) 0`. The shape casts are
to the same shape and change nothing; the [5000,1] column is repeated along each row's 16 entries, so at `(p, q)`
it is read at `(p, 0)`; the [1,16] row is repeated down the 5000 rows, so it is read at `(0, q)`; the constant's
word is the number 0, and the maximum of two extended reals is their `max`. -/

theorem pay3_apply (x0 x1 : Vec Ideal S5000x16 .f32) (x2 : Vec Ideal S5000x1 .f32) (x3 : Vec Ideal S1x16 .f32)
    (p : Fin 5000) (q : Fin 16) :
    k3_pay1 x0 x1 x2 x3 (ix2 p q)
      = max (x0 (ix2 p q) + x1 (ix2 p q) * x2 (ix2 p (0 : Fin 1)) + x3 (ix2 (0 : Fin 1) q)) 0 := by
  have ecol : broadcastTo S5000x16 x2 broadcasts_S5000x1_S5000x16 (ix2 p q) = x2 (ix2 p (0 : Fin 1)) :=
    broadcastTo_apply x2 _ (ix2 p q) (ix2 p (0 : Fin 1)) fun a => by
      match a with
      | ⟨0, _⟩ => rfl
      | ⟨1, _⟩ => rfl
  have erow : broadcastTo S5000x16 x3 broadcasts_S1x16_S5000x16 (ix2 p q) = x3 (ix2 (0 : Fin 1) q) :=
    broadcastTo_1b_ab_apply x3 _ p q
  unfold k3_pay1
  simp only [shapeCast_self, maximumf_apply, addf_apply, mulf_apply, broadcast_apply, ecol, erow]
  rw [show Scalar.ofBits (F := Ideal) .f32 0x00000000#32 = Ideal.ofBits .f32 0x00000000#32 from rfl,
    Ideal.ofBits_zero_f32]

/-- The payload as a function of the block index, its two coordinates taken apart. -/
theorem pay3_fun (x0 x1 : Vec Ideal S5000x16 .f32) (x2 : Vec Ideal S5000x1 .f32) (x3 : Vec Ideal S1x16 .f32) :
    k3_pay1 x0 x1 x2 x3
      = fun y : S5000x16.Idx => max (x0 y + x1 y * x2 (ix2 (y 0) (0 : Fin 1)) + x3 (ix2 (0 : Fin 1) (y 1))) 0 := by
  funext y
  obtain ⟨p, q, rfl⟩ : ∃ (p : Fin 5000) (q : Fin 16), y = ix2 p q := ⟨y 0, y 1, eq_ix2 y⟩
  exact pay3_apply x0 x1 x2 x3 p q

/-! ## The result array as one function of the four input arrays -/

/-- Element `(r, j)` of the result: `max (agg (r, j) + xw (r, j) * dcol (r, 0) + brow (0, j)) 0`. -/
def G3 (a0 a1 : S100000x16.Idx → EReal) (a2 : S100000x1.Idx → EReal) (a3 : S1x16.Idx → EReal) : S100000x16.Idx → EReal :=
  fun i => max (a0 i + a1 i * a2 (ix2 (i 0) (0 : Fin 1)) + a3 (ix2 (0 : Fin 1) (i 1))) 0

/-- The same, read at an index given by its coordinates. -/
theorem G3_apply (a0 a1 : S100000x16.Idx → EReal) (a2 : S100000x1.Idx → EReal) (a3 : S1x16.Idx → EReal)
    (r : Fin 100000) (j : Fin 16) :
    G3 a0 a1 a2 a3 (ix2 r j) = max (a0 (ix2 r j) + a1 (ix2 r j) * a2 (ix2 r (0 : Fin 1)) + a3 (ix2 (0 : Fin 1) j)) 0 := rfl

/-- The elementwise expression on four reads is `G3` at `i` as soon as the two matrices are read at `i`, the
    column at row `i 0` and the row at column `i 1`. -/
theorem G3_of_reads (a0 a1 : S100000x16.Idx → EReal) (a2 : S100000x1.Idx → EReal) (a3 : S1x16.Idx → EReal)
    (i0 i1 i : S100000x16.Idx) (i2 : S100000x1.Idx) (i3 : S1x16.Idx)
    (h0 : i0 = i) (h1 : i1 = i) (h2 : i2 = ix2 (i 0) (0 : Fin 1)) (h3 : i3 = ix2 (0 : Fin 1) (i 1)) :
    max (a0 i0 + a1 i1 * a2 i2 + a3 i3) 0 = G3 a0 a1 a2 a3 i := by
  subst h0 h1 h2 h3; rfl

theorem zeros3 : (![0, 0] : Fin 2 → Nat) = fun _ => 0 := funext fun a => by fin_cases a <;> rfl

/-- The printed index maps over the 20 grid points: windows 0, 1, 2 and 4 take block row `t` and block column 0;
    the row window 3 is always its one block. -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What point `t` writes back is block `t` of `G3` of the four arrays as the region finds them: each input block
    is read at the rows `5000 t + p` the result block occupies (the column at column 0, the row at row 0). -/
theorem flushed3_eq (c : Dev nD) (t : Fin cfg3.N) :
    (dat3 V c).flushed 4 t
      = ((cfg3.win 4).blk t).view.read (Elt Ideal) (G3 (V c main_v53) (V c main_v40) (V c main_v54) (V c main_v55)) := by
  show (cfg3.win 4).cut (grid3.coords t) ((dat3 V c).after 4 t) = _
  rw [after3_4]
  unfold out3_4
  rw [View.canon_unit_zero zeros3]
  simp only [View.ld_unit_zero (S := S5000x16) zeros3, View.ld_unit_zero (S := S5000x1) zeros3,
    View.ld_unit_zero (S := S1x16) zeros3]
  rw [pay3_fun]
  obtain ⟨e00, e01, e10, e11, e20, e21, e30, e31, e40, e41⟩ := index3 t
  funext y
  have h0 : ((cfg3.win 0).blk t).view.emb y = ((cfg3.win 4).blk t).view.emb y := by
    funext a; apply Fin.ext
    match a with
    | ⟨0, _⟩ =>
      show win3_0.index t (0 : Fin 2) * 5000 + 1 * (y 0).val = win3_4.index t (0 : Fin 2) * 5000 + 1 * (y 0).val
      omega
    | ⟨1, _⟩ =>
      show win3_0.index t (1 : Fin 2) * 16 + 1 * (y 1).val = win3_4.index t (1 : Fin 2) * 16 + 1 * (y 1).val
      omega
  have h1 : ((cfg3.win 1).blk t).view.emb y = ((cfg3.win 4).blk t).view.emb y := by
    funext a; apply Fin.ext
    match a with
    | ⟨0, _⟩ =>
      show win3_1.index t (0 : Fin 2) * 5000 + 1 * (y 0).val = win3_4.index t (0 : Fin 2) * 5000 + 1 * (y 0).val
      omega
    | ⟨1, _⟩ =>
      show win3_1.index t (1 : Fin 2) * 16 + 1 * (y 1).val = win3_4.index t (1 : Fin 2) * 16 + 1 * (y 1).val
      omega
  have h2 : ((cfg3.win 2).blk t).view.emb (ix2 (y 0) (0 : Fin 1))
      = ix2 ((((cfg3.win 4).blk t).view.emb y) 0) (0 : Fin 1) := by
    funext a; apply Fin.ext
    match a with
    | ⟨0, _⟩ =>
      show win3_2.index t (0 : Fin 2) * 5000 + 1 * (y 0).val = win3_4.index t (0 : Fin 2) * 5000 + 1 * (y 0).val
      omega
    | ⟨1, _⟩ =>
      show win3_2.index t (1 : Fin 2) * 1 + 1 * 0 = 0
      omega
  have h3 : ((cfg3.win 3).blk t).view.emb (ix2 (0 : Fin 1) (y 1))
      = ix2 (0 : Fin 1) ((((cfg3.win 4).blk t).view.emb y) 1) := by
    funext a; apply Fin.ext
    match a with
    | ⟨0, _⟩ =>
      show win3_3.index t (0 : Fin 2) * 1 + 1 * 0 = 0
      omega
    | ⟨1, _⟩ =>
      show win3_3.index t (1 : Fin 2) * 16 + 1 * (y 1).val = win3_4.index t (1 : Fin 2) * 16 + 1 * (y 1).val
      omega
  exact G3_of_reads (V c main_v53) (V c main_v40) (V c main_v54) (V c main_v55) _ _ _ _ _ h0 h1 h2 h3

/-! ## The blocks cover the array -/

/-- An index lies in point `t`'s result block exactly when each coordinate lies in the block's range on its axis. -/
theorem mem_blk3 (t : Fin cfg3.N) (i : S100000x16.Idx) :
    i ∈ ((cfg3.win 4).blk t).view.set ↔ ∀ a : Fin 2, win3_4.index t a * S5000x16.size a ≤ (i a).val
      ∧ (i a).val < win3_4.index t a * S5000x16.size a + S5000x16.size a := by
  show i ∈ ((View.whole main_v56).slice (win3_4.rect t)).set ↔ _
  rw [View.set_slice_whole, Rect.mem_set_unit]
  exact Iff.rfl

/-- Row `r` of the result lies in the block of point `r / 5000`, and every point writes its block back. -/
theorem cover3 (i : S100000x16.Idx) :
    ∃ t : Fin cfg3.N, (cfg3.win 4).flush t = true ∧ i ∈ ((cfg3.win 4).blk t).view.set := by
  have hr : (i 0).val < 100000 := idx2_lt0 i
  have hc : (i 1).val < 16 := idx2_lt1 i
  obtain ⟨t, ht⟩ : ∃ t : Fin cfg3.N, t.val = (i 0).val / 5000 :=
    ⟨⟨(i 0).val / 5000, by show _ < grid3.N; rw [N_3]; omega⟩, rfl⟩
  obtain ⟨-, -, -, -, -, -, -, -, e40, e41⟩ := index3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 16 ≤ (i 1).val ∧ (i 1).val < win3_4.index t (1 : Fin 2) * 16 + 16
    omega

/-- After the region the result array is `G3` of the four input arrays as the region found them. -/
theorem final3 (c : Dev nD) :
    (dat3 V c).arrAt 4 cfg3.N = G3 (V c main_v53) (V c main_v40) (V c main_v54) (V c main_v55) :=
  (dat3 V c).arrAt_eq_of_cover 4 (G3 (V c main_v53) (V c main_v40) (V c main_v54) (V c main_v55))
    (fun t _ => flushed3_eq V c t) cover3

/-- Element `(r, j)` of the result array after the region, as `G3` of the entry arrays (`G3_apply` spells it out). -/
theorem value3 (V : (c : Dev nD) → (b : Ref sig .tc) → Buf (Elt Ideal) ((c : Thread nD τ).loc b)) (c : Dev nD)
    (r : Fin 100000) (j : Fin 16) :
    (dat3 V c).arrAt 4 cfg3.N (ValueIdx.ix2 r j)
      = G3 (V c main_v53) (V c main_v40) (V c main_v54) (V c main_v55) (ValueIdx.ix2 r j) :=
  congrFun (final3 V c) (ValueIdx.ix2 r j)

/-- The same with the four entry arrays named as functions to the extended reals: element `(r, j)` is
    `max (agg (r, j) + xw (r, j) * dcol (r, 0) + brow (0, j)) 0`. -/
theorem value3_at (V : (c : Dev nD) → (b : Ref sig .tc) → Buf (Elt Ideal) ((c : Thread nD τ).loc b)) (c : Dev nD)
    (a0 a1 : S100000x16.Idx → EReal) (a2 : S100000x1.Idx → EReal) (a3 : S1x16.Idx → EReal)
    (h0 : V c main_v53 = a0) (h1 : V c main_v40 = a1) (h2 : V c main_v54 = a2) (h3 : V c main_v55 = a3)
    (r : Fin 100000) (j : Fin 16) :
    (dat3 V c).arrAt 4 cfg3.N (ValueIdx.ix2 r j)
      = max (a0 (ValueIdx.ix2 r j) + a1 (ValueIdx.ix2 r j) * a2 (ValueIdx.ix2 r (0 : Fin 1))
          + a3 (ValueIdx.ix2 (0 : Fin 1) j)) 0 := by
  subst h0 h1 h2 h3
  exact (value3 V c r j).trans (G3_apply _ _ _ _ r j)

end Value3

end Cert.KernelIdeal.Hand
end
-- ==== Proof.KI.Reg4.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 4 (the pooling kernel): the frame half

The kernel runs over 50 grid points. A scratch accumulator of shape 256 × 16 lives across the points: at the
first point it is zeroed, at every point it is increased by the product of the point's one-hot segment matrix
(from the block of segment ids, window 1) with the point's block of rows (window 0), and at the last point it is
copied to the output window (window 2), whose staging buffer the body does not touch at any other point.

Everything here is stated for an arbitrary float carrier `F`. -/

section Reg4
-- the TensorCore's buffer contents when the region is entered
variable (V : (c : Dev nD) → (b : Ref sig .tc) → Buf (Elt F) ((c : Thread nD τ).loc b))

/-! ## The windows' blocks and the accumulator -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator BEFORE point `n` (equivalently after point `n - 1`): the zero block before the first
    point — which is what the first point's reset stores —, and after point `t` the previous accumulator
    increased by point `t`'s contribution. Total in `n`; past the grid it is the zero block again, a value
    nothing reads. -/
def acc4 (c : Dev nD) : ℕ → Vec F S256x16 .f32
  | 0 => k4_pay1
  | t + 1 => if h : t < cfg4.N then k4_pay2 (iblk4 V c 1 ⟨t, h⟩) (iblk4 V c 0 ⟨t, h⟩) (acc4 c t) else k4_pay1

theorem acc4_zero (c : Dev nD) : acc4 V c 0 = k4_pay1 := rfl

/-- One step of the accumulation, at any point of the grid. -/
theorem acc4_succ (c : Dev nD) (t : Fin cfg4.N) :
    acc4 V c (t.val + 1) = k4_pay2 (iblk4 V c 1 t) (iblk4 V c 0 t) (acc4 V c t.val) := by
  obtain ⟨n, hn⟩ := t
  exact dif_pos hn

/-- The step at the first point: the accumulator it adds to is the zero block. -/
theorem acc4_succ_zero (c : Dev nD) (t : Fin cfg4.N) (h0 : t.val = 0) :
    acc4 V c (t.val + 1) = k4_pay2 (iblk4 V c 1 t) (iblk4 V c 0 t) k4_pay1 := by
  rw [acc4_succ, h0, acc4_zero]

/-- The step at a later point. -/
theorem acc4_succ_pos (c : Dev nD) (t : Fin cfg4.N) (h0 : t.val ≠ 0) :
    acc4 V c (t.val + 1) = k4_pay2 (iblk4 V c 1 t) (iblk4 V c 0 t) (acc4 V c t.val) :=
  acc4_succ V c t

/-! ## The body's two conditions, in closed form over the grid -/

/-- The condition of the first conditional region (the reset), from the grid coordinates. -/
abbrev cond4_1 (i : grid4.Coords) : Prop :=
  (Scalar.cmpi .ne (Scalar.extui (Scalar.cmpi .eq (BitVec.ofNat 32 (i 0).val) 0#32)) 0#32) = 1#1

/-- It holds at the first point only. -/
theorem hcond4_1 : ∀ t : Fin cfg4.N, cond4_1 (grid4.coords t) ↔ t.val = 0 :=
  (by decide +kernel : ∀ t : Fin grid4.N, cond4_1 (grid4.coords t) ↔ t.val = 0)

/-- The condition of the second conditional region (the copy to the output) holds at the last point only. -/
theorem hcond4_2 : ∀ t : Fin cfg4.N, k4_cond2 (grid4.coords t) = 1#1 ↔ t.val = 49 :=
  (by decide +kernel : ∀ t : Fin grid4.N, k4_cond2 (grid4.coords t) = 1#1 ↔ t.val = 49)

/-- So the output window is idle exactly off the last point. -/
theorem hidle4_2 : ∀ t : Fin cfg4.N, cfg4.idle 2 (cfg4.grid.coords t) = true ↔ t.val ≠ 49 :=
  (by decide +kernel : ∀ t : Fin grid4.N, idle4 2 (grid4.coords t) = true ↔ t.val ≠ 49)

/-! ## Whole-buffer accesses -/

/-- The offsets of every access of the body are zero. -/
theorem off4 : (![0, 0] : Fin 2 → ℕ) = fun _ => 0 := funext fun a => by fin_cases a <;> rfl

/-- A store through the whole-shape rectangle at zero offsets, last in a list of stores, covers the buffer. -/
theorem cover4 {S : Shape} {e : EltTy} {off : Fin S.rank → ℕ} (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

/-! ## The body's triple, case by case

On whole memrefs: `arg1` the block of rows at `x0`, `arg2` the block of segment ids at `x1`, `arg3` the output
window's staging buffer, `arg4` the scratch. Each conditional region is decided by the case's hypotheses. -/

set_option maxHeartbeats 1000000 in
/-- FIRST POINT (reset taken, no copy): whatever the scratch held, it ends at the zero block increased by the
    point's contribution. The output window's buffer is not accessed, so it is not mentioned. -/
theorem run4_first (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S256x16 .f32) (harg3 : arg3.IsWhole) (arg4 : Memref sig .tc .vmem S256x16 .f32) (harg4 : arg4.IsWhole)
    (hc1 : cond4_1 i) (hc2 : ¬ k4_cond2 i = 1#1)
    (x0 : Vec F S2000x16 .f32) (x1 : Vec F S2000x1 .i32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k4_pay2 x1 x0 k4_pay1)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d4, %f4, -, H4⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  -- the scratch was stored twice, both times whole: the later store's payload is what it holds, and the value
  -- that payload read back from the scratch is the earlier store's payload, the zero block
  sl_unfold_words
  rw [View.read_writes_eq_canon _ _ _ (cover4 off4 _ _ _), View.canon_cons_unit_zero (S := S256x16) off4,
    View.readCov_unit_zero (S := S256x16) _ off4]
  simp only [View.readAt_eq_ld, View.ld_unit_zero (S := S2000x1) off4, View.ld_unit_zero (S := S2000x16) off4]

set_option maxHeartbeats 1000000 in
/-- A MIDDLE POINT (no reset, no copy): the scratch at `s` ends at `s` increased by the point's contribution. The
    output window's buffer is not accessed. -/
theorem run4_mid (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S256x16 .f32) (harg3 : arg3.IsWhole) (arg4 : Memref sig .tc .vmem S256x16 .f32) (harg4 : arg4.IsWhole)
    (hc1 : ¬ cond4_1 i) (hc2 : ¬ k4_cond2 i = 1#1)
    (x0 : Vec F S2000x16 .f32) (x1 : Vec F S2000x1 .i32) (s : Vec F S256x16 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
            ∗ owns (c : Thread nD τ) arg4 fullShare (k4_pay2 x1 x0 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H4
  ipureintro
  -- one whole store: the scratch holds its payload, whose three loads read the three buffers whole
  rw [View.read_writes_eq_canon _ _ _ (cover4 off4 _ _ _), View.canon_unit_zero off4]
  simp only [View.readAt_eq_ld, View.ld_unit_zero (S := S2000x1) off4, View.ld_unit_zero (S := S2000x16) off4,
    View.ld_unit_zero (S := S256x16) off4]

set_option maxHeartbeats 1000000 in
/-- THE LAST POINT (no reset, copy taken): the scratch at `s` ends at `s` increased by the point's contribution,
    and the output window's buffer, whatever it held, ends at the same contents. -/
theorem run4_last (c : Dev nD) (E : Set ℕ) (i : grid4.Coords)
    (arg1 : Memref sig .tc .vmem S2000x16 .f32) (harg1 : arg1.IsWhole) (arg2 : Memref sig .tc .vmem S2000x1 .i32) (harg2 : arg2.IsWhole)
    (arg3 : Memref sig .tc .vmem S256x16 .f32) (harg3 : arg3.IsWhole) (arg4 : Memref sig .tc .vmem S256x16 .f32) (harg4 : arg4.IsWhole)
    (hc1 : ¬ cond4_1 i) (hc2 : k4_cond2 i = 1#1)
    (x0 : Vec F S2000x16 .f32) (x1 : Vec F S2000x1 .i32) (s : Vec F S256x16 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k4_pay2 x1 x0 s) ∗ owns (c : Thread nD τ) arg4 fullShare (k4_pay2 x1 x0 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    -- the output buffer after its one whole store, of what the scratch was read back at after ITS one whole store
    sl_unfold_words
    rw [View.read_writes_eq_canon _ _ _ (cover4 off4 _ _ _), View.canon_unit_zero off4,
      View.readCov_unit_zero (S := S256x16) _ off4]
    simp only [View.readAt_eq_ld, View.ld_unit_zero (S := S2000x1) off4, View.ld_unit_zero (S := S2000x16) off4,
      View.ld_unit_zero (S := S256x16) off4]
  iexists _; isplitr
  swap; · iexact H4
  ipureintro
  -- the scratch after its one whole store
  sl_unfold_words
  rw [View.read_writes_eq_canon _ _ _ (cover4 off4 _ _ _), View.canon_unit_zero off4]
  simp only [View.readAt_eq_ld, View.ld_unit_zero (S := S2000x1) off4, View.ld_unit_zero (S := S2000x16) off4,
    View.ld_unit_zero (S := S256x16) off4]

/-! ## The pipeline's proof data -/

/-- The scratch between points: the whole buffer at full share, at SOME contents before the first point (the
    region finds it at anything) and at `acc4 V c n` before a later point `n`. -/
def scr4 (c : Dev nD) (n : ℕ) : sProp 𝕄 :=
  iprop(∃ x : Vec F S256x16 .f32, ⌜n ≠ 0 → x = acc4 V c n⌝ ∗ owns (c : Thread nD τ) (Memref.whole cc4_scratch0) fullShare x)

/-- The proof data of pipeline 4 on core `c`: the arrays as the region finds them; after the body each input's
    buffer at its block, and the output's at the accumulator after the point (consulted only where the window is
    live: the last point); the invariant between points the scratch as above, every other scoped buffer that is
    no staging buffer of this call at some contents, and the generator register at some state; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c (t.val + 1)
  Φ t := iprop(scr4 V c t.val
    ∗ Pipeline.scopedRestBut (Ix := Unit) (Name := ℕ) (U := UR sig nD τ) (Lvl := ℕ) (Val := Elt F) spec4 c [cc4_scratch0]
    ∗ ∃ r, prngReg c r)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_out (c : Dev nD) (t : Fin cfg4.N) : (dat4 V c).after 2 t = acc4 V c (t.val + 1) := by dsimp only [dat4]

/-- The invariant at a point, opened. -/
theorem Φ4_eq (c : Dev nD) (t : Fin (cfg4.N + 1)) : (dat4 V c).Φ t = iprop(scr4 V c t.val
    ∗ Pipeline.scopedRestBut (Ix := Unit) (Name := ℕ) (U := UR sig nD τ) (Lvl := ℕ) (Val := Elt F) spec4 c [cc4_scratch0]
    ∗ ∃ r, prngReg c r) := by dsimp only [dat4]

/-- An input window's current staging buffer holds its block at every point, fetched there or not: both input
    windows are uncut and never idle, and the body leaves their blocks in place. -/
theorem before4_0 (c : Dev nD) (t : Fin cfg4.N) (d) : (dat4 V c).before 0 t d = iblk4 V c 0 t := by
  have hkeep : ∀ t, (cfg4.win 0).cut (cfg4.grid.coords t) ((dat4 V c).after 0 t) = (dat4 V c).blockOf 0 t := fun t => by
    rw [after4_0]; unfold Dat.blockOf iblk4; rw [A_eq4]; try rfl
  rw [(dat4 V c).before_in_eq_fetched 0 rfl (fun _ => rfl) (fun _ _ _ => rfl) hkeep t d]
  unfold Dat.fetched Dat.blockOf iblk4; rw [A_eq4]; try rfl

theorem before4_1 (c : Dev nD) (t : Fin cfg4.N) (d) : (dat4 V c).before 1 t d = iblk4 V c 1 t := by
  have hkeep : ∀ t, (cfg4.win 1).cut (cfg4.grid.coords t) ((dat4 V c).after 1 t) = (dat4 V c).blockOf 1 t := fun t => by
    rw [after4_1]; unfold Dat.blockOf iblk4; rw [A_eq4]; try rfl
  rw [(dat4 V c).before_in_eq_fetched 1 rfl (fun _ => rfl) (fun _ _ _ => rfl) hkeep t d]
  unfold Dat.fetched Dat.blockOf iblk4; rw [A_eq4]; try rfl

/-! ## Entering and leaving the region -/

/-- Entering: the scratch is one of the scoped buffers the region finds at some contents. -/
theorem hin4 (c : Dev nD) : iprop((∃ r, prngReg c r) ∗ Pipeline.scopedRest (Ix := Unit) (Name := ℕ) (U := UR sig nD τ) (Lvl := ℕ) (Val := Elt F) spec4 c)
    ⊢ ((dat4 V c).Φ 0 : sProp 𝕄) := by
  rw [scopedRest4_split, Φ4_eq]
  unfold scr4
  iintro ⟨Hr, ⟨%f, Hs⟩, Hrest⟩
  isplitl [Hs]
  · iexists f; isplitr
    · ipureintro; intro h; exact absurd rfl h
    rw [owns_whole]; iexact Hs
  isplitl [Hrest]; · iexact Hrest
  iexact Hr

/-- Leaving: whatever the scratch holds, it is again a scoped buffer at some contents. -/
theorem hout4 (c : Dev nD) : ((dat4 V c).Φ (Fin.last cfg4.N) : sProp 𝕄)
    ⊢ iprop((∃ r, prngReg c r) ∗ Pipeline.scopedRest (Ix := Unit) (Name := ℕ) (U := UR sig nD τ) (Lvl := ℕ) (Val := Elt F) spec4 c) := by
  rw [scopedRest4_split, Φ4_eq]
  unfold scr4
  iintro ⟨⟨%x, -, Hs⟩, Hrest, Hr⟩
  isplitl [Hr]; · iexact Hr
  isplitl [Hs]
  · iexists x
    iapply (Entails.of_eq (owns_whole (c : Thread nD τ) cc4_scratch0 fullShare x))
    iexact Hs
  iexact Hrest

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: the output window's buffer at the accumulator where the window is live, and as it was
    found where it is idle. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

set_option maxHeartbeats 1000000 in
/-- The body at any point. The inputs' buffers hold their blocks. At the first point the scratch holds anything
    and is left at the first step of the accumulation; at a later point it holds the accumulator so far and is
    left at the next. Off the last point the output window is idle and its buffer goes back untouched; at the
    last point it receives the final accumulator. The rest of the invariant and what the core owes pass through
    unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, after4_0, after4_1,
    Φ4_eq, Φ4_eq, show (t.castSucc : Fin (cfg4.N + 1)).val = t.val from rfl, show (t.succ : Fin (cfg4.N + 1)).val = t.val + 1 from rfl]
  unfold scr4
  have hN : t.val < 50 := lt_of_lt_of_eq t.isLt (show cfg4.N = 50 from N_4)
  by_cases h49 : t.val = 49
  · -- the last point: the window is live
    have h0 : t.val ≠ 0 := by omega
    have hc1 : ¬ cond4_1 (grid4.coords t) := fun h => h0 ((hcond4_1 t).mp h)
    have hc2 : k4_cond2 (grid4.coords t) = 1#1 := (hcond4_2 t).mpr h49
    have hlive : cfg4.idle 2 (cfg4.grid.coords t) = false :=
      Bool.eq_false_iff.mpr fun h => (hidle4_2 t).mp h h49
    have hpost : (dat4 V c).leavesExact 2 t = owns (c : Thread nD τ) (st4_2 t) fullShare ((dat4 V c).after 2 t) := by
      unfold Dat.leavesExact; rw [hlive]
    rw [hpost, after4_out]
    iintro ⟨⟨⟨%x, %hx, Hs⟩, Hrest, Hr⟩, Ho, ⟨%d0, H0⟩, ⟨%d1, H1⟩, ⟨%d2, H2⟩⟩
    obtain rfl := hx h0
    iapply (run4_last c Set.univ _ _ _ _ _ _ _ _ _ hc1 hc2 (iblk4 V c 0 t) (iblk4 V c 1 t) (acc4 V c t.val) _)
    isplitl [H0]; · iexact H0
    isplitl [H1]; · iexact H1
    isplitl [H2]; · iexists _; iexact H2
    isplitl [Hs]; · iexact Hs
    iintro ⟨H0, H1, H2, Hs⟩
    isplitl [Hs Hrest Hr]
    · isplitl [Hs]
      · iexists _; isplitr
        · ipureintro; intro _; exact (acc4_succ V c t).symm
        iexact Hs
      isplitl [Hrest]; · iexact Hrest
      iexact Hr
    isplitl [Ho]; · iexact Ho
    isplitl [H0]; · iexact H0
    isplitl [H1]; · iexact H1
    rw [acc4_succ]; iexact H2
  · -- every other point: the window is idle and not written back
    have hc2 : ¬ k4_cond2 (grid4.coords t) = 1#1 := fun h => h49 ((hcond4_2 t).mp h)
    have hidle : cfg4.idle 2 (cfg4.grid.coords t) = true := (hidle4_2 t).mpr h49
    have hfl : (cfg4.win 2).flush t = false :=
      Bool.eq_false_iff.mpr fun h => by have := (flush4_2 t).mp h; omega
    rw [(dat4 V c).leavesExact_idle 2 t hidle hfl]
    by_cases h0 : t.val = 0
    · -- the first point
      have hc1 : cond4_1 (grid4.coords t) := (hcond4_1 t).mpr h0
      iintro ⟨⟨⟨%x, -, Hs⟩, Hrest, Hr⟩, Ho, ⟨%d0, H0⟩, ⟨%d1, H1⟩, H2⟩
      iapply (run4_first c Set.univ _ _ _ _ _ _ _ _ _ hc1 hc2 (iblk4 V c 0 t) (iblk4 V c 1 t) _)
      isplitl [H0]; · iexact H0
      isplitl [H1]; · iexact H1
      isplitl [Hs]; · iexists _; iexact Hs
      iintro ⟨H0, H1, Hs⟩
      isplitl [Hs Hrest Hr]
      · isplitl [Hs]
        · iexists _; isplitr
          · ipureintro; intro _; exact (acc4_succ_zero V c t h0).symm
          iexact Hs
        isplitl [Hrest]; · iexact Hrest
        iexact Hr
      isplitl [Ho]; · iexact Ho
      isplitl [H0]; · iexact H0
      isplitl [H1]; · iexact H1
      iexact H2
    · -- a middle point
      have hc1 : ¬ cond4_1 (grid4.coords t) := fun h => h0 ((hcond4_1 t).mp h)
      iintro ⟨⟨⟨%x, %hx, Hs⟩, Hrest, Hr⟩, Ho, ⟨%d0, H0⟩, ⟨%d1, H1⟩, H2⟩
      obtain rfl := hx h0
      iapply (run4_mid c Set.univ _ _ _ _ _ _ _ _ _ hc1 hc2 (iblk4 V c 0 t) (iblk4 V c 1 t) (acc4 V c t.val) _)
      isplitl [H0]; · iexact H0
      isplitl [H1]; · iexact H1
      isplitl [Hs]; · iexact Hs
      iintro ⟨H0, H1, Hs⟩
      isplitl [Hs Hrest Hr]
      · isplitl [Hs]
        · iexists _; isplitr
          · ipureintro; intro _; exact (acc4_succ V c t).symm
          iexact Hs
        isplitl [Hrest]; · iexact Hrest
        iexact Hr
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Reg4

end Cert.KernelIdeal.Hand

end
-- ==== Proof.KI.Reg5.lean ====
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value -- value only
import Idealize.ShloMosaic.Lib.ValueIdx -- value only
import Idealize.ShloMosaic.Lib.ValueLayout -- value only
import Idealize.ShloMosaic.PureOps.Ideal.Laws -- value only

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame5
-- the contents of the TensorCore's buffers at the moment region 5 is entered
variable (V : (c : Dev nD) → (b : Ref sig .tc) → Buf (Elt F) ((c : Thread nD τ).loc b))

/-! # Region 5: the two-layer head, one grid point

The grid of this region has a single point and every window is its whole array: the five operands
(pooled features, first weight matrix, first bias row, second weight matrix, second bias row) are each
read once and the 256 x 2 result is written once. -/

/-! ## Blocks of the windows -/

/-- The block of window `w` at point `t`: the window's view of its array, read at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Operand window 0 is never written by the body and never idle, so what its staging buffer holds when the
    body starts is the block of its array, whatever proof data is used, as long as that data's array is the entry
    contents and the body is recorded as leaving the block alone. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Operand window 1 is never written by the body and never idle, so what its staging buffer holds when the
    body starts is the block of its array, whatever proof data is used, as long as that data's array is the entry
    contents and the body is recorded as leaving the block alone. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Operand window 2 is never written by the body and never idle, so what its staging buffer holds when the
    body starts is the block of its array, whatever proof data is used, as long as that data's array is the entry
    contents and the body is recorded as leaving the block alone. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Operand window 3 is never written by the body and never idle, so what its staging buffer holds when the
    body starts is the block of its array, whatever proof data is used, as long as that data's array is the entry
    contents and the body is recorded as leaving the block alone. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Operand window 4 is never written by the body and never idle, so what its staging buffer holds when the
    body starts is the block of its array, whatever proof data is used, as long as that data's array is the entry
    contents and the body is recorded as leaving the block alone. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body touches: each one is its whole buffer -/

abbrev r5_0 : Rect S256x16 := Rect.unit (s := S256x16) ![0, 0] S256x16.size inb_S256x16_S256x16_0_0
abbrev r5_1 : Rect S16x16 := Rect.unit (s := S16x16) ![0, 0] S16x16.size inb_S16x16_S16x16_0_0
abbrev r5_2 : Rect S1x16 := Rect.unit (s := S1x16) ![0, 0] S1x16.size inb_S1x16_S1x16_0_0
abbrev r5_3 : Rect S16x2 := Rect.unit (s := S16x2) ![0, 0] S16x2.size inb_S16x2_S16x2_0_0
abbrev r5_4 : Rect S1x2 := Rect.unit (s := S1x2) ![0, 0] S1x2.size inb_S1x2_S1x2_0_0
abbrev r5_5 : Rect S256x2 := Rect.unit (s := S256x2) ![0, 0] S256x2.size inb_S256x2_S256x2_0_0

/-! ## The result buffer after the body -/

/-- The 256 x 2 staging buffer once the body has run, as a function of the five operand blocks: the body's one
    store, of the head's payload evaluated at what the five loads return. -/
def out5_5 (x0 : Vec F S256x16 .f32) (x1 : Vec F S16x16 .f32) (x2 : Vec F S1x16 .f32) (x3 : Vec F S16x2 .f32) (x4 : Vec F S1x2 .f32) :
    Vec F S256x2 .f32 :=
  View.canon [⟨r5_5, k5_pay1 (View.ld x0 r5_0) (View.ld x1 r5_1) (View.ld x2 r5_2) (View.ld x3 r5_3) (View.ld x4 r5_4)⟩]

/-- The one store is of the whole buffer, so every index of the buffer lies in it. -/
theorem cover5_5 (p0 : Vec F S256x2 .f32) (y : S256x2.Idx) :
    ∃ pc ∈ ([⟨r5_5, p0⟩] : List (View.Piece (Elt F) S256x2 .f32)), y ∈ pc.1.set :=
  View.cover_of_tiled [⟨r5_5, p0⟩] S256x2.size (by rfl) y

/-! ## The body's triple -/

set_option maxHeartbeats 1000000 in
/-- On whole staging memrefs, with the five operand buffers at contents `x0 … x4` and the result buffer at
    any contents, the body runs to a state where the operands are unchanged and the result buffer holds
    `out5_5 x0 … x4`. The body also reads the result buffer before overwriting it; that read is of whatever
    was there and its value is not used. -/
theorem sound_kernel5 (c : Dev nD) (E : Set ℕ) (i : grid5.Coords)
    (arg1 : Memref sig .tc .vmem S256x16 .f32) (harg1 : arg1.IsWhole) (arg2 : Memref sig .tc .vmem S16x16 .f32) (harg2 : arg2.IsWhole)
    (arg3 : Memref sig .tc .vmem S1x16 .f32) (harg3 : arg3.IsWhole) (arg4 : Memref sig .tc .vmem S16x2 .f32) (harg4 : arg4.IsWhole)
    (arg5 : Memref sig .tc .vmem S1x2 .f32) (harg5 : arg5.IsWhole) (arg6 : Memref sig .tc .vmem S256x2 .f32) (harg6 : arg6.IsWhole)
    (x0 : Vec F S256x16 .f32) (x1 : Vec F S16x16 .f32) (x2 : Vec F S1x16 .f32) (x3 : Vec F S16x2 .f32) (x4 : Vec F S1x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## Proof data of the pipeline -/

/-- The pipeline's proof data on core `c`. The arrays are the entry contents. After the body, each operand's
    staging buffer still holds its block and the result's holds `out5_5` of the five blocks. The invariant is the
    untouched rest of the scoped memory together with the generator register; nothing is owed; all shares are full. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The arrays of the proof data are the entry contents. -/
theorem A_eq5 (c : Dev nD) (w : Fin cfg5.W) : (dat5 V c).A w = V c (Pipeline.arrRef spec5 w) := by
  dsimp only [dat5]

/-- What each window's staging buffer holds after the body, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each operand's staging buffer holds its block when the body starts. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

/-- What the body is given at point `t`: the invariant, the core's debts, and the six staging buffers. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What the body hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at a point: the operand buffers hold their blocks, so the body's triple applies; the invariant and
    the debts are not touched and go through unchanged. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point of the grid. -/
theorem body_obligation5 (c : Dev nD) : BodyObligation (dat5 (F := F) V c) (defs₀ (F := F)) Variants.none () Set.univ := fun t => by
  rw [bigSep_W5, bigSep_W5]
  exact sound_body5 V c t

end Frame5

/-! # Value (Ideal only) -/

section Value5
open Idealize.ShloMosaic.ValueIdx

/-! ## The two matrix products, entry by entry

At the ideal values a product into a zero accumulator is the plain sum of products over the contracted axis,
here of length 16 in both layers. -/

/-- Operand indices of the hidden product at an output index and a contraction index, axis by axis: the left
    operand's row is the output's row and its column the contraction index; the right operand's row is the
    contraction index and its column the output's column. -/
theorem lhs_hidden5_0 (i : S256x16.Idx) (q : dot_S256x16_S16x16_S256x16_1_0_0_1_n_n.contr.Idx) :
    (dot_S256x16_S16x16_S256x16_1_0_0_1_n_n.lhsIdx i q 0).val = (i 0).val := by
  unfold DotDims.lhsIdx
  rw [dif_neg (show ¬(0 : Fin S256x16.rank) ∈ dot_S256x16_S16x16_S256x16_1_0_0_1_n_n.lhsBatch by decide), dif_pos (show (0 : Fin S256x16.rank) ∈ dot_S256x16_S16x16_S256x16_1_0_0_1_n_n.lhsNonContracting by decide)]
  rfl
theorem lhs_hidden5_1 (i : S256x16.Idx) (q : dot_S256x16_S16x16_S256x16_1_0_0_1_n_n.contr.Idx) :
    (dot_S256x16_S16x16_S256x16_1_0_0_1_n_n.lhsIdx i q 1).val = (q ⟨0, by decide⟩).val :=
  dot_S256x16_S16x16_S256x16_1_0_0_1_n_n.lhsIdx_val_of_single rfl i q
theorem rhs_hidden5_0 (i : S256x16.Idx) (q : dot_S256x16_S16x16_S256x16_1_0_0_1_n_n.contr.Idx) :
    (dot_S256x16_S16x16_S256x16_1_0_0_1_n_n.rhsIdx i q 0).val = (q ⟨0, by decide⟩).val :=
  dot_S256x16_S16x16_S256x16_1_0_0_1_n_n.rhsIdx_val_of_single rfl i q
theorem rhs_hidden5_1 (i : S256x16.Idx) (q : dot_S256x16_S16x16_S256x16_1_0_0_1_n_n.contr.Idx) :
    (dot_S256x16_S16x16_S256x16_1_0_0_1_n_n.rhsIdx i q 1).val = (i 1).val := by
  unfold DotDims.rhsIdx
  rw [dif_neg (show ¬(1 : Fin S16x16.rank) ∈ dot_S256x16_S16x16_S256x16_1_0_0_1_n_n.rhsBatch by decide), dif_pos (show (1 : Fin S16x16.rank) ∈ dot_S256x16_S16x16_S256x16_1_0_0_1_n_n.rhsNonContracting by decide)]
  rfl

/-- Operand indices of the logits product at an output index and a contraction index, axis by axis: the left
    operand's row is the output's row and its column the contraction index; the right operand's row is the
    contraction index and its column the output's column. -/
theorem lhs_logits5_0 (i : S256x2.Idx) (q : dot_S256x16_S16x2_S256x2_1_0_0_1_n_n.contr.Idx) :
    (dot_S256x16_S16x2_S256x2_1_0_0_1_n_n.lhsIdx i q 0).val = (i 0).val := by
  unfold DotDims.lhsIdx
  rw [dif_neg (show ¬(0 : Fin S256x16.rank) ∈ dot_S256x16_S16x2_S256x2_1_0_0_1_n_n.lhsBatch by decide), dif_pos (show (0 : Fin S256x16.rank) ∈ dot_S256x16_S16x2_S256x2_1_0_0_1_n_n.lhsNonContracting by decide)]
  rfl
theorem lhs_logits5_1 (i : S256x2.Idx) (q : dot_S256x16_S16x2_S256x2_1_0_0_1_n_n.contr.Idx) :
    (dot_S256x16_S16x2_S256x2_1_0_0_1_n_n.lhsIdx i q 1).val = (q ⟨0, by decide⟩).val :=
  dot_S256x16_S16x2_S256x2_1_0_0_1_n_n.lhsIdx_val_of_single rfl i q
theorem rhs_logits5_0 (i : S256x2.Idx) (q : dot_S256x16_S16x2_S256x2_1_0_0_1_n_n.contr.Idx) :
    (dot_S256x16_S16x2_S256x2_1_0_0_1_n_n.rhsIdx i q 0).val = (q ⟨0, by decide⟩).val :=
  dot_S256x16_S16x2_S256x2_1_0_0_1_n_n.rhsIdx_val_of_single rfl i q
theorem rhs_logits5_1 (i : S256x2.Idx) (q : dot_S256x16_S16x2_S256x2_1_0_0_1_n_n.contr.Idx) :
    (dot_S256x16_S16x2_S256x2_1_0_0_1_n_n.rhsIdx i q 1).val = (i 1).val := by
  unfold DotDims.rhsIdx
  rw [dif_neg (show ¬(1 : Fin S16x2.rank) ∈ dot_S256x16_S16x2_S256x2_1_0_0_1_n_n.rhsBatch by decide), dif_pos (show (1 : Fin S16x2.rank) ∈ dot_S256x16_S16x2_S256x2_1_0_0_1_n_n.rhsNonContracting by decide)]
  rfl

/-- Entry `(p, q)` of the first layer's product: row `p` of the features against column `q` of the first weight matrix. -/
theorem hidden5_product_apply (a : FVec Ideal S256x16 .bf16) (b : FVec Ideal S16x16 .bf16) (p : Fin 256) (q : Fin 16) :
    matmul dot_S256x16_S16x16_S256x16_1_0_0_1_n_n none a b (constant (F := Ideal) S256x16 .f32 0x00000000#32) (ix2 p q)
      = ∑ k : Fin 16, a (ix2 p k) * b (ix2 k q) := by
  simp only [matmul]
  rw [Ideal.matmul_constant_zero_apply, ← Equiv.sum_comp (contrEquiv1 dot_S256x16_S16x16_S256x16_1_0_0_1_n_n 16 rfl rfl).symm]
  refine Finset.sum_congr rfl fun k _ => ?_
  have hk := contrEquiv1_symm_val dot_S256x16_S16x16_S256x16_1_0_0_1_n_n 16 rfl rfl k
  have el : dot_S256x16_S16x16_S256x16_1_0_0_1_n_n.lhsIdx (ix2 p q) ((contrEquiv1 dot_S256x16_S16x16_S256x16_1_0_0_1_n_n 16 rfl rfl).symm k) = ix2 p k := funext fun a => Fin.ext (by
    match a with
    | ⟨0, _⟩ => exact lhs_hidden5_0 _ _
    | ⟨1, _⟩ => exact (lhs_hidden5_1 _ _).trans hk)
  have er : dot_S256x16_S16x16_S256x16_1_0_0_1_n_n.rhsIdx (ix2 p q) ((contrEquiv1 dot_S256x16_S16x16_S256x16_1_0_0_1_n_n 16 rfl rfl).symm k) = ix2 k q := funext fun a => Fin.ext (by
    match a with
    | ⟨0, _⟩ => exact (rhs_hidden5_0 _ _).trans hk
    | ⟨1, _⟩ => exact rhs_hidden5_1 _ _)
  rw [el, er]

/-- Entry `(p, q)` of the second layer's product: row `p` of the hidden activations against column `q` of the second weight matrix. -/
theorem logits5_product_apply (a : FVec Ideal S256x16 .bf16) (b : FVec Ideal S16x2 .bf16) (p : Fin 256) (q : Fin 2) :
    matmul dot_S256x16_S16x2_S256x2_1_0_0_1_n_n none a b (constant (F := Ideal) S256x2 .f32 0x00000000#32) (ix2 p q)
      = ∑ k : Fin 16, a (ix2 p k) * b (ix2 k q) := by
  simp only [matmul]
  rw [Ideal.matmul_constant_zero_apply, ← Equiv.sum_comp (contrEquiv1 dot_S256x16_S16x2_S256x2_1_0_0_1_n_n 16 rfl rfl).symm]
  refine Finset.sum_congr rfl fun k _ => ?_
  have hk := contrEquiv1_symm_val dot_S256x16_S16x2_S256x2_1_0_0_1_n_n 16 rfl rfl k
  have el : dot_S256x16_S16x2_S256x2_1_0_0_1_n_n.lhsIdx (ix2 p q) ((contrEquiv1 dot_S256x16_S16x2_S256x2_1_0_0_1_n_n 16 rfl rfl).symm k) = ix2 p k := funext fun a => Fin.ext (by
    match a with
    | ⟨0, _⟩ => exact lhs_logits5_0 _ _
    | ⟨1, _⟩ => exact (lhs_logits5_1 _ _).trans hk)
  have er : dot_S256x16_S16x2_S256x2_1_0_0_1_n_n.rhsIdx (ix2 p q) ((contrEquiv1 dot_S256x16_S16x2_S256x2_1_0_0_1_n_n 16 rfl rfl).symm k) = ix2 k q := funext fun a => Fin.ext (by
    match a with
    | ⟨0, _⟩ => exact (rhs_logits5_0 _ _).trans hk
    | ⟨1, _⟩ => exact rhs_logits5_1 _ _)
  rw [el, er]

/-! ## The payload, entry by entry -/

/-- Entry `(g, o)` of the two-layer head on five arrays `a0 … a4` (features, first weights, first bias row,
    second weights, second bias row):
    `∑ k, max (∑ j, a0[g, j] * a1[j, k] + a2[0, k]) 0 * a3[k, o] + a4[0, o]`. -/
abbrev head5Entry (a0 : S256x16.Idx → EReal) (a1 : S16x16.Idx → EReal) (a2 : S1x16.Idx → EReal)
    (a3 : S16x2.Idx → EReal) (a4 : S1x2.Idx → EReal) (g : Fin 256) (o : Fin 2) : EReal :=
  (∑ k : Fin 16, max ((∑ j : Fin 16, a0 (ix2 g j) * a1 (ix2 j k)) + a2 (ix2 0 k)) 0 * a3 (ix2 k o)) + a4 (ix2 0 o)

/-- Entry `(g, o)` of the head's payload on five operand vectors: a linear layer with bias, the positive part,
    and a second linear layer with bias. Narrowing to the shorter float format changes nothing at the ideal values,
    the identity reshapes are the identity, and each bias row is repeated down the 256 rows. -/
theorem head5_payload_apply (x0 : Vec Ideal S256x16 .f32) (x1 : Vec Ideal S16x16 .f32) (x2 : Vec Ideal S1x16 .f32)
    (x3 : Vec Ideal S16x2 .f32) (x4 : Vec Ideal S1x2 .f32) (g : Fin 256) (o : Fin 2) :
    k5_pay1 (F := Ideal) x0 x1 x2 x3 x4 (ix2 g o)
      = (∑ k : Fin 16, max ((∑ j : Fin 16, x0 (ix2 g j) * x1 (ix2 j k)) + x2 (ix2 0 k)) 0 * x3 (ix2 k o))
        + x4 (ix2 0 o) := by
  unfold k5_pay1
  refine (addf_apply _ _ _).trans ?_
  refine congrArg₂ (· + ·) ?_ ?_
  · -- the second product, whose left factor is the hidden activation
    refine (logits5_product_apply _ _ g o).trans (Finset.sum_congr rfl fun k _ => ?_)
    refine congrArg₂ (· * ·) ?_ rfl
    refine (maximumf_apply _ _ _).trans ?_
    refine congrArg₂ max ?_ Ideal.ofBits_zero_f32
    refine (addf_apply _ _ _).trans ?_
    refine congrArg₂ (· + ·) ?_ ?_
    · refine (hidden5_product_apply _ _ g k).trans (Finset.sum_congr rfl fun j _ => ?_)
      refine congrArg₂ (· * ·) ?_ rfl
      exact congrFun (shapeCast_self x0 shapeCasts_S256x16_S256x16) (ix2 g j)
    · refine (broadcastTo_1b_ab_apply _ _ g k).trans ?_
      exact congrFun (shapeCast_self x2 shapeCasts_S1x16_S1x16) (ix2 0 k)
  · refine (broadcastTo_1b_ab_apply _ _ g o).trans ?_
    exact congrFun (shapeCast_self x4 shapeCasts_S1x2_S1x2) (ix2 0 o)

/-! ## From the one block to the array -/

variable (V : (c : Dev nD) → (b : Ref sig .tc) → Buf (Elt Ideal) ((c : Thread nD τ).loc b))

theorem origin_zero5 : (![0, 0] : Fin 2 → Nat) = fun _ => 0 := funext fun a => by fin_cases a <;> rfl

/-- Every window's index map sends the grid's one point to block `(0, 0)`: each block is its whole array. -/
theorem block_origin5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-! A block index sits in the array at (block index) x (block extent) + (index inside the block), per axis; with
    block index zero that is the index itself. -/

theorem emb5_0 (t : Fin cfg5.N) (z : S256x16.Idx) : ((cfg5.win 0).blk t).view.emb z = z := by
  obtain ⟨e00, e01, e10, e11, e20, e21, e30, e31, e40, e41, e50, e51⟩ := block_origin5 t
  funext a; apply Fin.ext
  match a with
  | ⟨0, _⟩ => show win5_0.index t (0 : Fin 2) * 256 + 1 * (z 0).val = (z 0).val; omega
  | ⟨1, _⟩ => show win5_0.index t (1 : Fin 2) * 16 + 1 * (z 1).val = (z 1).val; omega

theorem emb5_1 (t : Fin cfg5.N) (z : S16x16.Idx) : ((cfg5.win 1).blk t).view.emb z = z := by
  obtain ⟨e00, e01, e10, e11, e20, e21, e30, e31, e40, e41, e50, e51⟩ := block_origin5 t
  funext a; apply Fin.ext
  match a with
  | ⟨0, _⟩ => show win5_1.index t (0 : Fin 2) * 16 + 1 * (z 0).val = (z 0).val; omega
  | ⟨1, _⟩ => show win5_1.index t (1 : Fin 2) * 16 + 1 * (z 1).val = (z 1).val; omega

theorem emb5_2 (t : Fin cfg5.N) (z : S1x16.Idx) : ((cfg5.win 2).blk t).view.emb z = z := by
  obtain ⟨e00, e01, e10, e11, e20, e21, e30, e31, e40, e41, e50, e51⟩ := block_origin5 t
  funext a; apply Fin.ext
  match a with
  | ⟨0, _⟩ => show win5_2.index t (0 : Fin 2) * 1 + 1 * (z 0).val = (z 0).val; omega
  | ⟨1, _⟩ => show win5_2.index t (1 : Fin 2) * 16 + 1 * (z 1).val = (z 1).val; omega

theorem emb5_3 (t : Fin cfg5.N) (z : S16x2.Idx) : ((cfg5.win 3).blk t).view.emb z = z := by
  obtain ⟨e00, e01, e10, e11, e20, e21, e30, e31, e40, e41, e50, e51⟩ := block_origin5 t
  funext a; apply Fin.ext
  match a with
  | ⟨0, _⟩ => show win5_3.index t (0 : Fin 2) * 16 + 1 * (z 0).val = (z 0).val; omega
  | ⟨1, _⟩ => show win5_3.index t (1 : Fin 2) * 2 + 1 * (z 1).val = (z 1).val; omega

theorem emb5_4 (t : Fin cfg5.N) (z : S1x2.Idx) : ((cfg5.win 4).blk t).view.emb z = z := by
  obtain ⟨e00, e01, e10, e11, e20, e21, e30, e31, e40, e41, e50, e51⟩ := block_origin5 t
  funext a; apply Fin.ext
  match a with
  | ⟨0, _⟩ => show win5_4.index t (0 : Fin 2) * 1 + 1 * (z 0).val = (z 0).val; omega
  | ⟨1, _⟩ => show win5_4.index t (1 : Fin 2) * 2 + 1 * (z 1).val = (z 1).val; omega

theorem emb5_5 (t : Fin cfg5.N) (z : S256x2.Idx) : ((cfg5.win 5).blk t).view.emb z = z := by
  obtain ⟨e00, e01, e10, e11, e20, e21, e30, e31, e40, e41, e50, e51⟩ := block_origin5 t
  funext a; apply Fin.ext
  match a with
  | ⟨0, _⟩ => show win5_5.index t (0 : Fin 2) * 256 + 1 * (z 0).val = (z 0).val; omega
  | ⟨1, _⟩ => show win5_5.index t (1 : Fin 2) * 2 + 1 * (z 1).val = (z 1).val; omega

/-- So each operand's block is the operand's whole array. -/

theorem iblk5_0_eq (c : Dev nD) (t : Fin cfg5.N) : iblk5 V c 0 t = (V c main_v67 : S256x16.Idx → EReal) :=
  funext fun z => congrArg (V c main_v67 : S256x16.Idx → EReal) (emb5_0 t z)

theorem iblk5_1_eq (c : Dev nD) (t : Fin cfg5.N) : iblk5 V c 1 t = (V c main_arg5 : S16x16.Idx → EReal) :=
  funext fun z => congrArg (V c main_arg5 : S16x16.Idx → EReal) (emb5_1 t z)

theorem iblk5_2_eq (c : Dev nD) (t : Fin cfg5.N) : iblk5 V c 2 t = (V c main_v68 : S1x16.Idx → EReal) :=
  funext fun z => congrArg (V c main_v68 : S1x16.Idx → EReal) (emb5_2 t z)

theorem iblk5_3_eq (c : Dev nD) (t : Fin cfg5.N) : iblk5 V c 3 t = (V c main_arg7 : S16x2.Idx → EReal) :=
  funext fun z => congrArg (V c main_arg7 : S16x2.Idx → EReal) (emb5_3 t z)

theorem iblk5_4_eq (c : Dev nD) (t : Fin cfg5.N) : iblk5 V c 4 t = (V c main_v69 : S1x2.Idx → EReal) :=
  funext fun z => congrArg (V c main_v69 : S1x2.Idx → EReal) (emb5_4 t z)

/-- The head on the whole arrays as the region finds them. -/
abbrev head5 (c : Dev nD) : S256x2.Idx → EReal :=
  k5_pay1 (F := Ideal) (V c main_v67) (V c main_arg5) (V c main_v68) (V c main_arg7) (V c main_v69)

/-- What the one point writes back is the (whole-array) block of `head5`. -/
theorem flushed5_eq (c : Dev nD) (t : Fin cfg5.N) :
    (dat5 V c).flushed 5 t = ((cfg5.win 5).blk t).view.read (Elt Ideal) (head5 V c) := by
  show (cfg5.win 5).cut (grid5.coords t) ((dat5 V c).after 5 t) = _
  rw [after5_5]
  unfold out5_5
  rw [View.canon_unit_zero origin_zero5]
  simp only [View.ld_unit_zero (S := S256x16) origin_zero5, View.ld_unit_zero (S := S16x16) origin_zero5,
    View.ld_unit_zero (S := S1x16) origin_zero5, View.ld_unit_zero (S := S16x2) origin_zero5,
    View.ld_unit_zero (S := S1x2) origin_zero5]
  rw [iblk5_0_eq, iblk5_1_eq, iblk5_2_eq, iblk5_3_eq, iblk5_4_eq]
  funext y
  show head5 V c y = head5 V c (((cfg5.win 5).blk t).view.emb y)
  rw [emb5_5]

/-- Every index of the result array lies in the one point's block, and that point writes back. -/
theorem cover5 (i : S256x2.Idx) :
    ∃ t : Fin cfg5.N, (cfg5.win 5).flush t = true ∧ i ∈ ((cfg5.win 5).blk t).view.set := by
  refine ⟨t5_0, flush5_5 t5_0, ?_⟩
  show i ∈ ((View.whole main_v70).slice (win5_5.rect t5_0)).set
  rw [View.set_slice_whole, Rect.mem_set_unit]
  obtain ⟨e00, e01, e10, e11, e20, e21, e30, e31, e40, e41, e50, e51⟩ := block_origin5 t5_0
  have h0 := idx2_lt0 i
  have h1 := idx2_lt1 i
  intro a
  match a with
  | ⟨0, _⟩ => show win5_5.index t5_0 (0 : Fin 2) * 256 ≤ (i 0).val ∧ (i 0).val < win5_5.index t5_0 (0 : Fin 2) * 256 + 256; omega
  | ⟨1, _⟩ => show win5_5.index t5_0 (1 : Fin 2) * 2 ≤ (i 1).val ∧ (i 1).val < win5_5.index t5_0 (1 : Fin 2) * 2 + 2; omega

/-- The result array after the region is the head of the five operand arrays. -/
theorem final5 (c : Dev nD) : (dat5 V c).arrAt 5 cfg5.N = head5 V c :=
  (dat5 V c).arrAt_eq_of_cover 5 (head5 V c) (fun t _ => flushed5_eq V c t) (cover5)

end Value5

/-- Entry `(g, o)` of the result array after region 5: the second linear layer, with its bias, of the positive
    part of the first linear layer, with its bias, of row `g` of the pooled features, all five operands being the
    arrays as the region finds them. (`head5Entry` is reducible and unfolds to the double sum.) -/
theorem value5 (V : (c : Dev nD) → (b : Ref sig .tc) → Buf (Elt Ideal) ((c : Thread nD τ).loc b)) (c : Dev nD) (g : Fin 256) (o : Fin 2) :
    (dat5 V c).arrAt 5 cfg5.N (ValueIdx.ix2 g o)
      = head5Entry (V c main_v67) (V c main_arg5) (V c main_v68) (V c main_arg7) (V c main_v69) g o := by
  rw [final5]
  exact head5_payload_apply _ _ _ _ _ g o

end Cert.KernelIdeal.Hand

end
-- ==== Proof.KI.Run.lean ====
/-
  The run of @main of `Cert.KernelIdeal` at any `F`: five stretches of host operations and six kernel regions, in
  @main's order. The buffers' contents at each of the twelve segment boundaries are a fold from the launch memory
  (`W0` … `W11`: a stretch's `StableHlo.after`; a region's arrays at what its write-backs leave, every other buffer as
  entered). Each region is a segment over the thread state "every unscoped buffer at the boundary's contents, the
  generator register at some state, nothing owed", from its module's proof data and body obligation. The launch over
  the eleven segments gives `run_all`: every final state holds each unscoped buffer at `W11`. Read at the argument
  arrays (which no stretch writes and no region puts out) that is `frame`; read also at the result array, `run_value`.
-/
import proofs.«405230_j19808389169217_2_alg».proof.Proof.KI.Reg0
import proofs.«405230_j19808389169217_2_alg».proof.Proof.KI.Reg1
import proofs.«405230_j19808389169217_2_alg».proof.Proof.KI.Reg2
import proofs.«405230_j19808389169217_2_alg».proof.Proof.KI.Reg3
import proofs.«405230_j19808389169217_2_alg».proof.Proof.KI.Reg4
import proofs.«405230_j19808389169217_2_alg».proof.Proof.KI.Reg5
import proofs.«405230_j19808389169217_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: five host stretches and six kernel regions, from the launch to the return

## The buffers' contents at each of the twelve boundaries

`W0` is the launch memory read on core `c`. A host stretch takes the contents to `StableHlo.after` of its
operations; a kernel region leaves each of its windows' arrays at what its write-backs have folded into it
(`Dat.arrAt … N`: an input array as entered) and every other buffer as entered. `VJ` is `WJ` read at the
TensorCore's references: the form the regions' proof data are stated at. -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After kernel region 0, entered at `W1`: its arrays at what the pipeline leaves, the rest untouched. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c (W1 m ρ c) _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c (W1 m ρ c) _ b hb
/-- The exit contents of region 0 in the two halves the thread state is reassembled from. -/
theorem hF0 (c : Dev nD) (w : Fin cfg0.W) :
    (dat0 (V1 m ρ) c).arrAt w cfg0.N = V2 m ρ c (Pipeline.arrRef spec0 w) := (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ w, e⟩)
/-- Region 0 changes one buffer only, its output array `main_v23`: a buffer that is none of its arrays is
    bypassed, and an input window's array is never written back. -/
theorem W2_keep (c : Dev nD) (r : Ref sig .tc) (hr : r ≠ main_v23) :
    W2 m ρ c (Proc.devRef .tc r) = W1 m ρ c (Proc.devRef .tc r) := by
  by_cases h : ∃ w, Pipeline.arrRef spec0 w = r
  · obtain ⟨w, rfl⟩ := h
    have hin : (cfg0.win w).isOut = false := by revert w; decide
    rw [W2_arr m ρ c w, (dat0 (V1 m ρ) c).arrAt_in w hin cfg0.N, A_eq0]
  · exact W2_of_ne m ρ c r fun w e => h ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After kernel region 1, entered at `W3`: its arrays at what the pipeline leaves, the rest untouched. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c (W3 m ρ c) _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c (W3 m ρ c) _ b hb
/-- The exit contents of region 1 in the two halves the thread state is reassembled from. -/
theorem hF1 (c : Dev nD) (w : Fin cfg1.W) :
    (dat1 (V3 m ρ) c).arrAt w cfg1.N = V4 m ρ c (Pipeline.arrRef spec1 w) := (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ w, e⟩)
/-- Region 1 changes one buffer only, its output array `main_v39`: a buffer that is none of its arrays is
    bypassed, and an input window's array is never written back. -/
theorem W4_keep (c : Dev nD) (r : Ref sig .tc) (hr : r ≠ main_v39) :
    W4 m ρ c (Proc.devRef .tc r) = W3 m ρ c (Proc.devRef .tc r) := by
  by_cases h : ∃ w, Pipeline.arrRef spec1 w = r
  · obtain ⟨w, rfl⟩ := h
    have hin : (cfg1.win w).isOut = false := by revert w; decide
    rw [W4_arr m ρ c w, (dat1 (V3 m ρ) c).arrAt_in w hin cfg1.N, A_eq1]
  · exact W4_of_ne m ρ c r fun w e => h ⟨w, e⟩

/-- After kernel region 2, entered at `W4`: its arrays at what the pipeline leaves, the rest untouched. -/
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b
theorem W5_arr (c : Dev nD) (w : Fin cfg2.W) :
    W5 m ρ c (Proc.devRef .tc (Pipeline.arrRef spec2 w)) = (dat2 (V4 m ρ) c).arrAt w cfg2.N :=
  Pipeline.withArrays_arr spec2 launch2.win.arr_inj c (W4 m ρ c) _ w
theorem W5_of_ne (c : Dev nD) (b : Ref sig .tc) (hb : ∀ w, Pipeline.arrRef spec2 w ≠ b) :
    W5 m ρ c (Proc.devRef .tc b) = W4 m ρ c (Proc.devRef .tc b) :=
  Pipeline.withArrays_of_ne spec2 c (W4 m ρ c) _ b hb
/-- The exit contents of region 2 in the two halves the thread state is reassembled from. -/
theorem hF2 (c : Dev nD) (w : Fin cfg2.W) :
    (dat2 (V4 m ρ) c).arrAt w cfg2.N = V5 m ρ c (Pipeline.arrRef spec2 w) := (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ w, e⟩)
/-- Region 2 changes one buffer only, its output array `main_v40`: a buffer that is none of its arrays is
    bypassed, and an input window's array is never written back. -/
theorem W5_keep (c : Dev nD) (r : Ref sig .tc) (hr : r ≠ main_v40) :
    W5 m ρ c (Proc.devRef .tc r) = W4 m ρ c (Proc.devRef .tc r) := by
  by_cases h : ∃ w, Pipeline.arrRef spec2 w = r
  · obtain ⟨w, rfl⟩ := h
    have hin : (cfg2.win w).isOut = false := by revert w; decide
    rw [W5_arr m ρ c w, (dat2 (V4 m ρ) c).arrAt_in w hin cfg2.N, A_eq2]
  · exact W5_of_ne m ρ c r fun w e => h ⟨w, e⟩

/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b

/-- After kernel region 3, entered at `W6`: its arrays at what the pipeline leaves, the rest untouched. -/
def W7 (c : Dev nD) : Valuation τ sig (Elt F) :=
  Pipeline.withArrays spec3 c (W6 m ρ c) fun w => (dat3 (V6 m ρ) c).arrAt w cfg3.N
abbrev V7 : (c : Dev nD) → (b : Ref sig .tc) → Buf (Elt F) ((c : Thread nD τ).loc b) := fun c b => W7 m ρ c b
theorem W7_arr (c : Dev nD) (w : Fin cfg3.W) :
    W7 m ρ c (Proc.devRef .tc (Pipeline.arrRef spec3 w)) = (dat3 (V6 m ρ) c).arrAt w cfg3.N :=
  Pipeline.withArrays_arr spec3 launch3.win.arr_inj c (W6 m ρ c) _ w
theorem W7_of_ne (c : Dev nD) (b : Ref sig .tc) (hb : ∀ w, Pipeline.arrRef spec3 w ≠ b) :
    W7 m ρ c (Proc.devRef .tc b) = W6 m ρ c (Proc.devRef .tc b) :=
  Pipeline.withArrays_of_ne spec3 c (W6 m ρ c) _ b hb
/-- The exit contents of region 3 in the two halves the thread state is reassembled from. -/
theorem hF3 (c : Dev nD) (w : Fin cfg3.W) :
    (dat3 (V6 m ρ) c).arrAt w cfg3.N = V7 m ρ c (Pipeline.arrRef spec3 w) := (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ w, e⟩)
/-- Region 3 changes one buffer only, its output array `main_v56`: a buffer that is none of its arrays is
    bypassed, and an input window's array is never written back. -/
theorem W7_keep (c : Dev nD) (r : Ref sig .tc) (hr : r ≠ main_v56) :
    W7 m ρ c (Proc.devRef .tc r) = W6 m ρ c (Proc.devRef .tc r) := by
  by_cases h : ∃ w, Pipeline.arrRef spec3 w = r
  · obtain ⟨w, rfl⟩ := h
    have hin : (cfg3.win w).isOut = false := by revert w; decide
    rw [W7_arr m ρ c w, (dat3 (V6 m ρ) c).arrAt_in w hin cfg3.N, A_eq3]
  · exact W7_of_ne m ρ c r fun w e => h ⟨w, e⟩

/-- After the host stretch `hostOps4`. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- After kernel region 4, entered at `W8`: its arrays at what the pipeline leaves, the rest untouched. -/
def W9 (c : Dev nD) : Valuation τ sig (Elt F) :=
  Pipeline.withArrays spec4 c (W8 m ρ c) fun w => (dat4 (V8 m ρ) c).arrAt w cfg4.N
abbrev V9 : (c : Dev nD) → (b : Ref sig .tc) → Buf (Elt F) ((c : Thread nD τ).loc b) := fun c b => W9 m ρ c b
theorem W9_arr (c : Dev nD) (w : Fin cfg4.W) :
    W9 m ρ c (Proc.devRef .tc (Pipeline.arrRef spec4 w)) = (dat4 (V8 m ρ) c).arrAt w cfg4.N :=
  Pipeline.withArrays_arr spec4 launch4.win.arr_inj c (W8 m ρ c) _ w
theorem W9_of_ne (c : Dev nD) (b : Ref sig .tc) (hb : ∀ w, Pipeline.arrRef spec4 w ≠ b) :
    W9 m ρ c (Proc.devRef .tc b) = W8 m ρ c (Proc.devRef .tc b) :=
  Pipeline.withArrays_of_ne spec4 c (W8 m ρ c) _ b hb
/-- The exit contents of region 4 in the two halves the thread state is reassembled from. -/
theorem hF4 (c : Dev nD) (w : Fin cfg4.W) :
    (dat4 (V8 m ρ) c).arrAt w cfg4.N = V9 m ρ c (Pipeline.arrRef spec4 w) := (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ w, e⟩)
/-- Region 4 changes one buffer only, its output array `main_v58`: a buffer that is none of its arrays is
    bypassed, and an input window's array is never written back. -/
theorem W9_keep (c : Dev nD) (r : Ref sig .tc) (hr : r ≠ main_v58) :
    W9 m ρ c (Proc.devRef .tc r) = W8 m ρ c (Proc.devRef .tc r) := by
  by_cases h : ∃ w, Pipeline.arrRef spec4 w = r
  · obtain ⟨w, rfl⟩ := h
    have hin : (cfg4.win w).isOut = false := by revert w; decide
    rw [W9_arr m ρ c w, (dat4 (V8 m ρ) c).arrAt_in w hin cfg4.N, A_eq4]
  · exact W9_of_ne m ρ c r fun w e => h ⟨w, e⟩

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- After kernel region 5, entered at `W10`: its arrays at what the pipeline leaves, the rest untouched. -/
def W11 (c : Dev nD) : Valuation τ sig (Elt F) :=
  Pipeline.withArrays spec5 c (W10 m ρ c) fun w => (dat5 (V10 m ρ) c).arrAt w cfg5.N
abbrev V11 : (c : Dev nD) → (b : Ref sig .tc) → Buf (Elt F) ((c : Thread nD τ).loc b) := fun c b => W11 m ρ c b
theorem W11_arr (c : Dev nD) (w : Fin cfg5.W) :
    W11 m ρ c (Proc.devRef .tc (Pipeline.arrRef spec5 w)) = (dat5 (V10 m ρ) c).arrAt w cfg5.N :=
  Pipeline.withArrays_arr spec5 launch5.win.arr_inj c (W10 m ρ c) _ w
theorem W11_of_ne (c : Dev nD) (b : Ref sig .tc) (hb : ∀ w, Pipeline.arrRef spec5 w ≠ b) :
    W11 m ρ c (Proc.devRef .tc b) = W10 m ρ c (Proc.devRef .tc b) :=
  Pipeline.withArrays_of_ne spec5 c (W10 m ρ c) _ b hb
/-- The exit contents of region 5 in the two halves the thread state is reassembled from. -/
theorem hF5 (c : Dev nD) (w : Fin cfg5.W) :
    (dat5 (V10 m ρ) c).arrAt w cfg5.N = V11 m ρ c (Pipeline.arrRef spec5 w) := (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ w, e⟩)
/-- Region 5 changes one buffer only, its output array `main_v70`: a buffer that is none of its arrays is
    bypassed, and an input window's array is never written back. -/
theorem W11_keep (c : Dev nD) (r : Ref sig .tc) (hr : r ≠ main_v70) :
    W11 m ρ c (Proc.devRef .tc r) = W10 m ρ c (Proc.devRef .tc r) := by
  by_cases h : ∃ w, Pipeline.arrRef spec5 w = r
  · obtain ⟨w, rfl⟩ := h
    have hin : (cfg5.win w).isOut = false := by revert w; decide
    rw [W11_arr m ρ c w, (dat5 (V10 m ρ) c).arrAt_in w hin cfg5.N, A_eq5]
  · exact W11_of_ne m ρ c r fun w e => h ⟨w, e⟩

/-! ## What reaches the end unchanged, and where the result is -/

/-- A buffer no host stretch writes and that is no region's output array holds at the end what the launch found in it. -/
theorem W11_keeps (c : Dev nD) (r : Ref sig .tc) (h0 : r ∉ hostOps0_W) (h1 : r ∉ hostOps1_W) (h3 : r ∉ hostOps3_W)
    (h4 : r ∉ hostOps4_W) (h5 : r ∉ hostOps5_W)
    (hr : r ∉ ([main_v23, main_v39, main_v40, main_v56, main_v58, main_v70] : List (Ref sig .tc))) :
    W11 m ρ c (Proc.devRef .tc r) = m ((c : Thread nD τ).loc r) := by
  have hne : ∀ x ∈ ([main_v23, main_v39, main_v40, main_v56, main_v58, main_v70] : List (Ref sig .tc)), r ≠ x :=
    fun x hx e => hr (by rw [e]; exact hx)
  calc W11 m ρ c (Proc.devRef .tc r)
    _ = W10 m ρ c (Proc.devRef .tc r) := W11_keep m ρ c r (hne _ (by decide))
    _ = W9 m ρ c (Proc.devRef .tc r) := StableHlo.after_of_writes_sub hostOps5 _ hostOps5_writes h5
    _ = W8 m ρ c (Proc.devRef .tc r) := W9_keep m ρ c r (hne _ (by decide))
    _ = W7 m ρ c (Proc.devRef .tc r) := StableHlo.after_of_writes_sub hostOps4 _ hostOps4_writes h4
    _ = W6 m ρ c (Proc.devRef .tc r) := W7_keep m ρ c r (hne _ (by decide))
    _ = W5 m ρ c (Proc.devRef .tc r) := StableHlo.after_of_writes_sub hostOps3 _ hostOps3_writes h3
    _ = W4 m ρ c (Proc.devRef .tc r) := W5_keep m ρ c r (hne _ (by decide))
    _ = W3 m ρ c (Proc.devRef .tc r) := W4_keep m ρ c r (hne _ (by decide))
    _ = W2 m ρ c (Proc.devRef .tc r) := StableHlo.after_of_writes_sub hostOps1 _ hostOps1_writes h1
    _ = W1 m ρ c (Proc.devRef .tc r) := W2_keep m ρ c r (hne _ (by decide))
    _ = W0 m ρ c (Proc.devRef .tc r) := StableHlo.after_of_writes_sub hostOps0 _ hostOps0_writes h0
    _ = m ((c : Thread nD τ).loc r) := rfl

/-- The result array at the end: what region 5's one write-back leaves in it. -/
theorem W11_out (c : Dev nD) : W11 m ρ c (Proc.devRef .tc main_v70) = (dat5 (V10 m ρ) c).arrAt 5 cfg5.N :=
  W11_arr m ρ c 5

/-! ## The thread state between two segments, and what a region does to it

Between two segments core `c` holds every unscoped buffer whole at the boundary's contents, and beside them `R c`: its
generator register at some state and its `owes` at nothing. A region takes its arrays out of the buffers and hands the
register to the body's invariant; at its exit both come back. The steps below say that once, for any proof data that
owe nothing and any split of the buffers; each region's record instantiates them. -/

abbrev 𝒱₀ : Variants := Variants.none
/-- No level is assigned: no core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

section Shuffles

variable {cfg : Cfg sig Λ₀} {c : Dev nD} (dat : Dat τ (Elt F) Unit ℕ (UR sig nD τ) ℕ cfg c)

/-- A core owing nothing is what proof data say of it at a point where they owe nothing and bound nothing. -/
theorem owesAt_of_owes (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro
    intro x _
    exact Or.inl (by rw [hrec]; exact Set.mem_univ x)
  iexact HO

/-- and conversely, forgetting the bound. -/
theorem owes_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

end Shuffles

/-- No prefetched table: holding them all is holding nothing. -/
theorem prefHeld_none (c : Dev nD) (q : Fin (Pipeline.Prefetch.none : Pipeline.Prefetch sig).K → PosShare TreeShare)
    (v : (Pipeline.Prefetch.none : Pipeline.Prefetch sig).Contents (Elt F)) :
    (BI.emp : sProp 𝕄) ⊢ Pipeline.prefHeld (Ix := Unit) (Name := ℕ) (U := UR sig nD τ) (Lvl := ℕ) Pipeline.Prefetch.none c q v := by
  unfold Pipeline.prefHeld
  rw [show (Finset.univ : Finset (Fin 0)) = ∅ from rfl, BI.bigSep_empty]

/-- ENTRY. The buffers split into the region's arrays `A` and the rest `Zr`; the tables are none; the core's `owes`
    becomes the proof data's; the register goes its own way. The region's own semaphores (none) and the level facts
    are not used. -/
theorem region_enter {A Zr Pf Ow Os Lv : sProp 𝕄} (c : Dev nD) (W : Valuation τ sig (Elt F))
    (hsplit : (StableHlo.held (c : Thread nD τ) (Pipeline.ucRefs τ sig) (W) : sProp 𝕄) ⊢ iprop(A ∗ Zr))
    (hpf : (BI.emp : sProp 𝕄) ⊢ Pf)
    (how : (iprop(∃ W, owes (c : Thread nD τ) (0 : CellTallies nD τ sig Unit) W) : sProp 𝕄) ⊢ Ow) :
    iprop((StableHlo.held (c : Thread nD τ) (Pipeline.ucRefs τ sig) (W) ∗ R c) ∗ Os ∗ Lv)
      ⊢ |={Set.univ}=> iprop(A ∗ Pf ∗ Ow ∗ (∃ r, prngReg c r) ∗ Zr) := by
  iintro ⟨⟨Hh, Hp, HO⟩, -, -⟩
  ihave H := hsplit $$ Hh
  icases H with ⟨Ha, Hz⟩
  imodintro
  isplitl [Ha]; · iexact Ha
  isplitr; · iapply hpf; iempintro
  isplitl [HO]; · iapply how; iexact HO
  isplitl [Hp]; · iexact Hp
  iexact Hz

/-- EXIT. The arrays at their final contents and the rest are the buffers at the next boundary's contents; the proof
    data's `owes` is the core's again; the register comes back. -/
theorem region_leave {A Zr Ow : sProp 𝕄} (c : Dev nD) (W' : Valuation τ sig (Elt F))
    (hjoin : iprop(A ∗ Zr) ⊢ (StableHlo.held (c : Thread nD τ) (Pipeline.ucRefs τ sig) (W') : sProp 𝕄))
    (how : Ow ⊢ (iprop(∃ W, owes (c : Thread nD τ) (0 : CellTallies nD τ sig Unit) W) : sProp 𝕄)) :
    iprop(A ∗ Ow ∗ (∃ r, prngReg c r) ∗ Zr)
      ⊢ |={Set.univ}=> iprop(StableHlo.held (c : Thread nD τ) (Pipeline.ucRefs τ sig) (W') ∗ R c) := by
  iintro ⟨Ha, HO, Hp, Hz⟩
  imodintro
  isplitl [Ha Hz]
  · iapply hjoin
    isplitl [Ha]; · iexact Ha
    iexact Hz
  isplitl [Hp]; · iexact Hp
  iapply how; iexact HO

/-- The class invariant `ΦA` (the scoped buffers no window stages, and the register) from what the region hands in, -/
theorem ΦA_in {gr : Nat} {Wn : Nat} (win : Fin Wn → Pipeline.WinSpec sig gr) (c : Dev nD) (Pf : sProp 𝕄) :
    iprop((∃ r, prngReg c r) ∗ Pf ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hs⟩
  isplitl [Hs]; · iexact Hs
  iexact Hp

/-- and back into what the region takes out (own semaphores: none). -/
theorem ΦA_out {gr : Nat} {Wn : Nat} (win : Fin Wn → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hs, Hp⟩
  isplitl [Hp]; · iexact Hp
  isplitr; · iempintro
  iexact Hs

/-! ## The proof data family, the host stretches and the regions as segments -/

/-- Every pipeline's proof data, each at its region's entry contents (a literal `match`: at a numeral it reduces to the
    region's own `datK`). -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V8 m ρ) c
  | ⟨5, _⟩ => fun c => dat5 (V10 m ρ) c

/-- A host stretch as a segment over the unscoped buffers from the contents `W`, `R` riding along: it ends at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- a library lemma stated over `pin pcs a p` meets the printed configuration only when unification may unfold plain
-- definitions in a metavariable's type
set_option backward.isDefEq.respectTransparency.types false in
/-- REGION 0 over the thread state: entered from the buffers at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := region_enter c (W1 m ρ c)
    (by
      have hsplit := Pipeline.arrays_of_unscopedBufs (p := 0) (pcfgs (F := F)) adm (pdats m ρ) launch0.win launch0.arr_whole c
        ((pdats m ρ 0 c).share_full fun _ => rfl) (V1 m ρ c) fun _ => rfl
      rwa [Pipeline.unscopedBufs_held] at hsplit)
    (prefHeld_none c _ _)
    (owesAt_of_owes (pdats m ρ 0 c) 0 rfl rfl)
  hin c := ΦA_in spec0 c _
  hout c := by rw [Pipeline.ownSems0_none]; exact ΦA_out spec0 c
  hexit c := region_leave c (W2 m ρ c)
    (by
      have hjoin := Pipeline.unscopedBufs_of_arrays (p := 0) (pcfgs (F := F)) adm (Ix := Unit) (Name := ℕ) (U := UR sig nD τ) (Lvl := ℕ)
        launch0.win launch0.arr_whole c (pdats m ρ) ((pdats m ρ 0 c).share_full fun _ => rfl)
        (V1 m ρ c) (V2 m ρ c) ((pdats m ρ 0 c).arrAt · cfg0.N) (hF0 m ρ c) (hrest0 m ρ c)
      rwa [Pipeline.unscopedBufs_held] at hjoin)
    (owes_of_owesAt (pdats m ρ 0 c) _ rfl)

-- a library lemma stated over `pin pcs a p` meets the printed configuration only when unification may unfold plain
-- definitions in a metavariable's type
set_option backward.isDefEq.respectTransparency.types false in
/-- REGION 1 over the thread state: entered from the buffers at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := region_enter c (W3 m ρ c)
    (by
      have hsplit := Pipeline.arrays_of_unscopedBufs (p := 1) (pcfgs (F := F)) adm (pdats m ρ) launch1.win launch1.arr_whole c
        ((pdats m ρ 1 c).share_full fun _ => rfl) (V3 m ρ c) fun _ => rfl
      rwa [Pipeline.unscopedBufs_held] at hsplit)
    (prefHeld_none c _ _)
    (owesAt_of_owes (pdats m ρ 1 c) 0 rfl rfl)
  hin c := ΦA_in spec1 c _
  hout c := by rw [Pipeline.ownSems0_none]; exact ΦA_out spec1 c
  hexit c := region_leave c (W4 m ρ c)
    (by
      have hjoin := Pipeline.unscopedBufs_of_arrays (p := 1) (pcfgs (F := F)) adm (Ix := Unit) (Name := ℕ) (U := UR sig nD τ) (Lvl := ℕ)
        launch1.win launch1.arr_whole c (pdats m ρ) ((pdats m ρ 1 c).share_full fun _ => rfl)
        (V3 m ρ c) (V4 m ρ c) ((pdats m ρ 1 c).arrAt · cfg1.N) (hF1 m ρ c) (hrest1 m ρ c)
      rwa [Pipeline.unscopedBufs_held] at hjoin)
    (owes_of_owesAt (pdats m ρ 1 c) _ rfl)

-- a library lemma stated over `pin pcs a p` meets the printed configuration only when unification may unfold plain
-- definitions in a metavariable's type
set_option backward.isDefEq.respectTransparency.types false in
/-- REGION 2 over the thread state: entered from the buffers at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := region_enter c (W4 m ρ c)
    (by
      have hsplit := Pipeline.arrays_of_unscopedBufs (p := 2) (pcfgs (F := F)) adm (pdats m ρ) launch2.win launch2.arr_whole c
        ((pdats m ρ 2 c).share_full fun _ => rfl) (V4 m ρ c) fun _ => rfl
      rwa [Pipeline.unscopedBufs_held] at hsplit)
    (prefHeld_none c _ _)
    (owesAt_of_owes (pdats m ρ 2 c) 0 rfl rfl)
  hin c := ΦA_in spec2 c _
  hout c := by rw [Pipeline.ownSems0_none]; exact ΦA_out spec2 c
  hexit c := region_leave c (W5 m ρ c)
    (by
      have hjoin := Pipeline.unscopedBufs_of_arrays (p := 2) (pcfgs (F := F)) adm (Ix := Unit) (Name := ℕ) (U := UR sig nD τ) (Lvl := ℕ)
        launch2.win launch2.arr_whole c (pdats m ρ) ((pdats m ρ 2 c).share_full fun _ => rfl)
        (V4 m ρ c) (V5 m ρ c) ((pdats m ρ 2 c).arrAt · cfg2.N) (hF2 m ρ c) (hrest2 m ρ c)
      rwa [Pipeline.unscopedBufs_held] at hjoin)
    (owes_of_owesAt (pdats m ρ 2 c) _ rfl)

-- a library lemma stated over `pin pcs a p` meets the printed configuration only when unification may unfold plain
-- definitions in a metavariable's type
set_option backward.isDefEq.respectTransparency.types false in
/-- REGION 3 over the thread state: entered from the buffers at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := region_enter c (W6 m ρ c)
    (by
      have hsplit := Pipeline.arrays_of_unscopedBufs (p := 3) (pcfgs (F := F)) adm (pdats m ρ) launch3.win launch3.arr_whole c
        ((pdats m ρ 3 c).share_full fun _ => rfl) (V6 m ρ c) fun _ => rfl
      rwa [Pipeline.unscopedBufs_held] at hsplit)
    (prefHeld_none c _ _)
    (owesAt_of_owes (pdats m ρ 3 c) 0 rfl rfl)
  hin c := ΦA_in spec3 c _
  hout c := by rw [Pipeline.ownSems0_none]; exact ΦA_out spec3 c
  hexit c := region_leave c (W7 m ρ c)
    (by
      have hjoin := Pipeline.unscopedBufs_of_arrays (p := 3) (pcfgs (F := F)) adm (Ix := Unit) (Name := ℕ) (U := UR sig nD τ) (Lvl := ℕ)
        launch3.win launch3.arr_whole c (pdats m ρ) ((pdats m ρ 3 c).share_full fun _ => rfl)
        (V6 m ρ c) (V7 m ρ c) ((pdats m ρ 3 c).arrAt · cfg3.N) (hF3 m ρ c) (hrest3 m ρ c)
      rwa [Pipeline.unscopedBufs_held] at hjoin)
    (owes_of_owesAt (pdats m ρ 3 c) _ rfl)

-- a library lemma stated over `pin pcs a p` meets the printed configuration only when unification may unfold plain
-- definitions in a metavariable's type
set_option backward.isDefEq.respectTransparency.types false in
/-- REGION 4 over the thread state: entered from the buffers at `W8`, left at `W9`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := region_enter c (W8 m ρ c)
    (by
      have hsplit := Pipeline.arrays_of_unscopedBufs (p := 4) (pcfgs (F := F)) adm (pdats m ρ) launch4.win launch4.arr_whole c
        ((pdats m ρ 4 c).share_full fun _ => rfl) (V8 m ρ c) fun _ => rfl
      rwa [Pipeline.unscopedBufs_held] at hsplit)
    (prefHeld_none c _ _)
    (owesAt_of_owes (pdats m ρ 4 c) 0 rfl rfl)
  hin c := (show _ ⊢ iprop((∃ r, prngReg c r) ∗ Pipeline.scopedRest (Ix := Unit) (Name := ℕ) (U := UR sig nD τ) (Lvl := ℕ) (Val := Elt F) spec4 c) from by
      iintro ⟨Hp, -, Hs⟩
      isplitl [Hp]; · iexact Hp
      iexact Hs).trans (hin4 (V8 m ρ) c)
  hout c := by
    rw [Pipeline.ownSems0_none]
    refine (hout4 (V8 m ρ) c).trans ?_
    iintro ⟨Hp, Hs⟩
    isplitl [Hp]; · iexact Hp
    isplitr; · iempintro
    iexact Hs
  hexit c := region_leave c (W9 m ρ c)
    (by
      have hjoin := Pipeline.unscopedBufs_of_arrays (p := 4) (pcfgs (F := F)) adm (Ix := Unit) (Name := ℕ) (U := UR sig nD τ) (Lvl := ℕ)
        launch4.win launch4.arr_whole c (pdats m ρ) ((pdats m ρ 4 c).share_full fun _ => rfl)
        (V8 m ρ c) (V9 m ρ c) ((pdats m ρ 4 c).arrAt · cfg4.N) (hF4 m ρ c) (hrest4 m ρ c)
      rwa [Pipeline.unscopedBufs_held] at hjoin)
    (owes_of_owesAt (pdats m ρ 4 c) _ rfl)

-- a library lemma stated over `pin pcs a p` meets the printed configuration only when unification may unfold plain
-- definitions in a metavariable's type
set_option backward.isDefEq.respectTransparency.types false in
/-- REGION 5 over the thread state: entered from the buffers at `W10`, left at `W11`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := region_enter c (W10 m ρ c)
    (by
      have hsplit := Pipeline.arrays_of_unscopedBufs (p := 5) (pcfgs (F := F)) adm (pdats m ρ) launch5.win launch5.arr_whole c
        ((pdats m ρ 5 c).share_full fun _ => rfl) (V10 m ρ c) fun _ => rfl
      rwa [Pipeline.unscopedBufs_held] at hsplit)
    (prefHeld_none c _ _)
    (owesAt_of_owes (pdats m ρ 5 c) 0 rfl rfl)
  hin c := ΦA_in spec5 c _
  hout c := by rw [Pipeline.ownSems0_none]; exact ΦA_out spec5 c
  hexit c := region_leave c (W11 m ρ c)
    (by
      have hjoin := Pipeline.unscopedBufs_of_arrays (p := 5) (pcfgs (F := F)) adm (Ix := Unit) (Name := ℕ) (U := UR sig nD τ) (Lvl := ℕ)
        launch5.win launch5.arr_whole c (pdats m ρ) ((pdats m ρ 5 c).share_full fun _ => rfl)
        (V10 m ρ c) (V11 m ρ c) ((pdats m ρ 5 c).arrAt · cfg5.N) (hF5 m ρ c) (hrest5 m ρ c)
      rwa [Pipeline.unscopedBufs_held] at hjoin)
    (owes_of_owesAt (pdats m ρ 5 c) _ rfl)

/-! ## @main as its eleven segments, and the launch -/

/-- @main's segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)),
    .region (reg4 m ρ),
    .host (hseg hostOps5 hostOps5_sub hostOps5_fresh (W9 m ρ)),
    .region (reg5 m ρ) ]

/-- The last thread state without the `owes`: the buffers at the last boundary's contents and the register. -/
abbrev Tₙ (c : Dev nD) : sProp 𝕄 := iprop(StableHlo.held (c : Thread nD τ) (Pipeline.ucRefs τ sig) (W11 m ρ c) ∗ ∃ r, prngReg c r)

/-- The last region's exit state, regrouped as the launch reads it: the `owes` apart. -/
theorem last_state (c : Dev nD) :
    iprop(StableHlo.held (c : Thread nD τ) (Pipeline.ucRefs τ sig) (W11 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and in every final state each unscoped buffer of each core holds what the fold `W11` says. -/
theorem run_all : θ_run defs (onTc (τ := τ) (main (F := F))) ⟨m, fun _ => 0, ρ⟩
    (fun r => ∀ c : Dev nD, ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      imodintro
      isplitl [Hu]
      · iapply hown; iexact Hu
      iapply hemp; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, last_state m ρ⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      have hread := pointsTo_read_all (Ix := Unit) (Name := ℕ) (U := UR sig nD τ) (Lvl := ℕ) (Pipeline.ucRefs τ sig) (fun b => (((c : Thread nD τ)).1, b)) (W11 m ρ c) s'
      iintro ⟨⟨Hh, -⟩, HS⟩
      unfold StableHlo.held
      imodintro
      iapply hread
      isplitl [Hh]; · iexact Hh
      iexact HS)
    (hQ := fun s h => h)

/-! ## The claims' posts, read off the run -/

/-- In a final state of the run, a buffer no stretch writes and no region puts out holds its launch contents. -/
theorem kept_at {r : PUnit × MemSt nD τ sig (Elt F)}
    (h : ∀ c : Dev nD, ∀ b ∈ Pipeline.ucRefs τ sig, r.2.mem ((c : Thread nD τ).1, b) = W11 m ρ c b)
    (c : Dev nD) (x : Ref sig .tc) (hu : ¬ (Proc.devRef .tc x : DevRef τ sig).isScoped)
    (h0 : x ∉ hostOps0_W) (h1 : x ∉ hostOps1_W) (h3 : x ∉ hostOps3_W) (h4 : x ∉ hostOps4_W) (h5 : x ∉ hostOps5_W)
    (hr : x ∉ ([main_v23, main_v39, main_v40, main_v56, main_v58, main_v70] : List (Ref sig .tc))) :
    r.2.mem ((c.tc : Thread nD τ).loc x) = m ((c.tc : Thread nD τ).loc x) :=
  (h c _ (mem_uc x hu)).trans (W11_keeps m ρ c x h0 h1 h3 h4 h5 hr)

/-- THE FRAME, at any `F`: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨kept_at m ρ h c main_arg0 (by decide) (by decide) (by decide) (by decide) (by decide) (by decide) (by decide),
     kept_at m ρ h c main_arg1 (by decide) (by decide) (by decide) (by decide) (by decide) (by decide) (by decide),
     kept_at m ρ h c main_arg2 (by decide) (by decide) (by decide) (by decide) (by decide) (by decide) (by decide),
     kept_at m ρ h c main_arg3 (by decide) (by decide) (by decide) (by decide) (by decide) (by decide) (by decide),
     kept_at m ρ h c main_arg4 (by decide) (by decide) (by decide) (by decide) (by decide) (by decide) (by decide),
     kept_at m ρ h c main_arg5 (by decide) (by decide) (by decide) (by decide) (by decide) (by decide) (by decide),
     kept_at m ρ h c main_arg6 (by decide) (by decide) (by decide) (by decide) (by decide) (by decide) (by decide),
     kept_at m ρ h c main_arg7 (by decide) (by decide) (by decide) (by decide) (by decide) (by decide) (by decide),
     kept_at m ρ h c main_arg8 (by decide) (by decide) (by decide) (by decide) (by decide) (by decide) (by decide),
     kept_at m ρ h c main_arg9 (by decide) (by decide) (by decide) (by decide) (by decide) (by decide) (by decide),
     kept_at m ρ h c main_arg10 (by decide) (by decide) (by decide) (by decide) (by decide) (by decide) (by decide),
     kept_at m ρ h c main_arg11 (by decide) (by decide) (by decide) (by decide) (by decide) (by decide) (by decide)⟩) (run_all m ρ)

/-- THE RUN'S VALUE: the result array ends at what region 5's write-back leaves in it, the arguments as launched. -/
theorem run_value : θ_run defs (onTc (τ := τ) (main (F := F))) ⟨m, fun _ => 0, ρ⟩ (fun r => ∀ c : Dev nD,
      r.2.mem ((c.tc : Thread nD τ).loc main_v70) = (dat5 (V10 m ρ) c).arrAt 5 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v70 (by decide))).trans (W11_out m ρ c),
     kept_at m ρ h c main_arg0 (by decide) (by decide) (by decide) (by decide) (by decide) (by decide) (by decide),
     kept_at m ρ h c main_arg1 (by decide) (by decide) (by decide) (by decide) (by decide) (by decide) (by decide),
     kept_at m ρ h c main_arg2 (by decide) (by decide) (by decide) (by decide) (by decide) (by decide) (by decide),
     kept_at m ρ h c main_arg3 (by decide) (by decide) (by decide) (by decide) (by decide) (by decide) (by decide),
     kept_at m ρ h c main_arg4 (by decide) (by decide) (by decide) (by decide) (by decide) (by decide) (by decide),
     kept_at m ρ h c main_arg5 (by decide) (by decide) (by decide) (by decide) (by decide) (by decide) (by decide),
     kept_at m ρ h c main_arg6 (by decide) (by decide) (by decide) (by decide) (by decide) (by decide) (by decide),
     kept_at m ρ h c main_arg7 (by decide) (by decide) (by decide) (by decide) (by decide) (by decide) (by decide),
     kept_at m ρ h c main_arg8 (by decide) (by decide) (by decide) (by decide) (by decide) (by decide) (by decide),
     kept_at m ρ h c main_arg9 (by decide) (by decide) (by decide) (by decide) (by decide) (by decide) (by decide),
     kept_at m ρ h c main_arg10 (by decide) (by decide) (by decide) (by decide) (by decide) (by decide) (by decide),
     kept_at m ρ h c main_arg11 (by decide) (by decide) (by decide) (by decide) (by decide) (by decide) (by decide)⟩) (run_all m ρ)

end Cert.KernelIdeal.Hand

end
-- ==== Proof.KI.Pool.lean ====
/-
  REGION 4 (segment pooling), THE VALUES AT THE EXTENDED REALS, as pure facts over variables.

  One grid point reads a block of 2000 rows `x : [2000,16]` and the column `b : [2000,1]` of their segment words, builds
  the one-hot matrix `[2000,256]` whose entry (r, g) is 1 where row r's word is the number g and 0 elsewhere, contracts
  it with the block over the rows, and adds the product to the scratch `a : [256,16]`. So the stored scratch at (g, f)
  is `a (g, f)` plus the sum of `x (r, f)` over the rows r of the block whose word is g (`poolStep_apply`); the scratch
  starts at zero (`poolZero_apply`); and the 50 blocks' sums together are the one sum over all 100000 rows (`blocks_sum`).
-/
import proofs.«405230_j19808389169217_2_alg».proof.KernelIdeal
import proofs.«405230_j19808389169217_2_alg».proof.Proof.Gen.KernelIdeal.Skeleton
import Idealize.ShloMosaic.Lib.ValueIdx
import Idealize.ShloMosaic.Lib.Pipeline.Value
import Idealize.ShloMosaic.Lib.StableHlo.Predicate
import Idealize.ShloMosaic.PureOps.Ideal.Laws
import Mathlib.Algebra.BigOperators.Fin
set_option maxRecDepth 16384
noncomputable section
namespace Cert.KernelIdeal.Hand
open Cert.KernelIdeal Cert.KernelIdeal.Gen
open Idealize.ShloMosaic
open scoped BigOperators

/-- The region-4 contraction: axis 0 of both operands is summed; the left operand's axis 1 is the result's axis 0 and
    the right operand's axis 1 the result's axis 1. -/
abbrev d4 : DotDims S2000x256 S2000x16 S256x16 := dot_S2000x256_S2000x16_S256x16_0_0_1_1_n_n

theorem lhs4_0 (i : S256x16.Idx) (q : d4.contr.Idx) : (d4.lhsIdx i q 0).val = (q ⟨0, by decide⟩).val :=
  d4.lhsIdx_val_of_single rfl i q
theorem lhs4_1 (i : S256x16.Idx) (q : d4.contr.Idx) : (d4.lhsIdx i q 1).val = (i 0).val := by
  unfold DotDims.lhsIdx
  rw [dif_neg (show ¬(1 : Fin S2000x256.rank) ∈ d4.lhsBatch by decide), dif_pos (show (1 : Fin S2000x256.rank) ∈ d4.lhsNonContracting by decide)]
  rfl
theorem rhs4_0 (i : S256x16.Idx) (q : d4.contr.Idx) : (d4.rhsIdx i q 0).val = (q ⟨0, by decide⟩).val :=
  d4.rhsIdx_val_of_single rfl i q
theorem rhs4_1 (i : S256x16.Idx) (q : d4.contr.Idx) : (d4.rhsIdx i q 1).val = (i 1).val := by
  unfold DotDims.rhsIdx
  rw [dif_neg (show ¬(1 : Fin S2000x16.rank) ∈ d4.rhsBatch by decide), dif_pos (show (1 : Fin S2000x16.rank) ∈ d4.rhsNonContracting by decide)]
  rfl

/-- The scratch's first value: the zero splat reads the extended real 0 everywhere. -/
theorem poolZero_apply (i : S256x16.Idx) : k4_pay1 (F := Ideal) i = 0 := by
  unfold k4_pay1
  rw [shapeCast_self]
  show Ideal.ofBits .f32 0x00000000#32 = 0
  exact Ideal.ofBits_zero_f32

/-- One entry of the one-hot matrix: a word compared for equality with another, the bit widened to a word and the word
    converted, is 1 where the two words are equal and 0 elsewhere. -/
theorem onehot_word (w c : BitVec 32) :
    (FloatOps.sitofp (F := Ideal) .f32 ((IntOp.cmpi .eq w c).setWidth 32) : EReal) = if w = c then (1 : EReal) else 0 := by
  by_cases h : w = c
  · rw [if_pos h, StableHlo.Predicate.cmpi_eq_iff.2 h]
    show (((((1#1 : BitVec 1).setWidth 32).toInt : ℝ) : EReal)) = 1
    rw [show ((1#1 : BitVec 1).setWidth 32).toInt = 1 by decide]
    simp
  · rw [if_neg h]
    have h0 : IntOp.cmpi .eq w c = 0#1 := ValueIdx.eq_zero_of_ne_one (fun h1 => h (StableHlo.Predicate.cmpi_eq_iff.1 h1))
    rw [h0]
    show (((((0#1 : BitVec 1).setWidth 32).toInt : ℝ) : EReal)) = 0
    rw [show ((0#1 : BitVec 1).setWidth 32).toInt = 0 by decide]
    simp

/-- The column of words broadcast along the 256 columns reads, at (r, g), the column's word of row r. -/
theorem bcol_apply (b : IVec S2000x1 32) (h : S2000x1.Broadcasts S2000x256) (r : Fin 2000) (g : Fin 256) :
    broadcastTo S2000x256 b h (ValueIdx.ix2 r g) = b (ValueIdx.ix2 r 0) :=
  broadcastTo_apply b h _ _ (fun a => by
    match a with
    | ⟨0, _⟩ => rfl
    | ⟨1, _⟩ => rfl)

/-- The row of column numbers broadcast along the 2000 rows reads, at (r, g), the number g. -/
theorem brow_apply (h1 : S1x256.Iotas .tc 32 [1]) (h : S1x256.Broadcasts S2000x256) (r : Fin 2000) (g : Fin 256) :
    broadcastTo S2000x256 (iota .tc S1x256 32 [1] h1) h (ValueIdx.ix2 r g) = BitVec.ofNat 32 g.val :=
  (broadcastTo_apply _ h _ (ValueIdx.ix2 (0 : Fin 1) g) (fun a => by
    match a with
    | ⟨0, _⟩ => rfl
    | ⟨1, _⟩ => rfl)).trans (iota_single_apply .tc S1x256 32 1 h1 _)

/-- THE BLOCK'S CONTRIBUTION: the payload stored back into the scratch is the scratch plus, for each of the 2000 rows of
    the block whose word is the number of row g of the table, that row's element in column f. -/
theorem poolStep_apply (b : Vec Ideal S2000x1 .i32) (x : Vec Ideal S2000x16 .f32) (a : Vec Ideal S256x16 .f32) (g : Fin 256) (f : Fin 16) :
    k4_pay2 (F := Ideal) b x a (ValueIdx.ix2 g f) = a (ValueIdx.ix2 g f) + ∑ r : Fin 2000, (if b (ValueIdx.ix2 r 0) = BitVec.ofNat 32 g.val then (1 : EReal) else 0) * x (ValueIdx.ix2 r f) := by
  unfold k4_pay2
  simp only [shapeCast_self]
  rw [ValueIdx.addf_apply]
  congr 1
  refine (Ideal.matmul_constant_zero_apply d4 none _ _ (ValueIdx.ix2 g f)).trans ?_
  rw [← Equiv.sum_comp (ValueIdx.contrEquiv1 d4 2000 rfl rfl).symm]
  refine Finset.sum_congr rfl fun r _ => ?_
  have hk := ValueIdx.contrEquiv1_symm_val d4 2000 rfl rfl r
  have el : d4.lhsIdx (ValueIdx.ix2 g f) ((ValueIdx.contrEquiv1 d4 2000 rfl rfl).symm r) = (ValueIdx.ix2 r g : S2000x256.Idx) :=
    funext fun a => Fin.ext (by
      match a with
      | ⟨0, _⟩ => exact (lhs4_0 _ _).trans hk
      | ⟨1, _⟩ => exact lhs4_1 _ _)
  have er : d4.rhsIdx (ValueIdx.ix2 g f) ((ValueIdx.contrEquiv1 d4 2000 rfl rfl).symm r) = (ValueIdx.ix2 r f : S2000x16.Idx) :=
    funext fun a => Fin.ext (by
      match a with
      | ⟨0, _⟩ => exact (rhs4_0 _ _).trans hk
      | ⟨1, _⟩ => exact rhs4_1 _ _)
  rw [el, er]
  show FloatOps.sitofp (F := Ideal) .f32 ((IntOp.cmpi .eq (broadcastTo S2000x256 b _ (ValueIdx.ix2 r g))
      (broadcastTo S2000x256 (iota .tc S1x256 32 [1] _) _ (ValueIdx.ix2 r g))).setWidth 32) * x (ValueIdx.ix2 r f) = _
  rw [bcol_apply, brow_apply, onehot_word]

/-- A sum over the 100000 rows, taken block by block: 50 blocks of 2000 consecutive rows. -/
theorem sum_blocks {M : Type*} [AddCommMonoid M] (h : Fin 100000 → M) :
    (∑ t : Fin 50, ∑ r : Fin 2000, h ⟨2000 * t.val + r.val, by omega⟩) = ∑ q : Fin 100000, h q := by
  rw [← Fintype.sum_prod_type']
  exact Fintype.sum_equiv (finProdFinEquiv (m := 50) (n := 2000)) _ _
    (fun p => congrArg h (Fin.ext (by show 2000 * p.1.val + p.2.val = p.2.val + 2000 * p.1.val; omega)))

/-- THE 50 BLOCKS TOGETHER: the blocks' filtered sums add up to the filtered sum over all the rows. -/
theorem blocks_sum (X : Fin 100000 → Fin 16 → EReal) (B : Fin 100000 → BitVec 32) (g : Fin 256) (f : Fin 16) :
    (∑ t : Fin 50, ∑ r : Fin 2000, (if B ⟨2000 * t.val + r.val, by omega⟩ = BitVec.ofNat 32 g.val then (1:EReal) else 0) * X ⟨2000 * t.val + r.val, by omega⟩ f)
      = ∑ q : Fin 100000, (if B q = BitVec.ofNat 32 g.val then (1:EReal) else 0) * X q f :=
  sum_blocks (fun q => (if B q = BitVec.ofNat 32 g.val then (1:EReal) else 0) * X q f)

end Cert.KernelIdeal.Hand
-- ==== Proof.KI.Reg4Value.lean ====
/-
  REGION 4 (segment pooling): THE OUTPUT ARRAY AFTER THE REGION, at the extended reals.

  The scratch starts at zero and each of the 50 grid points adds its block's contribution: for every row of the block, the
  row's entries into the table row its segment word names. Only the last point writes the output back, and its block
  is the whole [256,16] array, so the array ends as the scratch after all 50 points; block t's row r is row 2000 t + r
  of the two input arrays; and the 50 blocks' sums together are the one sum over all 100000 rows.
-/
import proofs.«405230_j19808389169217_2_alg».proof.Proof.Gen.KernelIdeal.Launch
import proofs.«405230_j19808389169217_2_alg».proof.Proof.Gen.KernelIdeal.Skeleton
import proofs.«405230_j19808389169217_2_alg».proof.Proof.Gen.KernelIdeal.Points
import proofs.«405230_j19808389169217_2_alg».proof.Proof.KI.Reg4
import proofs.«405230_j19808389169217_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Value (Ideal only) -/
section Value
open scoped BigOperators
variable (V : (c : Dev nD) → (b : Ref sig .tc) → Buf (Elt Ideal) ((c : Thread nD τ).loc b))

/-- The grid has 50 points. -/
theorem N4_eq : cfg4.N = 50 := N_4
theorem pt4_lt (t : Fin cfg4.N) : t.val < 50 := by have := t.isLt; have hN : cfg4.N = 50 := N_4; omega

/-- The index maps over the 50 grid points: the row blocks of the rows and of their segment words move together, block t
    at point t, column index 0; the output is always its one block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row r of block t of the rows is row 2000 t + r of the array. -/
theorem rows_blk4 (c : Dev nD) (t : Fin cfg4.N) (r : Fin 2000) (f : Fin 16) :
    (iblk4 V c 0 t : Vec Ideal S2000x16 .f32) (ValueIdx.ix2 r f)
      = (V c main_v56 : S100000x16.Idx → EReal) (ValueIdx.ix2 ⟨2000 * t.val + r.val, by have := pt4_lt t; omega⟩ f) := by
  obtain ⟨e00, e01, -⟩ := idx_facts4 t
  show (V c main_v56 : S100000x16.Idx → EReal) (((cfg4.win 0).blk t).view.emb (ValueIdx.ix2 r f)) = _
  refine congrArg _ (funext fun a => Fin.ext ?_)
  match a with
  | ⟨0, _⟩ => show win4_0.index t (0 : Fin 2) * 2000 + 1 * r.val = 2000 * t.val + r.val; omega
  | ⟨1, _⟩ => show win4_0.index t (1 : Fin 2) * 16 + 1 * f.val = f.val; omega

/-- Row r of block t of the segment words is row 2000 t + r of the array. -/
theorem words_blk4 (c : Dev nD) (t : Fin cfg4.N) (r : Fin 2000) :
    (iblk4 V c 1 t : Vec Ideal S2000x1 .i32) (ValueIdx.ix2 r 0)
      = (V c main_v57 : S100000x1.Idx → BitVec 32) (ValueIdx.ix2 ⟨2000 * t.val + r.val, by have := pt4_lt t; omega⟩ 0) := by
  obtain ⟨-, -, e10, e11, -⟩ := idx_facts4 t
  show (V c main_v57 : S100000x1.Idx → BitVec 32) (((cfg4.win 1).blk t).view.emb (ValueIdx.ix2 r 0)) = _
  refine congrArg _ (funext fun a => Fin.ext ?_)
  match a with
  | ⟨0, _⟩ => show win4_1.index t (0 : Fin 2) * 2000 + 1 * r.val = 2000 * t.val + r.val; omega
  | ⟨1, _⟩ => show win4_1.index t (1 : Fin 2) * 1 + 1 * (0 : Fin 1).val = (0 : Fin 1).val; omega

/-! ## The scratch after n points -/

/-- What block t adds to the scratch at (g, f): the rows of the block whose segment word is g, summed in column f. -/
def blkSum4 (c : Dev nD) (g : Fin 256) (f : Fin 16) (t : Fin cfg4.N) : EReal :=
  ∑ r : Fin 2000, (if (iblk4 V c 1 t : Vec Ideal S2000x1 .i32) (ValueIdx.ix2 r 0) = BitVec.ofNat 32 g.val then (1 : EReal) else 0)
    * (iblk4 V c 0 t : Vec Ideal S2000x16 .f32) (ValueIdx.ix2 r f)

/-- After n points the scratch at (g, f) is the sum of what the first n blocks add: it starts at zero and each point
    adds its block's contribution. -/
theorem acc4_apply (c : Dev nD) (g : Fin 256) (f : Fin 16) : ∀ n, n ≤ cfg4.N →
    acc4 V c n (ValueIdx.ix2 g f) = ∑ t ∈ Finset.range n, if h : t < cfg4.N then blkSum4 V c g f ⟨t, h⟩ else 0
  | 0, _ => by
    rw [acc4_zero, Finset.range_zero, Finset.sum_empty]
    exact poolZero_apply _
  | n + 1, hn => by
    have h : n < cfg4.N := hn
    have ih := acc4_apply c g f n (Nat.le_of_lt h)
    rw [Finset.sum_range_succ, dif_pos h, ← ih]
    show acc4 V c ((⟨n, h⟩ : Fin cfg4.N).val + 1) (ValueIdx.ix2 g f) = _
    rw [acc4_succ]
    exact poolStep_apply _ _ _ g f

/-! ## From the one written-back block to the array -/

/-- The one point that writes the output back is the last: what it writes is the scratch after all 50 points, and its
    block is the whole array. -/
theorem flushed4_eq (c : Dev nD) (t : Fin cfg4.N) (hf : (cfg4.win 2).flush t = true) :
    (dat4 V c).flushed 2 t = ((cfg4.win 2).blk t).view.read (Elt Ideal) (acc4 V c 50) := by
  have h49 : t.val = 49 := by have := (flush4_2 t).1 hf; have := pt4_lt t; omega
  obtain ⟨-, -, -, -, e20, e21⟩ := idx_facts4 t
  show (cfg4.win 2).cut (grid4.coords t) ((dat4 V c).after 2 t) = _
  rw [after4_out, h49]
  funext y
  show acc4 V c 50 y = acc4 V c 50 (((cfg4.win 2).blk t).view.emb y)
  refine congrArg _ (funext fun a => Fin.ext ?_)
  match a with
  | ⟨0, _⟩ => show (y 0).val = win4_2.index t (0 : Fin 2) * 256 + 1 * (y 0).val; omega
  | ⟨1, _⟩ => show (y 1).val = win4_2.index t (1 : Fin 2) * 16 + 1 * (y 1).val; omega

/-- An index of the output array lies in point t's block iff each coordinate lies in the block's range on its axis. -/
theorem mem_blk4 (t : Fin cfg4.N) (i : S256x16.Idx) :
    i ∈ ((cfg4.win 2).blk t).view.set ↔ ∀ a : Fin 2, win4_2.index t a * S256x16.size a ≤ (i a).val ∧ (i a).val < win4_2.index t a * S256x16.size a + S256x16.size a := by
  show i ∈ ((View.whole main_v58).slice (win4_2.rect t)).set ↔ _
  rw [View.set_slice_whole, Rect.mem_set_unit]
  exact Iff.rfl

/-- The last point's block, the whole array, covers every index. -/
theorem cover_out4 (i : S256x16.Idx) :
    ∃ t : Fin cfg4.N, (cfg4.win 2).flush t = true ∧ i ∈ ((cfg4.win 2).blk t).view.set := by
  have hi0 : (i 0).val < 256 := (i 0).isLt
  have hi1 : (i 1).val < 16 := (i 1).isLt
  have ht : 49 < cfg4.N := by have hN : cfg4.N = 50 := N_4; omega
  obtain ⟨-, -, -, -, e20, e21⟩ := idx_facts4 ⟨49, ht⟩
  refine ⟨⟨49, ht⟩, (flush4_2 _).2 rfl, ?_⟩
  rw [mem_blk4]
  intro a
  match a with
  | ⟨0, _⟩ =>
    show win4_2.index ⟨49, ht⟩ (0 : Fin 2) * 256 ≤ (i 0).val ∧ (i 0).val < win4_2.index ⟨49, ht⟩ (0 : Fin 2) * 256 + 256
    rw [e20]; omega
  | ⟨1, _⟩ =>
    show win4_2.index ⟨49, ht⟩ (1 : Fin 2) * 16 ≤ (i 1).val ∧ (i 1).val < win4_2.index ⟨49, ht⟩ (1 : Fin 2) * 16 + 16
    rw [e21]; omega

/-- The output array after the region is the scratch after all 50 points. -/
theorem final4 (c : Dev nD) : (dat4 V c).arrAt 2 cfg4.N = acc4 V c 50 :=
  (dat4 V c).arrAt_eq_of_cover 2 (acc4 V c 50) (fun t hf => flushed4_eq V c t hf) cover_out4

/-- THE POOLED SUMS: entry (g, f) of the output array after the region is the sum, over the rows q whose segment word
    is the number g, of entry (q, f) of the rows, both arrays as the region finds them. -/
theorem value4 (c : Dev nD) (g : Fin 256) (f : Fin 16) :
    (dat4 V c).arrAt 2 cfg4.N (ValueIdx.ix2 g f)
      = ∑ q : Fin 100000, (if (V c main_v57 : S100000x1.Idx → BitVec 32) (ValueIdx.ix2 q 0) = BitVec.ofNat 32 g.val then (1 : EReal) else 0)
          * (V c main_v56 : S100000x16.Idx → EReal) (ValueIdx.ix2 q f) := by
  rw [final4]
  refine (acc4_apply V c g f 50 N4_eq.ge).trans ?_
  rw [Finset.sum_range]
  refine Eq.trans ?_ (blocks_sum (fun q j => (V c main_v56 : S100000x16.Idx → EReal) (ValueIdx.ix2 q j))
    (fun q => (V c main_v57 : S100000x1.Idx → BitVec 32) (ValueIdx.ix2 q 0)) g f)
  refine Finset.sum_congr rfl fun t _ => ?_
  have ht : t.val < cfg4.N := by have hN : cfg4.N = 50 := N_4; have := t.isLt; omega
  rw [dif_pos ht]
  unfold blkSum4
  refine Finset.sum_congr rfl fun r _ => ?_
  rw [rows_blk4, words_blk4]

end Value
end Cert.KernelIdeal.Hand
-- ==== Proof.Bridge.Pointwise.lean ====
/-
  The reference's stages read at one index, at the ideal values. A product of two matrices at (r, j) is the sum over the
  contracted axis of the products of the entries; a vector spread along a new unit axis, or a row or column repeated
  along an axis, reads the entry it came from; a graph-convolution layer at (r, j) is the rectified sum of the
  neighbour term, the self term `xw r j · dinv r²` and the bias `b j`; the head at (g, o) is
  `Σ_k max (Σ_j p g j · Wf j k + bf k, 0) · Wo k o + bo o`. The neighbour sum, the edge weights and the degree
  normalisation stay closed: nothing here looks inside them.
-/
import proofs.«405230_j19808389169217_2_alg».proof.Proof.Bridge.Spec
import proofs.«405230_j19808389169217_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen Idealize.ShloMosaic Idealize.ShloMosaic.TcCoe Idealize.SL.Sem Idealize.ShloMosaic.StableHlo
open Idealize.ShloMosaic.ValueIdx

/-! ## Spreading a vector along axes: the entry read -/

section Spread
variable {α : Type}

/-- A length-100000 vector as a column reads its own entry. -/
theorem colN_apply (y : S100000.Idx → α) (q : Fin 100000) :
    broadcastInDim S100000x1 ![0] bcast_S100000_S100000x1_0 y (ix2 q 0) = y (ix1 q) :=
  broadcastInDim_apply _ bcast_S100000_S100000x1_0 y (ix2 q 0) (ix1 q) (fun a => match a with
    | ⟨0, _⟩ => by show q.val = if (100000 : Nat) = 1 then 0 else q.val; rw [if_neg (by decide)])

/-- A column repeated over 16 columns reads the column's entry of that row. -/
theorem colSpread_apply (y : S100000x1.Idx → α) (r : Fin 100000) (j : Fin 16) :
    broadcastInDim S100000x16 ![0, 1] bcast_S100000x1_S100000x16_0_1 y (ix2 r j) = y (ix2 r 0) :=
  broadcastInDim_apply _ bcast_S100000x1_S100000x16_0_1 y (ix2 r j) (ix2 r 0) (fun a => match a with
    | ⟨0, _⟩ => by show r.val = if (100000 : Nat) = 1 then 0 else r.val; rw [if_neg (by decide)]
    | ⟨1, _⟩ => by show 0 = if (1 : Nat) = 1 then 0 else j.val; rw [if_pos rfl])

/-- A length-16 vector as a row reads its own entry. -/
theorem row16_apply (b : S16.Idx → α) (j : Fin 16) :
    broadcastInDim S1x16 ![1] bcast_S16_S1x16_1 b (ix2 0 j) = b (ix1 j) :=
  broadcastInDim_apply _ bcast_S16_S1x16_1 b (ix2 0 j) (ix1 j) (fun a => match a with
    | ⟨0, _⟩ => by show j.val = if (16 : Nat) = 1 then 0 else j.val; rw [if_neg (by decide)])

/-- A row repeated over 100000 rows reads the row's entry of that column. -/
theorem rowSpreadN_apply (y : S1x16.Idx → α) (r : Fin 100000) (j : Fin 16) :
    broadcastInDim S100000x16 ![0, 1] bcast_S1x16_S100000x16_0_1 y (ix2 r j) = y (ix2 0 j) :=
  broadcastInDim_apply _ bcast_S1x16_S100000x16_0_1 y (ix2 r j) (ix2 0 j) (fun a => match a with
    | ⟨0, _⟩ => by show 0 = if (1 : Nat) = 1 then 0 else r.val; rw [if_pos rfl]
    | ⟨1, _⟩ => by show j.val = if (16 : Nat) = 1 then 0 else j.val; rw [if_neg (by decide)])

/-- A row repeated over 256 rows reads the row's entry of that column. -/
theorem rowSpread256_apply (y : S1x16.Idx → α) (g : Fin 256) (k : Fin 16) :
    broadcastInDim S256x16 ![0, 1] bcast_S1x16_S256x16_0_1 y (ix2 g k) = y (ix2 0 k) :=
  broadcastInDim_apply _ bcast_S1x16_S256x16_0_1 y (ix2 g k) (ix2 0 k) (fun a => match a with
    | ⟨0, _⟩ => by show 0 = if (1 : Nat) = 1 then 0 else g.val; rw [if_pos rfl]
    | ⟨1, _⟩ => by show k.val = if (16 : Nat) = 1 then 0 else k.val; rw [if_neg (by decide)])

/-- A length-2 vector as a row reads its own entry. -/
theorem row2_apply (b : S2.Idx → α) (o : Fin 2) :
    broadcastInDim S1x2 ![1] bcast_S2_S1x2_1 b (ix2 0 o) = b (ix1 o) :=
  broadcastInDim_apply _ bcast_S2_S1x2_1 b (ix2 0 o) (ix1 o) (fun a => match a with
    | ⟨0, _⟩ => by show o.val = if (2 : Nat) = 1 then 0 else o.val; rw [if_neg (by decide)])

/-- A two-entry row repeated over 256 rows reads the row's entry of that column. -/
theorem rowSpread2_apply (y : S1x2.Idx → α) (g : Fin 256) (o : Fin 2) :
    broadcastInDim S256x2 ![0, 1] bcast_S1x2_S256x2_0_1 y (ix2 g o) = y (ix2 0 o) :=
  broadcastInDim_apply _ bcast_S1x2_S256x2_0_1 y (ix2 g o) (ix2 0 o) (fun a => match a with
    | ⟨0, _⟩ => by show 0 = if (1 : Nat) = 1 then 0 else g.val; rw [if_pos rfl]
    | ⟨1, _⟩ => by show o.val = if (2 : Nat) = 1 then 0 else o.val; rw [if_neg (by decide)])

end Spread

/-- The node-to-graph assignment as a column reads its own entry. -/
theorem col_apply (a11 : IVec S100000 32) (q : Fin 100000) :
    broadcastInDim S100000x1 ![0] bcast_S100000_S100000x1_0 a11 (ix2 q 0) = a11 (ix1 q) :=
  colN_apply a11 q

/-! ## The zero tables -/

/-- The all-zero [100000, 16] table reads zero. -/
theorem zerosN_apply (i : S100000x16.Idx) : zerosN (F := Ideal) i = 0 := by
  unfold zerosN
  rw [broadcastInDim_apply _ bcast_S_S100000x16 (constant (F := Ideal) S_ .f32 0x00000000#32) i ix0 (fun a => a.elim0), constant_apply]
  exact Ideal.ofBits_zero_f32

/-- The all-zero [256, 16] table reads zero. -/
theorem zeros256_apply (i : S256x16.Idx) :
    broadcastInDim S256x16 ![] bcast_S_S256x16 (constant (F := Ideal) S_ .f32 0x00000000#32) i = 0 := by
  rw [broadcastInDim_apply _ bcast_S_S256x16 (constant (F := Ideal) S_ .f32 0x00000000#32) i ix0 (fun a => a.elim0), constant_apply]
  exact Ideal.ofBits_zero_f32

/-! ## Products of matrices at an entry

Each is the sum over the contraction's one index, re-indexed by its coordinate; the operands' indices at a contraction
index are read axis by axis from the dimension numbers. -/

/-- [100000, 128] · [128, 16] at (r, j). -/
theorem dot128_apply (x : FVec Ideal S100000x128 .f32) (w : FVec Ideal S128x16 .f32) (r : Fin 100000) (j : Fin 16) :
    Host.dotGeneral (F := Ideal) dot_S100000x128_S128x16_S100000x16_1_0_0_1_n_n none x w (ix2 r j) = ∑ k : Fin 128, x (ix2 r k) * w (ix2 k j) := by
  simp only [Host.dotGeneral]
  rw [Ideal.dotGeneral_apply, ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have el : dot_S100000x128_S128x16_S100000x16_1_0_0_1_n_n.lhsIdx (ix2 r j) ((contrEquiv1 dot_S100000x128_S128x16_S100000x16_1_0_0_1_n_n 128 rfl rfl).symm k) = ix2 r k := funext fun a => Fin.ext (by
    match a with
    | ⟨0, _⟩ => exact Read.lhs_main_v7_0 _ _
    | ⟨1, _⟩ => exact (Read.lhs_main_v7_1 _ _).trans hk)
  have er : dot_S100000x128_S128x16_S100000x16_1_0_0_1_n_n.rhsIdx (ix2 r j) ((contrEquiv1 dot_S100000x128_S128x16_S100000x16_1_0_0_1_n_n 128 rfl rfl).symm k) = ix2 k j := funext fun a => Fin.ext (by
    match a with
    | ⟨0, _⟩ => exact (Read.rhs_main_v7_0 _ _).trans hk
    | ⟨1, _⟩ => exact Read.rhs_main_v7_1 _ _)
  rw [el, er]

/-- [100000, 16] · [16, 16] at (r, j). -/
theorem dot16_apply (x : FVec Ideal S100000x16 .f32) (w : FVec Ideal S16x16 .f32) (r : Fin 100000) (j : Fin 16) :
    Host.dotGeneral (F := Ideal) dot_S100000x16_S16x16_S100000x16_1_0_0_1_n_n none x w (ix2 r j) = ∑ k : Fin 16, x (ix2 r k) * w (ix2 k j) := by
  simp only [Host.dotGeneral]
  rw [Ideal.dotGeneral_apply, ← Equiv.sum_comp (contrEquiv1 dot_S100000x16_S16x16_S100000x16_1_0_0_1_n_n 16 rfl rfl).symm]
  refine Finset.sum_congr rfl fun k _ => ?_
  have hk := contrEquiv1_symm_val dot_S100000x16_S16x16_S100000x16_1_0_0_1_n_n 16 rfl rfl k
  have el : dot_S100000x16_S16x16_S100000x16_1_0_0_1_n_n.lhsIdx (ix2 r j) ((contrEquiv1 dot_S100000x16_S16x16_S100000x16_1_0_0_1_n_n 16 rfl rfl).symm k) = ix2 r k := funext fun a => Fin.ext (by
    match a with
    | ⟨0, _⟩ => exact Read.lhs_main_v45_0 _ _
    | ⟨1, _⟩ => exact (Read.lhs_main_v45_1 _ _).trans hk)
  have er : dot_S100000x16_S16x16_S100000x16_1_0_0_1_n_n.rhsIdx (ix2 r j) ((contrEquiv1 dot_S100000x16_S16x16_S100000x16_1_0_0_1_n_n 16 rfl rfl).symm k) = ix2 k j := funext fun a => Fin.ext (by
    match a with
    | ⟨0, _⟩ => exact (Read.rhs_main_v45_0 _ _).trans hk
    | ⟨1, _⟩ => exact Read.rhs_main_v45_1 _ _)
  rw [el, er]

/-- [256, 16] · [16, 16] at (g, k). -/
theorem dotHead1_apply (x : FVec Ideal S256x16 .f32) (w : FVec Ideal S16x16 .f32) (g : Fin 256) (k : Fin 16) :
    Host.dotGeneral (F := Ideal) dot_S256x16_S16x16_S256x16_1_0_0_1_n_n none x w (ix2 g k) = ∑ j : Fin 16, x (ix2 g j) * w (ix2 j k) := by
  simp only [Host.dotGeneral]
  rw [Ideal.dotGeneral_apply, ← Equiv.sum_comp (contrEquiv1 dot_S256x16_S16x16_S256x16_1_0_0_1_n_n 16 rfl rfl).symm]
  refine Finset.sum_congr rfl fun j _ => ?_
  have hk := contrEquiv1_symm_val dot_S256x16_S16x16_S256x16_1_0_0_1_n_n 16 rfl rfl j
  have el : dot_S256x16_S16x16_S256x16_1_0_0_1_n_n.lhsIdx (ix2 g k) ((contrEquiv1 dot_S256x16_S16x16_S256x16_1_0_0_1_n_n 16 rfl rfl).symm j) = ix2 g j := funext fun a => Fin.ext (by
    match a with
    | ⟨0, _⟩ => exact Read.lhs_main_v95_0 _ _
    | ⟨1, _⟩ => exact (Read.lhs_main_v95_1 _ _).trans hk)
  have er : dot_S256x16_S16x16_S256x16_1_0_0_1_n_n.rhsIdx (ix2 g k) ((contrEquiv1 dot_S256x16_S16x16_S256x16_1_0_0_1_n_n 16 rfl rfl).symm j) = ix2 j k := funext fun a => Fin.ext (by
    match a with
    | ⟨0, _⟩ => exact (Read.rhs_main_v95_0 _ _).trans hk
    | ⟨1, _⟩ => exact Read.rhs_main_v95_1 _ _)
  rw [el, er]

/-- [256, 16] · [16, 2] at (g, o). -/
theorem dotHead2_apply (x : FVec Ideal S256x16 .f32) (w : FVec Ideal S16x2 .f32) (g : Fin 256) (o : Fin 2) :
    Host.dotGeneral (F := Ideal) dot_S256x16_S16x2_S256x2_1_0_0_1_n_n none x w (ix2 g o) = ∑ k : Fin 16, x (ix2 g k) * w (ix2 k o) := by
  simp only [Host.dotGeneral]
  rw [Ideal.dotGeneral_apply, ← Equiv.sum_comp (contrEquiv1 dot_S256x16_S16x2_S256x2_1_0_0_1_n_n 16 rfl rfl).symm]
  refine Finset.sum_congr rfl fun k _ => ?_
  have hk := contrEquiv1_symm_val dot_S256x16_S16x2_S256x2_1_0_0_1_n_n 16 rfl rfl k
  have el : dot_S256x16_S16x2_S256x2_1_0_0_1_n_n.lhsIdx (ix2 g o) ((contrEquiv1 dot_S256x16_S16x2_S256x2_1_0_0_1_n_n 16 rfl rfl).symm k) = ix2 g k := funext fun a => Fin.ext (by
    match a with
    | ⟨0, _⟩ => exact Read.lhs_main_v100_0 _ _
    | ⟨1, _⟩ => exact (Read.lhs_main_v100_1 _ _).trans hk)
  have er : dot_S256x16_S16x2_S256x2_1_0_0_1_n_n.rhsIdx (ix2 g o) ((contrEquiv1 dot_S256x16_S16x2_S256x2_1_0_0_1_n_n 16 rfl rfl).symm k) = ix2 k o := funext fun a => Fin.ext (by
    match a with
    | ⟨0, _⟩ => exact (Read.rhs_main_v100_0 _ _).trans hk
    | ⟨1, _⟩ => exact Read.rhs_main_v100_1 _ _)
  rw [el, er]

/-! ## The layer and the head at an entry -/

/-- One layer at (r, j): the neighbour sum, plus the row's own features weighted by the square of its normalisation,
    plus the bias, rectified. -/
theorem layer_apply (xw : FVec Ideal S100000x16 .f32) (b : FVec Ideal S16 .f32) (a9 a10 : IVec S1600000 32) (r : Fin 100000) (j : Fin 16) :
    layer (F := Ideal) xw b a9 a10 (ix2 r j)
      = max (agg (F := Ideal) xw (norm a9 a10) a9 a10 (ix2 r j) + xw (ix2 r j) * (dinv (F := Ideal) a10 (ix1 r) * dinv (F := Ideal) a10 (ix1 r)) + b (ix1 j)) 0 := by
  unfold layer
  rw [maximumf_apply, addf_apply, addf_apply, mulf_apply, zerosN_apply, colSpread_apply, colN_apply, mulf_apply,
    rowSpreadN_apply, row16_apply]

/-- The head at (g, o): the hidden layer's rectified affine image of the pooled row, times the output weights, plus
    the output bias. -/
theorem head_apply (p : FVec Ideal S256x16 .f32) (a5 : FVec Ideal S16x16 .f32) (a6 : FVec Ideal S16 .f32) (a7 : FVec Ideal S16x2 .f32) (a8 : FVec Ideal S2 .f32) (g : Fin 256) (o : Fin 2) :
    head (F := Ideal) p a5 a6 a7 a8 (ix2 g o)
      = (∑ k : Fin 16, max ((∑ j : Fin 16, p (ix2 g j) * a5 (ix2 j k)) + a6 (ix1 k)) 0 * a7 (ix2 k o)) + a8 (ix1 o) := by
  unfold head
  rw [addf_apply, dotHead2_apply, rowSpread2_apply, row2_apply]
  congr 1
  refine Finset.sum_congr rfl fun k _ => ?_
  rw [maximumf_apply, addf_apply, dotHead1_apply, zeros256_apply, rowSpread256_apply, row16_apply]

end Cert.Bridge

end
-- ==== Proof.KI.LibRows2.lean ====
/-
  THE ACCUMULATING SCATTER OF ROWS OF A RANK-2 TABLE, READ AT ONE ELEMENT.

  What `table.at[idx].add(rows)` of a table `[N, B]`, an index array `[E]` (held as `[E, 1]`) and rows `[E, B]`
  lowers to: `stablehlo.scatter` with an `add` body and the dimension numbers update_window_dims `[1]`,
  inserted_window_dims `[0]`, scatter_dims_to_operand_dims `[0]`, index_vector_dim `1`. Update element `(e, b)`
  lands on table element `(idx[e, 0], b)`, the index read as a signed integer and not clamped: an index that is
  negative or at least `N` lands nowhere. So table element `(n, b)` of the result is the operand's element plus
  the sum of `rows[e, b]` over the `e` whose index is `n` (`rowScatterAdd2_apply_of`), at the extended reals.
  Generic in the three extents and in the width of the index words.
-/
import Idealize.ShloMosaic.PureOps.Ideal
import Idealize.ShloMosaic.Lib.ValueIdx

noncomputable section

open scoped BigOperators

namespace Cert.LibRows2

open Idealize.ShloMosaic Idealize.ShloMosaic.ValueIdx

/-- The row scatter's dimension numbers for a table `[N, B]`, scatter indices `[E, 1]` and updates `[E, B]`; their
    conditions `wf` are decided on a program's literal shapes. -/
abbrev rowScatterDims2 (N E B : Nat)
    (wf : ScatterDims.WF ⟨2, ![N, B]⟩ ⟨2, ![E, 1]⟩ ⟨2, ![E, B]⟩ [1] [0] [0] 1) :
    ScatterDims ⟨2, ![N, B]⟩ ⟨2, ![E, 1]⟩ ⟨2, ![E, B]⟩ where
  updateWindowDims := [1]
  insertedWindowDims := [0]
  scatterDimsToOperandDims := [0]
  indexVectorDim := 1
  wf := wf

section Coordinates

variable {N E B w : Nat} (wf : ScatterDims.WF ⟨2, ![N, B]⟩ ⟨2, ![E, 1]⟩ ⟨2, ![E, B]⟩ [1] [0] [0] 1)

/-- On the table's row axis the window of update `(e, b)` starts at the scatter index `idx[e, 0]`, read signed. -/
theorem start_row (j : (⟨2, ![E, B]⟩ : Shape).Idx) (idx : IVec ⟨2, ![E, 1]⟩ w) :
    (rowScatterDims2 N E B wf).start j idx 0 = (idx (ix2 (j 0) ⟨0, Nat.one_pos⟩)).toInt := by
  unfold ScatterDims.start
  rw [dif_pos (show (0 : Fin 2) ∈ (rowScatterDims2 N E B wf).scatterDimsToOperandDims from
    List.mem_singleton.mpr rfl)]
  have hsi : (rowScatterDims2 N E B wf).siIdx j
      ⟨List.idxOf (0 : Fin 2) (rowScatterDims2 N E B wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the table's column axis the window starts at `0`: the scatter indices name rows only. -/
theorem start_col (j : (⟨2, ![E, B]⟩ : Shape).Idx) (idx : IVec ⟨2, ![E, 1]⟩ w) :
    (rowScatterDims2 N E B wf).start j idx 1 = 0 := by
  unfold ScatterDims.start
  rw [dif_neg (show (1 : Fin 2) ∉ (rowScatterDims2 N E B wf).scatterDimsToOperandDims from
    (by decide : (1 : Fin 2) ∉ ([0] : List (Fin 2))))]

/-- The row axis is an inserted one: no window coordinate on it. -/
theorem window_row (j : (⟨2, ![E, B]⟩ : Shape).Idx) : (rowScatterDims2 N E B wf).window j 0 = 0 := by
  unfold ScatterDims.window
  rw [dif_neg (show (0 : Fin 2) ∉ (rowScatterDims2 N E B wf).sKept by
    simp [ScatterDims.sKept, Shape.kept, List.mem_filter])]

/-- The column axis carries the update's column coordinate. -/
theorem window_col (j : (⟨2, ![E, B]⟩ : Shape).Idx) : (rowScatterDims2 N E B wf).window j 1 = (j 1).val := by
  unfold ScatterDims.window
  rw [dif_pos (show (1 : Fin 2) ∈ (rowScatterDims2 N E B wf).sKept by
    simp [ScatterDims.sKept, Shape.kept, List.mem_filter])]
  rfl

/-- Update `(e, b)` lands on table element `i` exactly when its scatter index, read signed, is `i`'s row and
    `b` is `i`'s column (an index outside `[0, N)` is no row, so such an update lands nowhere). -/
theorem resultIdx?_eq_some_iff (j : (⟨2, ![E, B]⟩ : Shape).Idx) (idx : IVec ⟨2, ![E, 1]⟩ w)
    (i : (⟨2, ![N, B]⟩ : Shape).Idx) :
    (rowScatterDims2 N E B wf).resultIdx? j idx = some i ↔
      (idx (ix2 (j 0) ⟨0, Nat.one_pos⟩)).toInt = ((i 0).val : Int) ∧ j 1 = i 1 := by
  have hs0 := start_row wf j idx
  have hs1 := start_col wf j idx
  have hw0 := window_row wf j
  have hw1 := window_col wf j
  have hi0 := idx2_lt0 i
  have hi1 := idx2_lt1 i
  have hj1 := idx2_lt1 j
  unfold ScatterDims.resultIdx?
  by_cases hall : ∀ a, 0 ≤ (rowScatterDims2 N E B wf).start j idx a + (rowScatterDims2 N E B wf).window j a ∧
      (rowScatterDims2 N E B wf).start j idx a + (rowScatterDims2 N E B wf).window j a
        < (⟨2, ![N, B]⟩ : Shape).size a
  · rw [dif_pos hall]
    constructor
    · intro h
      have h' := Option.some.inj h
      have h0 : ((rowScatterDims2 N E B wf).start j idx 0 + (rowScatterDims2 N E B wf).window j 0).toNat
          = (i 0).val := congrArg (fun f => (f 0).val) h'
      have h1 : ((rowScatterDims2 N E B wf).start j idx 1 + (rowScatterDims2 N E B wf).window j 1).toNat
          = (i 1).val := congrArg (fun f => (f 1).val) h'
      have ha0 := (hall 0).1
      rw [hs0, hw0] at h0 ha0
      rw [hs1, hw1] at h1
      refine ⟨by omega, Fin.ext (by omega)⟩
    · rintro ⟨h0, h1⟩
      congr 1
      funext a
      refine Fin.ext ?_
      match a with
      | ⟨0, _⟩ =>
        show ((rowScatterDims2 N E B wf).start j idx 0 + (rowScatterDims2 N E B wf).window j 0).toNat = (i 0).val
        rw [hs0, hw0, h0]; omega
      | ⟨1, _⟩ =>
        show ((rowScatterDims2 N E B wf).start j idx 1 + (rowScatterDims2 N E B wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (rowScatterDims2 N E B wf).start j idx 0 + (rowScatterDims2 N E B wf).window j 0 ∧
          (rowScatterDims2 N E B wf).start j idx 0 + (rowScatterDims2 N E B wf).window j 0 < (N : Int)
        rw [hs0, hw0, h0]; omega
      | ⟨1, _⟩ =>
        show 0 ≤ (rowScatterDims2 N E B wf).start j idx 1 + (rowScatterDims2 N E B wf).window j 1 ∧
          (rowScatterDims2 N E B wf).start j idx 1 + (rowScatterDims2 N E B wf).window j 1 < (B : Int)
        rw [hs1, hw1]; omega

/-- The same at an update index given by its coordinates. -/
theorem resultIdx?_ix2 (e : Fin E) (b : Fin B) (idx : IVec ⟨2, ![E, 1]⟩ w) (i : (⟨2, ![N, B]⟩ : Shape).Idx) :
    (rowScatterDims2 N E B wf).resultIdx? (ix2 e b) idx = some i ↔
      (idx (ix2 e ⟨0, Nat.one_pos⟩)).toInt = ((i 0).val : Int) ∧ b = i 1 :=
  resultIdx?_eq_some_iff wf (ix2 e b) idx i

end Coordinates

/-- THE ROW SCATTER READ AT ONE ELEMENT: the operand's element plus the sum, over the scatter indices that name the
    element's row, of the updates' elements in the element's column. -/
theorem rowScatterAdd2_apply_of {N E B w : Nat}
    {wf : ScatterDims.WF ⟨2, ![N, B]⟩ ⟨2, ![E, 1]⟩ ⟨2, ![E, B]⟩ [1] [0] [0] 1}
    (d : ScatterDims ⟨2, ![N, B]⟩ ⟨2, ![E, 1]⟩ ⟨2, ![E, B]⟩) (hd : d = rowScatterDims2 N E B wf)
    (x : (⟨2, ![N, B]⟩ : Shape).Idx → EReal) (idx : IVec ⟨2, ![E, 1]⟩ w)
    (upd : (⟨2, ![E, B]⟩ : Shape).Idx → EReal) (i : (⟨2, ![N, B]⟩ : Shape).Idx) :
    Ideal.hostScatterAdd d x idx upd i =
      x i + ∑ e ∈ Finset.univ.filter (fun e : Fin E =>
        (idx (ix2 e ⟨0, Nat.one_pos⟩)).toInt = ((i 0).val : Int)), upd (ix2 e (i 1)) := by
  subst hd
  unfold Ideal.hostScatterAdd
  congr 1
  rw [Finset.sum_filter, sum_idx2, Finset.sum_filter]
  refine Finset.sum_congr rfl fun e _ => ?_
  by_cases h : (idx (ix2 e ⟨0, Nat.one_pos⟩)).toInt = ((i 0).val : Int)
  · rw [if_pos h]
    refine (Finset.sum_eq_single (ι := Fin B) (i 1) ?_ ?_).trans ?_
    rotate_left 2
    · rw [if_pos ((resultIdx?_ix2 wf e (i 1) idx i).2 ⟨h, rfl⟩)]
    · intro b _ hb
      rw [if_neg]
      intro hr
      exact hb ((resultIdx?_ix2 wf e b idx i).1 hr).2
    · intro hn
      exact absurd (Finset.mem_univ _) hn
  · rw [if_neg h]
    refine Finset.sum_eq_zero fun b _ => ?_
    rw [if_neg]
    intro hr
    exact h ((resultIdx?_ix2 wf e b idx i).1 hr).1

end Cert.LibRows2

end
-- ==== Proof.KI.PoolRef.lean ====
/-
  THE REFERENCE'S SEGMENT SUM, READ AT ONE ELEMENT.

  The reference adds the rows `u : [100000,16]` into a zero table `[256,16]` at the rows their segment words
  `idx : [100000,1]` name. Read at (g, f) this is the sum of `u (q, f)` over the rows q whose word is the number g: the
  accumulating scatter lands an update on the row its index, read as a signed integer, names, and a 32-bit word is
  the word of a number below 256 exactly when its signed reading is that number.
-/
import proofs.«405230_j19808389169217_2_alg».proof.ReferenceIdeal
import proofs.«405230_j19808389169217_2_alg».proof.Proof.KI.LibRows2
import Idealize.ShloMosaic.PureOps.Ideal
import Idealize.ShloMosaic.Lib.ValueIdx
set_option maxRecDepth 16384
noncomputable section
namespace Cert.KernelIdeal.Hand
open Idealize.ShloMosaic
open scoped BigOperators

/-- A 32-bit word is the word of a number below 256 exactly when its signed reading is that number. -/
theorem toInt_eq_iff_word (w : BitVec 32) (g : Fin 256) : w.toInt = (g.val : Int) ↔ w = BitVec.ofNat 32 g.val := by
  have hg : (BitVec.ofNat 32 g.val).toInt = (g.val : Int) := by
    have := g.isLt
    rw [BitVec.toInt_eq_toNat_cond, BitVec.toNat_ofNat]
    split_ifs <;> omega
  rw [← hg, BitVec.toInt_inj]

/-- THE REFERENCE'S POOLED SUM AT (g, f): the rows whose segment word is g, summed in column f. (The scatter's dimension
    numbers cite the reference's printed side conditions, a proposition: any instance of it serves.) -/
theorem scatter_rows_apply [Cert.ReferenceIdeal.Facts₀] (idx : IVec Cert.ReferenceIdeal.S100000x1 32) (u : FVec Ideal Cert.ReferenceIdeal.S100000x16 .f32) (g : Fin 256) (f : Fin 16) :
    Host.scatterAdd (F := Ideal) Cert.ReferenceIdeal.scatter_S256x16_S100000x1_S100000x16_1_0_0_1 (fun _ => 0) idx u (ValueIdx.ix2 g f)
      = ∑ q : Fin 100000, (if idx (ValueIdx.ix2 q 0) = BitVec.ofNat 32 g.val then (1:EReal) else 0) * u (ValueIdx.ix2 q f) := by
  refine (Cert.LibRows2.rowScatterAdd2_apply_of (N := 256) (E := 100000) (B := 16)
    (wf := Cert.ReferenceIdeal.scatter_S256x16_S100000x1_S100000x16_1_0_0_1.wf)
    Cert.ReferenceIdeal.scatter_S256x16_S100000x1_S100000x16_1_0_0_1 rfl (fun _ => 0) idx u (ValueIdx.ix2 g f)).trans ?_
  rw [zero_add, Finset.sum_filter]
  refine Finset.sum_congr rfl fun q _ => ?_
  show (if (idx (ValueIdx.ix2 q 0)).toInt = (g.val : Int) then u (ValueIdx.ix2 q f) else 0) = _
  by_cases h : idx (ValueIdx.ix2 q 0) = BitVec.ofNat 32 g.val
  · rw [if_pos ((toInt_eq_iff_word _ g).2 h), if_pos h, one_mul]
  · rw [if_neg (fun h' => h ((toInt_eq_iff_word _ g).1 h')), if_neg h, zero_mul]

end Cert.KernelIdeal.Hand
-- ==== Proof.Bridge.Glue.lean ====
/-
  From a stage's values index by index to the stage as a whole array: each lemma takes an array known at every
  index (a sum over the contracted axis; the rectified affine combination of a layer; the one-hot weighted sum of
  the pooling; the head's two products) and concludes that it IS the corresponding stage of the reference's
  staged computation, by extensionality and that stage read at an index.
-/
import proofs.«405230_j19808389169217_2_alg».proof.Proof.Bridge.Pointwise
import proofs.«405230_j19808389169217_2_alg».proof.Proof.KI.PoolRef

set_option maxRecDepth 16384

noncomputable section

namespace Cert.Bridge

open Cert.ReferenceIdeal Cert.ReferenceIdeal.Gen Idealize.ShloMosaic Idealize.ShloMosaic.TcCoe Idealize.SL.Sem Idealize.ShloMosaic.ValueIdx

/-- An array that is row-by-column sums of products over the 128 features is the product `x · w`. -/
theorem dot128_of (X : FVec Ideal S100000x16 .f32) (x : FVec Ideal S100000x128 .f32) (w : FVec Ideal S128x16 .f32)
    (h : ∀ (r : Fin 100000) (j : Fin 16), X (ix2 r j) = ∑ k : Fin 128, x (ix2 r k) * w (ix2 k j)) :
    X = Host.dotGeneral (F := Ideal) dot_S100000x128_S128x16_S100000x16_1_0_0_1_n_n none x w := by
  funext i
  obtain ⟨r, j, rfl⟩ : ∃ (r : Fin 100000) (j : Fin 16), i = ix2 r j := ⟨i 0, i 1, eq_ix2 i⟩
  rw [h, dot128_apply]

/-- The same over the 16 hidden features. -/
theorem dot16_of (X : FVec Ideal S100000x16 .f32) (x : FVec Ideal S100000x16 .f32) (w : FVec Ideal S16x16 .f32)
    (h : ∀ (r : Fin 100000) (j : Fin 16), X (ix2 r j) = ∑ k : Fin 16, x (ix2 r k) * w (ix2 k j)) :
    X = Host.dotGeneral (F := Ideal) dot_S100000x16_S16x16_S100000x16_1_0_0_1_n_n none x w := by
  funext i
  obtain ⟨r, j, rfl⟩ : ∃ (r : Fin 100000) (j : Fin 16), i = ix2 r j := ⟨i 0, i 1, eq_ix2 i⟩
  rw [h, dot16_apply]

/-- An array that at every index is `max (neighbour sum + xw · dinv² + b, 0)` is the layer. -/
theorem layer_of (X A XW : FVec Ideal S100000x16 .f32) (d2 : S100000x1.Idx → EReal) (brow : S1x16.Idx → EReal)
    (xw : FVec Ideal S100000x16 .f32) (b : FVec Ideal S16 .f32) (a9 a10 : IVec S1600000 32)
    (hX : ∀ (r : Fin 100000) (j : Fin 16), X (ix2 r j) = max (A (ix2 r j) + XW (ix2 r j) * d2 (ix2 r 0) + brow (ix2 0 j)) 0)
    (hA : A = agg (F := Ideal) xw (norm a9 a10) a9 a10) (hXW : XW = xw)
    (hd : ∀ r : Fin 100000, d2 (ix2 r 0) = mulf (dinv (F := Ideal) a10) (dinv (F := Ideal) a10) (ix1 r))
    (hb : ∀ j : Fin 16, brow (ix2 0 j) = b (ix1 j)) :
    X = layer (F := Ideal) xw b a9 a10 := by
  funext i
  obtain ⟨r, j, rfl⟩ : ∃ (r : Fin 100000) (j : Fin 16), i = ix2 r j := ⟨i 0, i 1, eq_ix2 i⟩
  rw [hX, layer_apply, hA, hXW, hd, hb, mulf_apply]

/-- An array that at every index is the sum of the rows whose graph word is that index's row is the pooling sum. -/
theorem sums_of (S : FVec Ideal S256x16 .f32) (idx : IVec S100000x1 32) (x : FVec Ideal S100000x16 .f32) (a11 : IVec S100000 32)
    (h : ∀ (g : Fin 256) (f : Fin 16), S (ix2 g f) = ∑ q : Fin 100000, (if idx (ix2 q 0) = BitVec.ofNat 32 g.val then (1 : EReal) else 0) * x (ix2 q f))
    (hidx : ∀ q : Fin 100000, idx (ix2 q 0) = a11 (ix1 q)) :
    S = sums (F := Ideal) x a11 := by
  funext i
  obtain ⟨g, f, rfl⟩ : ∃ (g : Fin 256) (f : Fin 16), i = ix2 g f := ⟨i 0, i 1, eq_ix2 i⟩
  have hz : (broadcastInDim S256x16 ![] bcast_S_S256x16 (constant (F := Ideal) S_ .f32 0x00000000#32) : FVec Ideal S256x16 .f32) = fun _ => 0 :=
    funext fun i => zeros256_apply i
  unfold sums
  rw [hz, Cert.KernelIdeal.Hand.scatter_rows_apply, h]
  refine Finset.sum_congr rfl fun q _ => ?_
  rw [hidx, col_apply]

/-- An array that at every index is the head's two products with their biases and the rectifier between is the head. -/
theorem head_of (O : FVec Ideal S256x2 .f32) (p : FVec Ideal S256x16 .f32) (a5 : FVec Ideal S16x16 .f32) (a6 : FVec Ideal S16 .f32)
    (a7 : FVec Ideal S16x2 .f32) (a8 : FVec Ideal S2 .f32) (b6 : S1x16.Idx → EReal) (b8 : S1x2.Idx → EReal)
    (h : ∀ (g : Fin 256) (o : Fin 2), O (ix2 g o) = (∑ k : Fin 16, max ((∑ j : Fin 16, p (ix2 g j) * a5 (ix2 j k)) + b6 (ix2 0 k)) 0 * a7 (ix2 k o)) + b8 (ix2 0 o))
    (h6 : ∀ k : Fin 16, b6 (ix2 0 k) = a6 (ix1 k)) (h8 : ∀ o : Fin 2, b8 (ix2 0 o) = a8 (ix1 o)) :
    O = head (F := Ideal) p a5 a6 a7 a8 := by
  funext i
  obtain ⟨g, o, rfl⟩ : ∃ (g : Fin 256) (o : Fin 2), i = ix2 g o := ⟨i 0, i 1, eq_ix2 i⟩
  rw [h, head_apply, h8]
  simp only [h6]

end Cert.Bridge

end
-- ==== Proof.Bridge.KStages.lean ====
/-
  The kernel program's host stretches as staged terms. Between its six kernel regions the program runs plain array
  operations; what each stretch leaves in the buffers the regions and the later stretches read is, for any contents
  `W` of the buffers before it, a stage of the reference computation applied to `W` at the stretch's inputs:
  the edge weights `norm` and the squared degree normalisation before the first region; a layer's neighbour sum
  `agg` of the transformed features, with the normalisation as a column and the bias as a row, before each
  post-processing region; the graph ids as a column before the pooling region; the pooled sums divided by the
  node counts, with the head's two biases as rows, before the last. A reshape to a column or to a row reads, at an
  index, the vector's entry at the one free coordinate.
-/
import proofs.«405230_j19808389169217_2_alg».proof.Proof.Bridge.Spec
import proofs.«405230_j19808389169217_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.ValueIdx

variable {F : FTy → Type} [FloatOps F]

/-! ## A reshape read at an index -/

section ReshapeRead
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `[100000] → [100000, 1]` reshape of `v` reads, at row `r`, `v r`. -/
theorem reshape_col_apply (v : S100000.Idx → α) (h : S100000.ShapeCasts S100000x1) (r : Fin 100000) (u : Fin 1) :
    shapeCast S100000x1 v h (ix2 r u) = v (ix1 r) :=
  shapeCast_a_a1_apply v h r u

/-- The `[16] → [1, 16]` reshape of `v` reads, at column `j`, `v j`. -/
theorem reshape_row16_apply (v : S16.Idx → α) (h : S16.ShapeCasts S1x16) (u : Fin 1) (j : Fin 16) :
    shapeCast S1x16 v h (ix2 u j) = v (ix1 j) :=
  shapeCast_a_1a_apply v h u j

/-- The `[2] → [1, 2]` reshape of `v` reads, at column `j`, `v j`. -/
theorem reshape_row2_apply (v : S2.Idx → α) (h : S2.ShapeCasts S1x2) (u : Fin 1) (j : Fin 2) :
    shapeCast S1x2 v h (ix2 u j) = v (ix1 j) :=
  shapeCast_a_1a_apply v h u j

end ReshapeRead

/-! ## Before the first region: the edge weights and the squared normalisation -/

/-- The edge weights: `dinv (src e) · dinv (dst e)`, with `dinv = (deg + 1)^(-1/2)`. -/
theorem st0_v22 (W : Valuation τ sig (Elt F)) :
    StableHlo.after hostOps0 W (Proc.devRef .tc main_v22)
      = Cert.Bridge.norm (W (Proc.devRef .tc main_arg9)) (W (Proc.devRef .tc main_arg10)) := by
  show StableHlo.after hostOps0 W (Proc.devRef .tc main_v22) = _
  after_results_simp
  rfl

/-- The self-loop weight `dinv r²`. -/
theorem st0_v7 (W : Valuation τ sig (Elt F)) :
    StableHlo.after hostOps0 W (Proc.devRef .tc main_v7)
      = mulf (Cert.Bridge.dinv (W (Proc.devRef .tc main_arg10))) (Cert.Bridge.dinv (W (Proc.devRef .tc main_arg10))) := by
  show StableHlo.after hostOps0 W (Proc.devRef .tc main_v7) = _
  after_results_simp
  rfl

/-! ## Before the first layer's post-processing region -/

/-- The first layer's neighbour sum of the transformed features. -/
theorem st1_v36 (W : Valuation τ sig (Elt F)) :
    StableHlo.after hostOps1 W (Proc.devRef .tc main_v36)
      = Cert.Bridge.agg (W (Proc.devRef .tc main_v23)) (W (Proc.devRef .tc main_v22))
          (W (Proc.devRef .tc main_arg9)) (W (Proc.devRef .tc main_arg10)) := by
  show StableHlo.after hostOps1 W (Proc.devRef .tc main_v36) = _
  after_results_simp
  rfl

/-- The self-loop weights as a column. -/
theorem st1_v37 (W : Valuation τ sig (Elt F)) :
    StableHlo.after hostOps1 W (Proc.devRef .tc main_v37)
      = shapeCast S100000x1 (W (Proc.devRef .tc main_v7)) shapeCasts_S100000_S100000x1 := by
  show StableHlo.after hostOps1 W (Proc.devRef .tc main_v37) = _
  after_results_simp
  rfl

/-- The first layer's bias as a row. -/
theorem st1_v38 (W : Valuation τ sig (Elt F)) :
    StableHlo.after hostOps1 W (Proc.devRef .tc main_v38)
      = shapeCast S1x16 (W (Proc.devRef .tc main_arg2)) shapeCasts_S16_S1x16 := by
  show StableHlo.after hostOps1 W (Proc.devRef .tc main_v38) = _
  after_results_simp
  rfl

/-! ## Before the second layer's post-processing region -/

/-- The second layer's neighbour sum of the transformed features. -/
theorem st3_v53 (W : Valuation τ sig (Elt F)) :
    StableHlo.after hostOps3 W (Proc.devRef .tc main_v53)
      = Cert.Bridge.agg (W (Proc.devRef .tc main_v40)) (W (Proc.devRef .tc main_v22))
          (W (Proc.devRef .tc main_arg9)) (W (Proc.devRef .tc main_arg10)) := by
  show StableHlo.after hostOps3 W (Proc.devRef .tc main_v53) = _
  after_results_simp
  rfl

/-- The self-loop weights as a column. -/
theorem st3_v54 (W : Valuation τ sig (Elt F)) :
    StableHlo.after hostOps3 W (Proc.devRef .tc main_v54)
      = shapeCast S100000x1 (W (Proc.devRef .tc main_v7)) shapeCasts_S100000_S100000x1 := by
  show StableHlo.after hostOps3 W (Proc.devRef .tc main_v54) = _
  after_results_simp
  rfl

/-- The second layer's bias as a row. -/
theorem st3_v55 (W : Valuation τ sig (Elt F)) :
    StableHlo.after hostOps3 W (Proc.devRef .tc main_v55)
      = shapeCast S1x16 (W (Proc.devRef .tc main_arg4)) shapeCasts_S16_S1x16 := by
  show StableHlo.after hostOps3 W (Proc.devRef .tc main_v55) = _
  after_results_simp
  rfl

/-! ## Before the pooling region -/

/-- The graph id of each node, as a column. -/
theorem st4_v57 (W : Valuation τ sig (Elt F)) :
    StableHlo.after hostOps4 W (Proc.devRef .tc main_v57)
      = shapeCast S100000x1 (W (Proc.devRef .tc main_arg11)) shapeCasts_S100000_S100000x1 := by
  show StableHlo.after hostOps4 W (Proc.devRef .tc main_v57) = _
  after_results_simp
  rfl

/-! ## Before the head -/

/-- The pooled sums divided by the node counts: the per-graph means. -/
theorem st5_v67 (W : Valuation τ sig (Elt F)) :
    StableHlo.after hostOps5 W (Proc.devRef .tc main_v67)
      = Host.divf (W (Proc.devRef .tc main_v58)) (Cert.Bridge.cnts (W (Proc.devRef .tc main_arg11))) := by
  show StableHlo.after hostOps5 W (Proc.devRef .tc main_v67) = _
  after_results_simp
  rfl

/-- The head's first bias as a row. -/
theorem st5_v68 (W : Valuation τ sig (Elt F)) :
    StableHlo.after hostOps5 W (Proc.devRef .tc main_v68)
      = shapeCast S1x16 (W (Proc.devRef .tc main_arg6)) shapeCasts_S16_S1x16 := by
  show StableHlo.after hostOps5 W (Proc.devRef .tc main_v68) = _
  after_results_simp
  rfl

/-- The head's second bias as a row. -/
theorem st5_v69 (W : Valuation τ sig (Elt F)) :
    StableHlo.after hostOps5 W (Proc.devRef .tc main_v69)
      = shapeCast S1x2 (W (Proc.devRef .tc main_arg8)) shapeCasts_S2_S1x2 := by
  show StableHlo.after hostOps5 W (Proc.devRef .tc main_v69) = _
  after_results_simp
  rfl

end Cert.KernelIdeal.Hand

end
-- ==== Proof.KI.Final.lean ====
/-
  The idealized kernel's result array is the reference's staged computation of the launch arrays.
  Walking @main's eleven segments: a host stretch leaves in each buffer the staged term of what it found
  (the edge weights, the squared degree normalisation, a layer's neighbour sum, the node counts), and each kernel
  region leaves in its output array one stage read index by index — the feature products `x · W` as sums over the
  contracted axis, a layer as the rectified sum of neighbour term, self term and bias, the pooling as the sum of the
  rows whose graph word names the row, the head as two products with biases around a rectifier. A buffer that no
  later segment writes keeps its contents to the end.
-/
import proofs.«405230_j19808389169217_2_alg».proof.Proof.KI.Run
import proofs.«405230_j19808389169217_2_alg».proof.Proof.KI.Reg4Value
import proofs.«405230_j19808389169217_2_alg».proof.Proof.Bridge.Glue
import proofs.«405230_j19808389169217_2_alg».proof.Proof.Bridge.KStages

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- A launch array of core `c`. -/
abbrev arg (r : Ref sig .tc) : Buf (Elt Ideal) ((c : Thread nD τ).loc r) := m ((c : Thread nD τ).loc r)

/-! ## Buffers that later segments leave alone -/

/-- `r` is written by no host stretch after the first and is no region's output array. -/
structure Late (r : Ref sig .tc) : Prop where
  h1 : r ∉ (hostOps1_W : List (Ref sig .tc))
  h3 : r ∉ (hostOps3_W : List (Ref sig .tc))
  h4 : r ∉ (hostOps4_W : List (Ref sig .tc))
  h5 : r ∉ (hostOps5_W : List (Ref sig .tc))
  n23 : r ≠ main_v23
  n39 : r ≠ main_v39
  n40 : r ≠ main_v40
  n56 : r ≠ main_v56
  n58 : r ≠ main_v58

variable {r : Ref sig .tc}

theorem to2 (k : Late r) : W2 m ρ c (Proc.devRef .tc r) = W1 m ρ c (Proc.devRef .tc r) := W2_keep m ρ c r k.n23
theorem to3 (k : Late r) : W3 m ρ c (Proc.devRef .tc r) = W1 m ρ c (Proc.devRef .tc r) :=
  (StableHlo.after_of_writes_sub hostOps1 _ hostOps1_writes k.h1).trans (to2 m ρ c k)
theorem to4 (k : Late r) : W4 m ρ c (Proc.devRef .tc r) = W1 m ρ c (Proc.devRef .tc r) := (W4_keep m ρ c r k.n39).trans (to3 m ρ c k)
theorem to5 (k : Late r) : W5 m ρ c (Proc.devRef .tc r) = W1 m ρ c (Proc.devRef .tc r) := (W5_keep m ρ c r k.n40).trans (to4 m ρ c k)
theorem to6 (k : Late r) : W6 m ρ c (Proc.devRef .tc r) = W1 m ρ c (Proc.devRef .tc r) :=
  (StableHlo.after_of_writes_sub hostOps3 _ hostOps3_writes k.h3).trans (to5 m ρ c k)
theorem to7 (k : Late r) : W7 m ρ c (Proc.devRef .tc r) = W1 m ρ c (Proc.devRef .tc r) := (W7_keep m ρ c r k.n56).trans (to6 m ρ c k)
theorem to8 (k : Late r) : W8 m ρ c (Proc.devRef .tc r) = W1 m ρ c (Proc.devRef .tc r) :=
  (StableHlo.after_of_writes_sub hostOps4 _ hostOps4_writes k.h4).trans (to7 m ρ c k)
theorem to9 (k : Late r) : W9 m ρ c (Proc.devRef .tc r) = W1 m ρ c (Proc.devRef .tc r) := (W9_keep m ρ c r k.n58).trans (to8 m ρ c k)
theorem to10 (k : Late r) : W10 m ρ c (Proc.devRef .tc r) = W1 m ρ c (Proc.devRef .tc r) :=
  (StableHlo.after_of_writes_sub hostOps5 _ hostOps5_writes k.h5).trans (to9 m ρ c k)

/-- The first stretch does not write `r` either: it holds its launch contents after it. -/
theorem at1 (h0 : r ∉ (hostOps0_W : List (Ref sig .tc))) : W1 m ρ c (Proc.devRef .tc r) = arg m c r :=
  StableHlo.after_of_writes_sub hostOps0 _ hostOps0_writes h0

theorem late_arg0 : Late main_arg0 := ⟨by decide, by decide, by decide, by decide, by decide, by decide, by decide, by decide, by decide⟩
theorem late_arg1 : Late main_arg1 := ⟨by decide, by decide, by decide, by decide, by decide, by decide, by decide, by decide, by decide⟩
theorem late_arg2 : Late main_arg2 := ⟨by decide, by decide, by decide, by decide, by decide, by decide, by decide, by decide, by decide⟩
theorem late_arg3 : Late main_arg3 := ⟨by decide, by decide, by decide, by decide, by decide, by decide, by decide, by decide, by decide⟩
theorem late_arg4 : Late main_arg4 := ⟨by decide, by decide, by decide, by decide, by decide, by decide, by decide, by decide, by decide⟩
theorem late_arg5 : Late main_arg5 := ⟨by decide, by decide, by decide, by decide, by decide, by decide, by decide, by decide, by decide⟩
theorem late_arg6 : Late main_arg6 := ⟨by decide, by decide, by decide, by decide, by decide, by decide, by decide, by decide, by decide⟩
theorem late_arg7 : Late main_arg7 := ⟨by decide, by decide, by decide, by decide, by decide, by decide, by decide, by decide, by decide⟩
theorem late_arg8 : Late main_arg8 := ⟨by decide, by decide, by decide, by decide, by decide, by decide, by decide, by decide, by decide⟩
theorem late_arg9 : Late main_arg9 := ⟨by decide, by decide, by decide, by decide, by decide, by decide, by decide, by decide, by decide⟩
theorem late_arg10 : Late main_arg10 := ⟨by decide, by decide, by decide, by decide, by decide, by decide, by decide, by decide, by decide⟩
theorem late_arg11 : Late main_arg11 := ⟨by decide, by decide, by decide, by decide, by decide, by decide, by decide, by decide, by decide⟩
theorem late_v22 : Late main_v22 := ⟨by decide, by decide, by decide, by decide, by decide, by decide, by decide, by decide, by decide⟩
theorem late_v7 : Late main_v7 := ⟨by decide, by decide, by decide, by decide, by decide, by decide, by decide, by decide, by decide⟩

/-! ## The stages, buffer by buffer -/

/-- The launch arrays of core `c`, typed as the staged computation takes them. -/
abbrev A0 : FVec Ideal Cert.ReferenceIdeal.S100000x128 .f32 := m ((c : Thread nD τ).loc main_arg0)
abbrev A1 : FVec Ideal Cert.ReferenceIdeal.S128x16 .f32 := m ((c : Thread nD τ).loc main_arg1)
abbrev A2 : FVec Ideal Cert.ReferenceIdeal.S16 .f32 := m ((c : Thread nD τ).loc main_arg2)
abbrev A3 : FVec Ideal Cert.ReferenceIdeal.S16x16 .f32 := m ((c : Thread nD τ).loc main_arg3)
abbrev A4 : FVec Ideal Cert.ReferenceIdeal.S16 .f32 := m ((c : Thread nD τ).loc main_arg4)
abbrev A5 : FVec Ideal Cert.ReferenceIdeal.S16x16 .f32 := m ((c : Thread nD τ).loc main_arg5)
abbrev A6 : FVec Ideal Cert.ReferenceIdeal.S16 .f32 := m ((c : Thread nD τ).loc main_arg6)
abbrev A7 : FVec Ideal Cert.ReferenceIdeal.S16x2 .f32 := m ((c : Thread nD τ).loc main_arg7)
abbrev A8 : FVec Ideal Cert.ReferenceIdeal.S2 .f32 := m ((c : Thread nD τ).loc main_arg8)
abbrev A9 : IVec Cert.ReferenceIdeal.S1600000 32 := m ((c : Thread nD τ).loc main_arg9)
abbrev A10 : IVec Cert.ReferenceIdeal.S1600000 32 := m ((c : Thread nD τ).loc main_arg10)
abbrev A11 : IVec Cert.ReferenceIdeal.S100000 32 := m ((c : Thread nD τ).loc main_arg11)

local notation "a0" => A0 m c
local notation "a1" => A1 m c
local notation "a2" => A2 m c
local notation "a3" => A3 m c
local notation "a4" => A4 m c
local notation "a5" => A5 m c
local notation "a6" => A6 m c
local notation "a7" => A7 m c
local notation "a8" => A8 m c
local notation "a9" => A9 m c
local notation "a10" => A10 m c
local notation "a11" => A11 m c

/-- The block-assembled products are the whole products (over arbitrary arrays). -/
theorem G0_dot (x : FVec Ideal Cert.ReferenceIdeal.S100000x128 .f32) (w : FVec Ideal Cert.ReferenceIdeal.S128x16 .f32) :
    G0 x w = Host.dotGeneral (F := Ideal) Cert.ReferenceIdeal.dot_S100000x128_S128x16_S100000x16_1_0_0_1_n_n none x w :=
  Cert.Bridge.dot128_of _ _ _ fun r j => rfl
theorem G2_dot (x : FVec Ideal Cert.ReferenceIdeal.S100000x16 .f32) (w : FVec Ideal Cert.ReferenceIdeal.S16x16 .f32) :
    G2 x w = Host.dotGeneral (F := Ideal) Cert.ReferenceIdeal.dot_S100000x16_S16x16_S100000x16_1_0_0_1_n_n none x w :=
  Cert.Bridge.dot16_of _ _ _ fun r j => rfl

/-- After the first stretch: the edge weights. -/
theorem w1_v22 : W1 m ρ c (Proc.devRef .tc main_v22) = Cert.Bridge.norm (F := Ideal) a9 a10 := st0_v22 (W0 m ρ c)
/-- After the first stretch: the squared degree normalisation. -/
theorem w1_v7 : W1 m ρ c (Proc.devRef .tc main_v7) = mulf (Cert.Bridge.dinv (F := Ideal) a10) (Cert.Bridge.dinv (F := Ideal) a10) := st0_v7 (W0 m ρ c)

/-- Region 0 leaves the first feature product. -/
theorem w2_v23 : W2 m ρ c (Proc.devRef .tc main_v23)
    = Host.dotGeneral (F := Ideal) Cert.ReferenceIdeal.dot_S100000x128_S128x16_S100000x16_1_0_0_1_n_n none a0 a1 := by
  have h0 : V1 m ρ c main_arg0 = a0 := at1 m c (ρ := ρ) (by decide)
  have h1 : V1 m ρ c main_arg1 = a1 := at1 m c (ρ := ρ) (by decide)
  refine (W2_arr m ρ c 2).trans ?_
  rw [final0 (V1 m ρ) c, h0, h1]
  exact G0_dot _ _

/-- The second stretch: the first layer's neighbour sum. -/
theorem w3_v36 : W3 m ρ c (Proc.devRef .tc main_v36)
    = Cert.Bridge.agg (F := Ideal) (Host.dotGeneral (F := Ideal) Cert.ReferenceIdeal.dot_S100000x128_S128x16_S100000x16_1_0_0_1_n_n none a0 a1) (Cert.Bridge.norm a9 a10) a9 a10 := by
  have h := st1_v36 (W2 m ρ c)
  rw [w2_v23 m ρ c, to2 m ρ c late_v22, w1_v22 m ρ c, to2 m ρ c late_arg9, at1 m c (ρ := ρ) (r := main_arg9) (by decide),
    to2 m ρ c late_arg10, at1 m c (ρ := ρ) (r := main_arg10) (by decide)] at h
  exact h

/-- Region 1 leaves the first layer. -/
theorem w4_v39 : W4 m ρ c (Proc.devRef .tc main_v39) = Cert.Bridge.x1 (F := Ideal) a0 a1 a2 a9 a10 := by
  have h36 : V3 m ρ c main_v36 = Cert.Bridge.agg (F := Ideal) (Host.dotGeneral (F := Ideal) Cert.ReferenceIdeal.dot_S100000x128_S128x16_S100000x16_1_0_0_1_n_n none a0 a1) (Cert.Bridge.norm a9 a10) a9 a10 := w3_v36 m ρ c
  have h23 : V3 m ρ c main_v23 = (Host.dotGeneral (F := Ideal) Cert.ReferenceIdeal.dot_S100000x128_S128x16_S100000x16_1_0_0_1_n_n none a0 a1) :=
    (StableHlo.after_of_writes_sub hostOps1 _ hostOps1_writes (by decide)).trans (w2_v23 m ρ c)
  have h37 : V3 m ρ c main_v37 = shapeCast S100000x1 (mulf (Cert.Bridge.dinv (F := Ideal) a10) (Cert.Bridge.dinv (F := Ideal) a10)) shapeCasts_S100000_S100000x1 := by
    have h := st1_v37 (W2 m ρ c)
    rw [to2 m ρ c late_v7, w1_v7 m ρ c] at h
    exact h
  have h38 : V3 m ρ c main_v38 = shapeCast S1x16 a2 shapeCasts_S16_S1x16 := by
    have h := st1_v38 (W2 m ρ c)
    rw [to2 m ρ c late_arg2, at1 m c (ρ := ρ) (r := main_arg2) (by decide)] at h
    exact h
  refine (W4_arr m ρ c 4).trans ?_
  rw [final1 (V3 m ρ) c, h36, h23, h37, h38]
  unfold Cert.Bridge.x1
  exact Cert.Bridge.layer_of _ _ _ _ _ _ a2 a9 a10 (fun r j => G1_apply _ _ _ _ r j) rfl rfl
    (fun r => by rw [reshape_col_apply]) (fun j => by rw [reshape_row16_apply])

/-- Region 2 leaves the second feature product. -/
theorem w5_v40 : W5 m ρ c (Proc.devRef .tc main_v40)
    = Host.dotGeneral (F := Ideal) Cert.ReferenceIdeal.dot_S100000x16_S16x16_S100000x16_1_0_0_1_n_n none (Cert.Bridge.x1 (F := Ideal) a0 a1 a2 a9 a10) a3 := by
  have h0 : V4 m ρ c main_v39 = Cert.Bridge.x1 (F := Ideal) a0 a1 a2 a9 a10 := w4_v39 m ρ c
  have h1 : V4 m ρ c main_arg3 = a3 := (to4 m ρ c late_arg3).trans (at1 m c (ρ := ρ) (by decide))
  refine (W5_arr m ρ c 2).trans ?_
  rw [final2 (V4 m ρ) c, h0, h1]
  exact G2_dot _ _

/-- The third stretch: the second layer's neighbour sum. -/
theorem w6_v53 : W6 m ρ c (Proc.devRef .tc main_v53)
    = Cert.Bridge.agg (F := Ideal) (Host.dotGeneral (F := Ideal) Cert.ReferenceIdeal.dot_S100000x16_S16x16_S100000x16_1_0_0_1_n_n none (Cert.Bridge.x1 (F := Ideal) a0 a1 a2 a9 a10) a3) (Cert.Bridge.norm a9 a10) a9 a10 := by
  have h := st3_v53 (W5 m ρ c)
  rw [w5_v40 m ρ c, to5 m ρ c late_v22, w1_v22 m ρ c, to5 m ρ c late_arg9, at1 m c (ρ := ρ) (r := main_arg9) (by decide),
    to5 m ρ c late_arg10, at1 m c (ρ := ρ) (r := main_arg10) (by decide)] at h
  exact h

/-- Region 3 leaves the second layer. -/
theorem w7_v56 : W7 m ρ c (Proc.devRef .tc main_v56) = Cert.Bridge.x2 (F := Ideal) a0 a1 a2 a3 a4 a9 a10 := by
  have h53 : V6 m ρ c main_v53 = Cert.Bridge.agg (F := Ideal) (Host.dotGeneral (F := Ideal) Cert.ReferenceIdeal.dot_S100000x16_S16x16_S100000x16_1_0_0_1_n_n none (Cert.Bridge.x1 (F := Ideal) a0 a1 a2 a9 a10) a3) (Cert.Bridge.norm a9 a10) a9 a10 := w6_v53 m ρ c
  have h40 : V6 m ρ c main_v40 = (Host.dotGeneral (F := Ideal) Cert.ReferenceIdeal.dot_S100000x16_S16x16_S100000x16_1_0_0_1_n_n none (Cert.Bridge.x1 (F := Ideal) a0 a1 a2 a9 a10) a3) :=
    (StableHlo.after_of_writes_sub hostOps3 _ hostOps3_writes (by decide)).trans (w5_v40 m ρ c)
  have h54 : V6 m ρ c main_v54 = shapeCast S100000x1 (mulf (Cert.Bridge.dinv (F := Ideal) a10) (Cert.Bridge.dinv (F := Ideal) a10)) shapeCasts_S100000_S100000x1 := by
    have h := st3_v54 (W5 m ρ c)
    rw [to5 m ρ c late_v7, w1_v7 m ρ c] at h
    exact h
  have h55 : V6 m ρ c main_v55 = shapeCast S1x16 a4 shapeCasts_S16_S1x16 := by
    have h := st3_v55 (W5 m ρ c)
    rw [to5 m ρ c late_arg4, at1 m c (ρ := ρ) (r := main_arg4) (by decide)] at h
    exact h
  refine (W7_arr m ρ c 4).trans ?_
  rw [final3 (V6 m ρ) c, h53, h40, h54, h55]
  unfold Cert.Bridge.x2
  exact Cert.Bridge.layer_of _ _ _ _ _ _ a4 a9 a10 (fun r j => G3_apply _ _ _ _ r j) rfl rfl
    (fun r => by rw [reshape_col_apply]) (fun j => by rw [reshape_row16_apply])

/-- Region 4 leaves the per-graph sums. -/
theorem w9_v58 : W9 m ρ c (Proc.devRef .tc main_v58) = Cert.Bridge.sums (F := Ideal) (Cert.Bridge.x2 (F := Ideal) a0 a1 a2 a3 a4 a9 a10) a11 := by
  have h56 : V8 m ρ c main_v56 = (Cert.Bridge.x2 (F := Ideal) a0 a1 a2 a3 a4 a9 a10) :=
    (StableHlo.after_of_writes_sub hostOps4 _ hostOps4_writes (by decide)).trans (w7_v56 m ρ c)
  have h57 : V8 m ρ c main_v57 = shapeCast S100000x1 a11 shapeCasts_S100000_S100000x1 := by
    have h := st4_v57 (W7 m ρ c)
    rw [to7 m ρ c late_arg11, at1 m c (ρ := ρ) (r := main_arg11) (by decide)] at h
    exact h
  refine (W9_arr m ρ c 2).trans ?_
  refine Cert.Bridge.sums_of _ (shapeCast S100000x1 a11 shapeCasts_S100000_S100000x1) (Cert.Bridge.x2 (F := Ideal) a0 a1 a2 a3 a4 a9 a10) a11 (fun g f => ?_) (fun q => ?_)
  · rw [value4 (V8 m ρ) c g f, h56, h57]
  · rw [reshape_col_apply]

/-- The last stretch: the pooled means. -/
theorem w10_v67 : W10 m ρ c (Proc.devRef .tc main_v67)
    = Host.divf (F := Ideal) (Cert.Bridge.sums (F := Ideal) (Cert.Bridge.x2 (F := Ideal) a0 a1 a2 a3 a4 a9 a10) a11) (Cert.Bridge.cnts (F := Ideal) a11) := by
  have h := st5_v67 (W9 m ρ c)
  rw [w9_v58 m ρ c, to9 m ρ c late_arg11, at1 m c (ρ := ρ) (r := main_arg11) (by decide)] at h
  exact h

/-- Region 5 leaves the head of the pooled means: the whole computation. -/
theorem kernel_value : (dat5 (V10 m ρ) c).arrAt 5 cfg5.N
    = Cert.Bridge.whole (F := Ideal) a0 a1 a2 a3 a4 a5 a6 a7 a8 a9 a10 a11 := by
  have h67 : V10 m ρ c main_v67 = Host.divf (F := Ideal) (Cert.Bridge.sums (F := Ideal) (Cert.Bridge.x2 (F := Ideal) a0 a1 a2 a3 a4 a9 a10) a11) (Cert.Bridge.cnts (F := Ideal) a11) := w10_v67 m ρ c
  have h5 : V10 m ρ c main_arg5 = a5 := (to10 m ρ c late_arg5).trans (at1 m c (ρ := ρ) (by decide))
  have h7 : V10 m ρ c main_arg7 = a7 := (to10 m ρ c late_arg7).trans (at1 m c (ρ := ρ) (by decide))
  have h68 : V10 m ρ c main_v68 = shapeCast S1x16 a6 shapeCasts_S16_S1x16 := by
    have h := st5_v68 (W9 m ρ c)
    rw [to9 m ρ c late_arg6, at1 m c (ρ := ρ) (r := main_arg6) (by decide)] at h
    exact h
  have h69 : V10 m ρ c main_v69 = shapeCast S1x2 a8 shapeCasts_S2_S1x2 := by
    have h := st5_v69 (W9 m ρ c)
    rw [to9 m ρ c late_arg8, at1 m c (ρ := ρ) (r := main_arg8) (by decide)] at h
    exact h
  unfold Cert.Bridge.whole
  refine Cert.Bridge.head_of _ _ a5 a6 a7 a8 (shapeCast S1x16 a6 shapeCasts_S16_S1x16) (shapeCast S1x2 a8 shapeCasts_S2_S1x2) (fun g o => ?_) (fun k => ?_) (fun o => ?_)
  · rw [value5 (V10 m ρ) c g o, h67, h5, h7, h68, h69]
  · rw [reshape_row16_apply]
  · rw [reshape_row2_apply]

end Cert.KernelIdeal.Hand

end
-- ==== Proof.lean ====
/-
  A two-layer graph convolution with mean pooling and a two-layer head, as six kernel regions among host operations,
  against the same network written with whole-array operations.

  Both programs compute, from node features `x`, edge lists `src`, `dst` and a graph word per node:
  `dinv = (deg + 1)^(-1/2)`; per layer `max (Σ_{e : dst e = r} (x W)(src e) · dinv (src e) · dinv (dst e) + (x W) r · dinv r² + b, 0)`;
  the per-graph mean of the second layer's rows; and `max (p Wf + bf, 0) Wo + bo`. The degree, the gathers and the scatter-adds
  are the same host operations in both programs. The kernel regions replace: each `x W` by a product computed block of rows
  by block of rows (exact reals: the same sums over the contracted axis); each layer's elementwise tail by the same arithmetic
  on blocks; the pooling sum by a one-hot matrix product accumulated over fifty blocks of rows, which is the sum of the rows
  whose graph word names the output row — what the scatter-add of whole rows is; the head by its two products in one block.
  No law beyond reordering finite sums and `0 · y = 0`, `1 · y = y` on the extended reals is used, so the precondition is not opened.

  Frames: the two kernel programs run their eleven segments in order (each region's pipeline stages its windows, runs the
  body at every grid point and writes the output blocks back; the pooling region carries its accumulator in a scratch buffer
  between points); no segment writes an argument array. The reference is a straight line of host operations.
-/
import proofs.«405230_j19808389169217_2_alg».proof.Defs
import proofs.«405230_j19808389169217_2_alg».proof.Proof.Gen.Kernel
import proofs.«405230_j19808389169217_2_alg».proof.Proof.Gen.KernelIdeal
import proofs.«405230_j19808389169217_2_alg».proof.Proof.Gen.ReferenceIdeal
import proofs.«405230_j19808389169217_2_alg».proof.Proof.Gen.Pre_finite_inputs
import proofs.«405230_j19808389169217_2_alg».proof.Proof.Gen.ReferenceIdeal.Run
import proofs.«405230_j19808389169217_2_alg».proof.Proof.Bridge.Spec
import proofs.«405230_j19808389169217_2_alg».proof.Proof.K.Run
import proofs.«405230_j19808389169217_2_alg».proof.Proof.KI.Run
import proofs.«405230_j19808389169217_2_alg».proof.Proof.KI.Final
import Idealize.ShloMosaic.Adequacy
import Idealize.ShloMosaic.Init

set_option maxRecDepth 16384

noncomputable section

namespace Cert.Proof

open Idealize.ShloMosaic Idealize.SL.Sem

/-- The word-level program runs and keeps its arguments. -/
theorem frame_p : Cert.frame_Kernel (hKernel := Cert.Kernel.Gen.facts) (hPre_finite_inputs := Cert.Pre_finite_inputs.Gen.facts) :=
  fun m ρ _ => Cert.Kernel.Hand.frame m ρ

/-- The idealized program runs and keeps its arguments. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the staged computation of the (agreeing) argument arrays. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Bridge.whole (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Hand.kernel_value m ρ c), (h c).2⟩) (Cert.KernelIdeal.Hand.run_value m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.Bridge.ref_whole, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
